-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128x2048 : Shape := ⟨3, ![128, 128, 2048]⟩
abbrev S128x2048 : Shape := ⟨2, ![128, 2048]⟩
abbrev S64x128 : Shape := ⟨2, ![64, 128]⟩
abbrev S_ : Shape := ⟨0, ![]⟩

class Facts : Prop where
  bcast_S_S128x128x2048 : S_.BroadcastsInDim S128x128x2048 (![] : Fin 0 → Fin S128x128x2048.rank)
  reducesTo_S128x128x2048_S_d0_1_2 : S128x128x2048.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S128x2048 : S_.BroadcastsInDim S128x2048 (![] : Fin 0 → Fin S128x2048.rank)
  reducesTo_S128x2048_S_d0_1 : S128x2048.ReducesTo [0, 1] S_

variable [Facts]

def fn {F : FTy → Type} [FloatOps F] (main_arg0 : FVec F S128x128x2048 .f32) (main_arg1 : IVec S128x2048 32) (main_arg2 : FVec F S64x128 .f32) : IVec S_ 1 :=
  let main_v0 : FVec F S128x128x2048 .f32 := Host.absf main_arg0
  let main_cst : FVec F S_ .f32 := constant S_ .f32 0x7F800000#32
  let main_v1 : FVec F S128x128x2048 .f32 := broadcastInDim S128x128x2048 ![] bcast_S_S128x128x2048 main_cst
  let main_v2 : IVec S128x128x2048 1 := cmpf .olt main_v0 main_v1
  let main_c : IVec S_ 1 := constantI S_ 1 1#1
  let main_v3 : IVec S_ 1 := (fun x v => Host.reduce IntOp.andi x v reducesTo_S128x128x2048_S_d0_1_2 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_c_2 : IVec S_ 32 := constantI S_ 32 0#32
  let main_v9 : IVec S128x2048 32 := broadcastInDim S128x2048 ![] bcast_S_S128x2048 main_c_2
  let main_v10 : IVec S128x2048 1 := cmpi .sge main_arg1 main_v9
  let main_c_3 : IVec S_ 32 := constantI S_ 32 64#32
  let main_v11 : IVec S128x2048 32 := broadcastInDim S128x2048 ![] bcast_S_S128x2048 main_c_3
  let main_v12 : IVec S128x2048 1 := cmpi .slt main_arg1 main_v11
  let main_v13 : IVec S128x2048 1 := andi main_v10 main_v12
  let main_c_4 : IVec S_ 1 := constantI S_ 1 1#1
  let main_v14 : IVec S_ 1 := (fun x v => Host.reduce IntOp.andi x v reducesTo_S128x2048_S_d0_1 h_S_) main_v13 main_c_4
  let main_v15 : IVec S_ 1 := andi main_v8 main_v14
  main_v15
-- ==== Kernel.lean ====
abbrev S128x128x2048 : Shape := ⟨3, ![128, 128, 2048]⟩
abbrev S128x2048 : Shape := ⟨2, ![128, 2048]⟩
abbrev S64x128 : Shape := ⟨2, ![64, 128]⟩
abbrev S128x1x2048 : Shape := ⟨3, ![128, 1, 2048]⟩
abbrev S2x64x128 : Shape := ⟨3, ![2, 64, 128]⟩
abbrev S2x1x1 : Shape := ⟨3, ![2, 1, 1]⟩
abbrev S8x128x2048 : Shape := ⟨3, ![8, 128, 2048]⟩
abbrev S8x1x2048 : Shape := ⟨3, ![8, 1, 2048]⟩
abbrev S1x64x128 : Shape := ⟨3, ![1, 64, 128]⟩
abbrev S1x1x1 : Shape := ⟨3, ![1, 1, 1]⟩
abbrev S64x2048 : Shape := ⟨2, ![64, 2048]⟩
abbrev S1x128x2048 : Shape := ⟨3, ![1, 128, 2048]⟩
abbrev S1x1x2048 : Shape := ⟨3, ![1, 1, 2048]⟩
abbrev S1x2048 : Shape := ⟨2, ![1, 2048]⟩
abbrev S2048 : Shape := ⟨1, ![2048]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩
abbrev S262144 : Shape := ⟨1, ![262144]⟩
abbrev S64 : Shape := ⟨1, ![64]⟩
abbrev S262144x1 : Shape := ⟨2, ![262144, 1]⟩
abbrev S64x1 : Shape := ⟨2, ![64, 1]⟩

abbrev nBuf : Space → Nat
  | .hbm => 55
  | .vmem => 8
  | .smem => 0
  | _ => 0

abbrev bufTy : (tb : Table) → Fin (tcTables nBuf tb) → BufTy
  | .hbm, ⟨0, _⟩ => ⟨S128x128x2048, .f32⟩
  | .hbm, ⟨1, _⟩ => ⟨S128x2048, .i32⟩
  | .hbm, ⟨2, _⟩ => ⟨S64x128, .f32⟩
  | .hbm, ⟨3, _⟩ => ⟨S128x1x2048, .i32⟩
  | .hbm, ⟨4, _⟩ => ⟨S2x64x128, .f32⟩
  | .hbm, ⟨5, _⟩ => ⟨S2x1x1, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S_, .f32⟩
  | .hbm, ⟨10, _⟩ => ⟨S262144, .i32⟩
  | .hbm, ⟨11, _⟩ => ⟨S_, .i32⟩
  | .hbm, ⟨12, _⟩ => ⟨S64, .i32⟩
  | .hbm, ⟨13, _⟩ => ⟨S_, .i32⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S_, .i32⟩
  | .hbm, ⟨18, _⟩ => ⟨S262144, .i32⟩
  | .hbm, ⟨19, _⟩ => ⟨S262144, .i1⟩
  | .hbm, ⟨20, _⟩ => ⟨S_, .i32⟩
  | .hbm, ⟨21, _⟩ => ⟨S262144, .i32⟩
  | .hbm, ⟨22, _⟩ => ⟨S262144, .i32⟩
  | .hbm, ⟨23, _⟩ => ⟨S262144, .i32⟩
  | .hbm, ⟨24, _⟩ => ⟨S262144x1, .i32⟩
  | .hbm, ⟨25, _⟩ => ⟨S_, .i32⟩
  | .hbm, ⟨26, _⟩ => ⟨S262144, .i32⟩
  | .hbm, ⟨27, _⟩ => ⟨S64, .i32⟩
  | .hbm, ⟨28, _⟩ => ⟨S64, .f32⟩
  | .hbm, ⟨29, _⟩ => ⟨S64x1, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S_, .i32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S64x1, .f32⟩
  | .hbm, ⟨38, _⟩ => ⟨S64x128, .f32⟩
  | .hbm, ⟨39, _⟩ => ⟨S64x128, .f32⟩
  | .hbm, ⟨40, _⟩ => ⟨S64x128, .f32⟩
  | .hbm, ⟨41, _⟩ => ⟨S_, .f32⟩
  | .hbm, ⟨42, _⟩ => ⟨S_, .f32⟩
  | .hbm, ⟨43, _⟩ => ⟨S64x128, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .local _ .vmem, ⟨0, _⟩ => ⟨S8x128x2048, .f32⟩
  | .local _ .vmem, ⟨1, _⟩ => ⟨S8x128x2048, .f32⟩
  | .local _ .vmem, ⟨2, _⟩ => ⟨S8x1x2048, .i32⟩
  | .local _ .vmem, ⟨3, _⟩ => ⟨S8x1x2048, .i32⟩
  | .local _ .vmem, ⟨4, _⟩ => ⟨S1x64x128, .f32⟩
  | .local _ .vmem, ⟨5, _⟩ => ⟨S1x64x128, .f32⟩
  | .local _ .vmem, ⟨6, _⟩ => ⟨S1x1x1, .f32⟩
  | .local _ .vmem, ⟨7, _⟩ => ⟨S1x1x1, .f32⟩
  | _, _ => ⟨S128x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_4 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_call1_v0 : Ref sig .tc := ⟨.hbm, 34, rfl⟩
abbrev main_call1_v1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_10 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32_1 : BitVec 32 := 0#32
  let c8_i32 : BitVec 32 := 8#32
  let v4 : BitVec 32 := Scalar.addi c0_i32_1 c8_i32
  let c1_i32 : BitVec 32 := 1#32
  ⟨c0_i32_1, v4, c1_i32⟩
def k0_off1 (k0_t1 : Fin k0_t1_loop.trips) : Fin 3 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v5 : BitVec 32 := Scalar.muli arg6 c1_i32_3
  let v6 : BitVec 32 := Scalar.addi c0_i32_4 v5
  let v7 : Index := Scalar.indexCast v6
  let c0 : Index := 0#32
  let c0_5 : Index := 0#32
  ![v7.toNat, 0, 0]
def k0_off2 (k0_t1 : Fin k0_t1_loop.trips) : Fin 3 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v5 : BitVec 32 := Scalar.muli arg6 c1_i32_3
  let v6 : BitVec 32 := Scalar.addi c0_i32_4 v5
  let v10 : Index := Scalar.indexCast v6
  let c0_6 : Index := 0#32
  let c0_7 : Index := 0#32
  ![v10.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S128x2048_S128x1x2048 : S128x2048.ShapeCasts S128x1x2048
  inb_S1x64x128_S1x64x128_0_0_0 : ∀ a, (![0, 0, 0] : Fin 3 → Nat) a + S1x64x128.size a ≤ S1x64x128.size a
  h_S1x64x128 : 0 < S1x64x128.numel
  inb_S1x1x1_S1x1x1_0_0_0 : ∀ a, (![0, 0, 0] : Fin 3 → Nat) a + S1x1x1.size a ≤ S1x1x1.size a
  h_S1x1x1 : 0 < S1x1x1.numel
  iota_S64x2048_d0_w32 : S64x2048.Iotas .tc 32 [0]
  h_S1x128x2048 : 0 < S1x128x2048.numel
  shapeCasts_S1x128x2048_S128x2048 : S1x128x2048.ShapeCasts S128x2048
  h_S1x1x2048 : 0 < S1x1x2048.numel
  shapeCasts_S1x1x2048_S1x2048 : S1x1x2048.ShapeCasts S1x2048
  shapeCasts_S1x2048_S2048 : S1x2048.ShapeCasts S2048
  shapeCasts_S2048_S1x2048 : S2048.ShapeCasts S1x2048
  shapeCasts_S1x2048_S1x2048 : S1x2048.ShapeCasts S1x2048
  broadcasts_S1x2048_S64x2048 : S1x2048.Broadcasts S64x2048
  natLt_1_32 : 1 < 32
  bitsLt_bf16_f32 : FTy.bits .bf16 < FTy.bits .f32
  shapeCasts_S1x64x128_S1x64x128 : S1x64x128.ShapeCasts S1x64x128
  shapeCasts_S64x128_S1x64x128 : S64x128.ShapeCasts S1x64x128
  reduces_S128x2048_S128 : S128x2048.Reduces [1] S128
  shapeCasts_S128_S128x1 : S128.ShapeCasts S128x1
  reduces_S128x1_S1 : S128x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x64x128_S64x128_d0 : S2x64x128.ReducesTo [0] S64x128
  h_S_ : 0 < S_.numel
  reducesTo_S2x1x1_S_d0_1_2 : S2x1x1.ReducesTo [0, 1, 2] S_
  shapeCasts_S128x1x2048_S262144 : S128x1x2048.ShapeCasts S262144
  bcast_S_S64 : S_.BroadcastsInDim S64 (![] : Fin 0 → Fin S64.rank)
  bcast_S_S262144 : S_.BroadcastsInDim S262144 (![] : Fin 0 → Fin S262144.rank)
  bcast_S262144_S262144x1_0 : S262144.BroadcastsInDim S262144x1 (![0] : Fin 1 → Fin S262144x1.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  reducesTo_S64x128_S_d0_1 : S64x128.ReducesTo [0, 1] S_
  reducesTo_S64x128_S64_d1 : S64x128.ReducesTo [1] S64
  reducesTo_S64_S_d0 : S64.ReducesTo [0] S_
  dot_S64x2048_S128x2048_S64x128_1_1_0_0_n_n_wf : DotDims.WF S64x2048 S128x2048 S64x128 [1] [1] [0] [0] [] []
  scatter_S64_S262144x1_S262144_n_0_0_1_wf : ScatterDims.WF S64 S262144x1 S262144 [] [0] [0] 1
  hrank0 : 0 < grid0.rank
  k0_t1_ok : k0_t1_loop.OK
  k0_off1_inb : ∀ k0_t1 : Fin k0_t1_loop.trips, ∀ a, (k0_off1 k0_t1) a + S1x128x2048.size a ≤ S8x128x2048.size a
  k0_off2_inb : ∀ k0_t1 : Fin k0_t1_loop.trips, ∀ a, (k0_off2 k0_t1) a + S1x1x2048.size a ≤ S8x1x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S128x128x2048.size a
  hwx0_0 : ∀ i : grid0.Coords, EltTy.bits .f32 = 32 ∨ (Rect.block (s := S128x128x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x2048.size a ≤ S128x1x2048.size a
  hwx0_1 : ∀ i : grid0.Coords, EltTy.bits .i32 = 32 ∨ (Rect.block (s := S128x1x2048) S8x1x2048.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x64x128.size a
  hwx0_2 : ∀ i : grid0.Coords, EltTy.bits .f32 = 32 ∨ (Rect.block (s := S2x64x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

def dot_S64x2048_S128x2048_S64x128_1_1_0_0_n_n : DotDims S64x2048 S128x2048 S64x128 where
  lhsContracting := [1]
  rhsContracting := [1]
  lhsNonContracting := [0]
  rhsNonContracting := [0]
  lhsBatch := []
  rhsBatch := []
  wf := dot_S64x2048_S128x2048_S64x128_1_1_0_0_n_n_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x64x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x128x2048 : Shape := ⟨3, ![128, 128, 2048]⟩
abbrev S128x2048 : Shape := ⟨2, ![128, 2048]⟩
abbrev S64x128 : Shape := ⟨2, ![64, 128]⟩
abbrev S128x2048x128 : Shape := ⟨3, ![128, 2048, 128]⟩
abbrev S262144x128 : Shape := ⟨2, ![262144, 128]⟩
abbrev S262144 : Shape := ⟨1, ![262144]⟩
abbrev S_ : Shape := ⟨0, ![]⟩
abbrev S262144x1 : Shape := ⟨2, ![262144, 1]⟩
abbrev S64 : Shape := ⟨1, ![64]⟩
abbrev S64x1 : Shape := ⟨2, ![64, 1]⟩

abbrev nBuf : Space → Nat
  | .hbm => 51
  | .vmem => 0
  | .smem => 0
  | _ => 0

abbrev bufTy : (tb : Table) → Fin (tcTables nBuf tb) → BufTy
  | .hbm, ⟨0, _⟩ => ⟨S128x128x2048, .f32⟩
  | .hbm, ⟨1, _⟩ => ⟨S128x2048, .i32⟩
  | .hbm, ⟨2, _⟩ => ⟨S64x128, .f32⟩
  | .hbm, ⟨3, _⟩ => ⟨S128x2048x128, .f32⟩
  | .hbm, ⟨4, _⟩ => ⟨S262144x128, .f32⟩
  | .hbm, ⟨5, _⟩ => ⟨S262144, .i32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S262144x1, .i32⟩
  | .hbm, ⟨14, _⟩ => ⟨S262144x128, .f32⟩
  | .hbm, ⟨15, _⟩ => ⟨S262144x128, .f32⟩
  | .hbm, ⟨16, _⟩ => ⟨S262144x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S262144x128, .f32⟩
  | .hbm, ⟨22, _⟩ => ⟨S_, .f32⟩
  | .hbm, ⟨23, _⟩ => ⟨S64x128, .f32⟩
  | .hbm, ⟨24, _⟩ => ⟨S262144x1, .i32⟩
  | .hbm, ⟨25, _⟩ => ⟨S64x128, .f32⟩
  | .hbm, ⟨26, _⟩ => ⟨S_, .i32⟩
  | .hbm, ⟨27, _⟩ => ⟨S64, .i32⟩
  | .hbm, ⟨28, _⟩ => ⟨S_, .i32⟩
  | .hbm, ⟨29, _⟩ => ⟨S_, .i32⟩
  | .hbm, ⟨30, _⟩ => ⟨S262144, .i32⟩
  | .hbm, ⟨31, _⟩ => ⟨S262144, .i32⟩
  | .hbm, ⟨32, _⟩ => ⟨S_, .i32⟩
  | .hbm, ⟨33, _⟩ => ⟨S262144, .i32⟩
  | .hbm, ⟨34, _⟩ => ⟨S262144, .i1⟩
  | .hbm, ⟨35, _⟩ => ⟨S_, .i32⟩
  | .hbm, ⟨36, _⟩ => ⟨S262144, .i32⟩
  | .hbm, ⟨37, _⟩ => ⟨S262144, .i32⟩
  | .hbm, ⟨38, _⟩ => ⟨S262144, .i32⟩
  | .hbm, ⟨39, _⟩ => ⟨S262144x1, .i32⟩
  | .hbm, ⟨40, _⟩ => ⟨S_, .i32⟩
  | .hbm, ⟨41, _⟩ => ⟨S262144, .i32⟩
  | .hbm, ⟨42, _⟩ => ⟨S64, .i32⟩
  | .hbm, ⟨43, _⟩ => ⟨S_, .i32⟩
  | .hbm, ⟨44, _⟩ => ⟨S_, .i32⟩
  | .hbm, ⟨45, _⟩ => ⟨S64, .i32⟩
  | .hbm, ⟨46, _⟩ => ⟨S64, .i32⟩
  | .hbm, ⟨47, _⟩ => ⟨S64, .f32⟩
  | .hbm, ⟨48, _⟩ => ⟨S64x1, .f32⟩
  | .hbm, ⟨49, _⟩ => ⟨S64x128, .f32⟩
  | .hbm, ⟨50, _⟩ => ⟨S64x128, .f32⟩
  | _, _ => ⟨S128x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_c_4 : Ref sig .tc := ⟨.hbm, 28, rfl⟩
abbrev main_call0_v0 : Ref sig .tc := ⟨.hbm, 29, rfl⟩
abbrev main_call0_v1 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_c_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_7 : Ref sig .tc := ⟨.hbm, 40, rfl⟩
abbrev main_v26 : Ref sig .tc := ⟨.hbm, 41, rfl⟩
abbrev main_v27 : Ref sig .tc := ⟨.hbm, 42, rfl⟩
abbrev main_c_8 : Ref sig .tc := ⟨.hbm, 43, rfl⟩
abbrev main_call1_v0 : Ref sig .tc := ⟨.hbm, 44, rfl⟩
abbrev main_call1_v1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  transposes_S128x128x2048_S128x2048x128_0_2_1 : S128x128x2048.Transposes [0, 2, 1] S128x2048x128
  shapeCasts_S128x2048x128_S262144x128 : S128x2048x128.ShapeCasts S262144x128
  shapeCasts_S128x2048_S262144 : S128x2048.ShapeCasts S262144
  bcast_S_S262144 : S_.BroadcastsInDim S262144 (![] : Fin 0 → Fin S262144.rank)
  bcast_S262144_S262144x1_0 : S262144.BroadcastsInDim S262144x1 (![0] : Fin 1 → Fin S262144x1.rank)
  reducesTo_S262144x128_S_d0_1 : S262144x128.ReducesTo [0, 1] S_
  h_S_ : 0 < S_.numel
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  gather_S64x128_S262144x1_S262144x128_1_0_n_n_0_1_1128_wf : GatherDims.WF S64x128 S262144x1 S262144x128 [1] [0] [] [0] [] 1 ![1, 128]
  scatter_S64x128_S262144x1_S262144x128_1_0_0_1_wf : ScatterDims.WF S64x128 S262144x1 S262144x128 [1] [0] [0] 1
  scatter_S64_S262144x1_S262144_n_0_0_1_wf : ScatterDims.WF S64 S262144x1 S262144 [] [0] [0] 1

variable [Facts₀]

def gather_S64x128_S262144x1_S262144x128_1_0_n_n_0_1_1128 : GatherDims S64x128 S262144x1 S262144x128 where
  offsetDims := [1]
  collapsedSliceDims := [0]
  operandBatchingDims := []
  startIndicesBatchingDims := []
  startIndexMap := [0]
  indexVectorDim := 1
  sliceSizes := ![1, 128]
  wf := gather_S64x128_S262144x1_S262144x128_1_0_n_n_0_1_1128_wf
def scatter_S64x128_S262144x1_S262144x128_1_0_0_1 : ScatterDims S64x128 S262144x1 S262144x128 where
  updateWindowDims := [1]
  insertedWindowDims := [0]
  scatterDimsToOperandDims := [0]
  indexVectorDim := 1
  wf := scatter_S64x128_S262144x1_S262144x128_1_0_0_1_wf
def scatter_S64_S262144x1_S262144_n_0_0_1 : ScatterDims S64 S262144x1 S262144 where
  updateWindowDims := []
  insertedWindowDims := [0]
  scatterDimsToOperandDims := [0]
  indexVectorDim := 1
  wf := scatter_S64_S262144x1_S262144_n_0_0_1_wf

class Facts : Prop extends Facts₀ where

variable [Facts]
-- ==== Proof.BodyRunsKernel.lean ====
/-
  The kernel body on any whole staging memrefs, in its two control cases.

  At a grid point (p, bh) the body zeroes both accumulators when bh = 0, then runs eight trips; trip i adds to the first
  accumulator the product of the one-hot matrix of row i's labels with row i's features, and to the second the sum of the
  squares of row i's features. Case A is bh = 0 (the accumulators' earlier contents are irrelevant: they are overwritten
  before the trips read them); case B is bh ≠ 0 (the trips start from what the point before left).
  Each run hands back the two accumulators' memrefs with the pieces its stores wrote; the piece lists are found by the run.
-/
import proofs.«418262_j59717225283874_3_alg».proof.Proof.Gen.Kernel.Frame
import proofs.«418262_j59717225283874_3_alg».proof.Proof.Gen.Kernel.Skeleton
import proofs.«418262_j59717225283874_3_alg».proof.Proof.Gen.Kernel.Loops

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond0 (i : grid0.Coords) : Prop :=
  (Scalar.cmpi .ne (Scalar.extui (Scalar.cmpi .eq (BitVec.ofNat 32 (i 1).val) 0#32)) 0#32) = 1#1

/-- Over the 16 points of the (2, 8) grid it holds exactly at the points 0 and 8. -/
theorem hcond0 : ∀ t : Fin cfg0.N, cond0 (grid0.coords t) ↔ t.val % 8 = 0 :=
  (by decide +kernel : ∀ t : Fin grid0.N, cond0 (grid0.coords t) ↔ t.val % 8 = 0)

/-- Each window's current staging memref at point `t`, as the pipeline passes it to the body, and its wholeness. -/
abbrev ms0 (t : Fin cfg0.N) : Memref sig .tc .vmem S8x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1x2048 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)

set_option maxHeartbeats 1000000 in
/-- Case A (the accumulators are reset first): the inputs' memrefs at their contents, the accumulators' at anything. -/
noncomputable def runA (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- Case B (no reset): the accumulators' memrefs at their running contents `xo2`, `xo3`. -/
noncomputable def runB (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Body

end
-- ==== Proof.BodyKernel.lean ====
/-
  The pipeline's proof data and the frame of the kernel program.

  What the two accumulators' staging buffers hold after the body at each grid point is defined by recursion on the point
  (`outsAt0`): at a point with bh = 0 what the resetting case leaves, at any other point what the accumulating case leaves
  over what the point before left (the buffers are written back only after the points with bh = 7, so between two
  consecutive points of one half they keep their contents). With that the body meets its obligation at every point, the
  program runs, and its argument arrays end unchanged.
-/
import proofs.«418262_j59717225283874_3_alg».proof.Proof.BodyRunsKernel

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator, through which its contents are stated (the stores cover the block, so the
    choice does not matter). -/
abbrev VO2 : View sig .tc .vmem S1x64x128 .f32 := (Memref.whole cc0_stg2_0 : Memref sig .tc .vmem S1x64x128 .f32).view
abbrev VO3 : View sig .tc .vmem S1x1x1 .f32 := (Memref.whole cc0_stg3_0 : Memref sig .tc .vmem S1x1x1 .f32).view

/-! ## The stores of each case cover both blocks -/

theorem coverA2 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) (y : S1x64x128.Idx) :
    ∃ pc ∈ (runA c i arg2 harg2 arg3 harg3 arg4 harg4 arg5 harg5 hc0 x0 x1).1, y ∈ pc.1.set :=
  View.cover_of_tiledL (runA c i arg2 harg2 arg3 harg3 arg4 harg4 arg5 harg5 hc0 x0 x1).1 S1x64x128.size (by sl_kernel_rfl) y

theorem coverA3 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) (y : S1x1x1.Idx) :
    ∃ pc ∈ (runA c i arg2 harg2 arg3 harg3 arg4 harg4 arg5 harg5 hc0 x0 x1).2.1, y ∈ pc.1.set :=
  View.cover_of_tiledL (runA c i arg2 harg2 arg3 harg3 arg4 harg4 arg5 harg5 hc0 x0 x1).2.1 S1x1x1.size (by sl_kernel_rfl) y

theorem coverB2 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) (y : S1x64x128.Idx) :
    ∃ pc ∈ (runB c i arg2 harg2 arg3 harg3 arg4 harg4 arg5 harg5 hc0 x0 x1 xo2 xo3).1, y ∈ pc.1.set :=
  View.cover_of_tiledL (runB c i arg2 harg2 arg3 harg3 arg4 harg4 arg5 harg5 hc0 x0 x1 xo2 xo3).1 S1x64x128.size (by sl_kernel_rfl) y

theorem coverB3 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) (y : S1x1x1.Idx) :
    ∃ pc ∈ (runB c i arg2 harg2 arg3 harg3 arg4 harg4 arg5 harg5 hc0 x0 x1 xo2 xo3).2.1, y ∈ pc.1.set :=
  View.cover_of_tiledL (runB c i arg2 harg2 arg3 harg3 arg4 harg4 arg5 harg5 hc0 x0 x1 xo2 xo3).2.1 S1x1x1.size (by sl_kernel_rfl) y

/-! ## What each case leaves in the two accumulators -/

def outA (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) : Vec F S1x64x128 .f32 × Vec F S1x1x1 .f32 :=
  (VO2.read (Elt F) (VO2.writes (Elt F) VO2.junk (runA c i arg2 harg2 arg3 harg3 arg4 harg4 arg5 harg5 hc0 x0 x1).1),
   VO3.read (Elt F) (VO3.writes (Elt F) VO3.junk (runA c i arg2 harg2 arg3 harg3 arg4 harg4 arg5 harg5 hc0 x0 x1).2.1))

def outB (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo : Vec F S1x64x128 .f32 × Vec F S1x1x1 .f32) :
    Vec F S1x64x128 .f32 × Vec F S1x1x1 .f32 :=
  (VO2.read (Elt F) (VO2.writes (Elt F) VO2.junk (runB c i arg2 harg2 arg3 harg3 arg4 harg4 arg5 harg5 hc0 x0 x1 xo.1 xo.2).1),
   VO3.read (Elt F) (VO3.writes (Elt F) VO3.junk (runB c i arg2 harg2 arg3 harg3 arg4 harg4 arg5 harg5 hc0 x0 x1 xo.1 xo.2).2.1))

/-! ## What the accumulators hold after each point -/

/-- By recursion on the point: the resetting case where bh = 0, else the accumulating case over the point before. -/
def outsAt0 (c : Dev nD) : (n : ℕ) → n < cfg0.N → Vec F S1x64x128 .f32 × Vec F S1x1x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond0 ⟨0, hn⟩).mpr (Nat.zero_mod _)) (iblk m c 0 ⟨0, hn⟩) (iblk m c 1 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond0 ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 8 = 0) :
    outsAt0 m c t.val t.isLt = outA c (grid0.coords t) (ms0 t) (hs0 t) (ms1 t) (hs1 t) (ms2 t) (hs2 t) (ms3 t) (hs3 t)
      ((hcond0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB c (grid0.coords t) (ms0 t) (hs0 t) (ms1 t) (hs1 t) (ms2 t) (hs2 t) (ms3 t) (hs3 t)
      (fun h => h0 ((hcond0 t).mp h)) (iblk m c 0 t) (iblk m c 1 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulators' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with bh ≠ 0 an accumulator's staging buffer holds what the body left at the point before: the point is
    not the first and the buffer was not written back between (write-backs follow the points with bh = 7 only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed form says which case the point is in; in the
    accumulating case the accumulators hold what the point before left; so that case's run applies, and what it leaves
    reads, through any view, as the case's contents (the stores cover both blocks). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; dsimp only; exact View.read_writes_of_cover _ _ _ _ _ (coverA2 (F := F) c _ _ _ _ _ _ _ _ _ _ _ _)
    · unfold owns; iexists _; isplitr
      swap; · iexact H3
      ipureintro; dsimp only; exact View.read_writes_of_cover _ _ _ _ _ (coverA3 (F := F) c _ _ _ _ _ _ _ _ _ _ _ _)
  · rw [outsAt0_B m c t h0]
    simp only [before0_2_B m c t h0, before0_3_B m c t h0]
    unfold outB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; dsimp only; exact View.read_writes_of_cover _ _ _ _ _ (coverB2 (F := F) c _ _ _ _ _ _ _ _ _ _ _ _ _ _)
    · unfold owns; iexists _; isplitr
      swap; · iexact H3
      ipureintro; dsimp only; exact View.read_writes_of_cover _ _ _ _ _ (coverB3 (F := F) c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each array of the pipeline at what the proof data gives after
    the last point and every other buffer at what the host operations after the region compute from there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyRunsKernelIdeal.lean ====
/-
  The kernel body on any whole staging memrefs, in its two control cases.

  At a grid point (p, bh) the body zeroes both accumulators when bh = 0, then runs eight trips; trip i adds to the first
  accumulator the product of the one-hot matrix of row i's labels with row i's features, and to the second the sum of the
  squares of row i's features. Case A is bh = 0 (the accumulators' earlier contents are irrelevant: they are overwritten
  before the trips read them); case B is bh ≠ 0 (the trips start from what the point before left).
  Each run hands back the two accumulators' memrefs with the pieces its stores wrote; the piece lists are found by the run.
-/
import proofs.«418262_j59717225283874_3_alg».proof.Proof.Gen.KernelIdeal.Frame
import proofs.«418262_j59717225283874_3_alg».proof.Proof.Gen.KernelIdeal.Skeleton
import proofs.«418262_j59717225283874_3_alg».proof.Proof.Gen.KernelIdeal.Loops

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: the second coordinate is zero. -/
abbrev cond0 (i : grid0.Coords) : Prop :=
  (Scalar.cmpi .ne (Scalar.extui (Scalar.cmpi .eq (BitVec.ofNat 32 (i 1).val) 0#32)) 0#32) = 1#1

/-- Over the 16 points of the (2, 8) grid it holds exactly at the points 0 and 8. -/
theorem hcond0 : ∀ t : Fin cfg0.N, cond0 (grid0.coords t) ↔ t.val % 8 = 0 :=
  (by decide +kernel : ∀ t : Fin grid0.N, cond0 (grid0.coords t) ↔ t.val % 8 = 0)

/-- Each window's current staging memref at point `t`, as the pipeline passes it to the body, and its wholeness. -/
abbrev ms0 (t : Fin cfg0.N) : Memref sig .tc .vmem S8x128x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x1x2048 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1 .f32 := win0_3.stage (cfg0.slots t 3)
abbrev hs3 (t : Fin cfg0.N) : (ms3 t).IsWhole := hstage0_3 ((cfg0.slots t 3).cast nbuf0_3)

set_option maxHeartbeats 1000000 in
/-- Case A (the accumulators are reset first): the inputs' memrefs at their contents, the accumulators' at anything. -/
noncomputable def runA (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- Case B (no reset): the accumulators' memrefs at their running contents `xo2`, `xo3`. -/
noncomputable def runB (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) :
    Σ' (L2 : List (View.Piece (Elt F) S1x64x128 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1
            ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__kernel i arg2 harg2 arg3 harg3 arg4 harg4 arg5 harg5) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1
    obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Body

end
-- ==== Proof.BodyKernelIdeal.lean ====
/-
  The pipeline's proof data and the frame of the kernel program.

  What the two accumulators' staging buffers hold after the body at each grid point is defined by recursion on the point
  (`outsAt0`): at a point with bh = 0 what the resetting case leaves, at any other point what the accumulating case leaves
  over what the point before left (the buffers are written back only after the points with bh = 7, so between two
  consecutive points of one half they keep their contents). With that the body meets its obligation at every point, the
  program runs, and its argument arrays end unchanged.
-/
import proofs.«418262_j59717225283874_3_alg».proof.Proof.BodyRunsKernelIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each accumulator, through which its contents are stated (the stores cover the block, so the
    choice does not matter). -/
abbrev VO2 : View sig .tc .vmem S1x64x128 .f32 := (Memref.whole cc0_stg2_0 : Memref sig .tc .vmem S1x64x128 .f32).view
abbrev VO3 : View sig .tc .vmem S1x1x1 .f32 := (Memref.whole cc0_stg3_0 : Memref sig .tc .vmem S1x1x1 .f32).view

/-! ## The stores of each case cover both blocks -/

theorem coverA2 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) (y : S1x64x128.Idx) :
    ∃ pc ∈ (runA c i arg2 harg2 arg3 harg3 arg4 harg4 arg5 harg5 hc0 x0 x1).1, y ∈ pc.1.set :=
  View.cover_of_tiledL (runA c i arg2 harg2 arg3 harg3 arg4 harg4 arg5 harg5 hc0 x0 x1).1 S1x64x128.size (by sl_kernel_rfl) y

theorem coverA3 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) (y : S1x1x1.Idx) :
    ∃ pc ∈ (runA c i arg2 harg2 arg3 harg3 arg4 harg4 arg5 harg5 hc0 x0 x1).2.1, y ∈ pc.1.set :=
  View.cover_of_tiledL (runA c i arg2 harg2 arg3 harg3 arg4 harg4 arg5 harg5 hc0 x0 x1).2.1 S1x1x1.size (by sl_kernel_rfl) y

theorem coverB2 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) (y : S1x64x128.Idx) :
    ∃ pc ∈ (runB c i arg2 harg2 arg3 harg3 arg4 harg4 arg5 harg5 hc0 x0 x1 xo2 xo3).1, y ∈ pc.1.set :=
  View.cover_of_tiledL (runB c i arg2 harg2 arg3 harg3 arg4 harg4 arg5 harg5 hc0 x0 x1 xo2 xo3).1 S1x64x128.size (by sl_kernel_rfl) y

theorem coverB3 (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo2 : Vec F S1x64x128 .f32) (xo3 : Vec F S1x1x1 .f32) (y : S1x1x1.Idx) :
    ∃ pc ∈ (runB c i arg2 harg2 arg3 harg3 arg4 harg4 arg5 harg5 hc0 x0 x1 xo2 xo3).2.1, y ∈ pc.1.set :=
  View.cover_of_tiledL (runB c i arg2 harg2 arg3 harg3 arg4 harg4 arg5 harg5 hc0 x0 x1 xo2 xo3).2.1 S1x1x1.size (by sl_kernel_rfl) y

/-! ## What each case leaves in the two accumulators -/

def outA (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : cond0 i)
    (x0 : Vec F S8x128x2048 .f32) (x1 : Vec F S8x1x2048 .i32) : Vec F S1x64x128 .f32 × Vec F S1x1x1 .f32 :=
  (VO2.read (Elt F) (VO2.writes (Elt F) VO2.junk (runA c i arg2 harg2 arg3 harg3 arg4 harg4 arg5 harg5 hc0 x0 x1).1),
   VO3.read (Elt F) (VO3.writes (Elt F) VO3.junk (runA c i arg2 harg2 arg3 harg3 arg4 harg4 arg5 harg5 hc0 x0 x1).2.1))

def outB (c : Dev nD) (i : grid0.Coords) (arg2 : Memref sig .tc .vmem S8x128x2048 .f32) (harg2 : arg2.IsWhole)
    (arg3 : Memref sig .tc .vmem S8x1x2048 .i32) (harg3 : arg3.IsWhole) (arg4 : Memref sig .tc .vmem S1x64x128 .f32) (harg4 : arg4.IsWhole)
    (arg5 : Memref sig .tc .vmem S1x1x1 .f32) (harg5 : arg5.IsWhole) (hc0 : ¬cond0 i)
    (x0 : Vec F S8x128x2048 .f32) (x1 : Vec F S8x1x2048 .i32) (xo : Vec F S1x64x128 .f32 × Vec F S1x1x1 .f32) :
    Vec F S1x64x128 .f32 × Vec F S1x1x1 .f32 :=
  (VO2.read (Elt F) (VO2.writes (Elt F) VO2.junk (runB c i arg2 harg2 arg3 harg3 arg4 harg4 arg5 harg5 hc0 x0 x1 xo.1 xo.2).1),
   VO3.read (Elt F) (VO3.writes (Elt F) VO3.junk (runB c i arg2 harg2 arg3 harg3 arg4 harg4 arg5 harg5 hc0 x0 x1 xo.1 xo.2).2.1))

/-! ## What the accumulators hold after each point -/

/-- By recursion on the point: the resetting case where bh = 0, else the accumulating case over the point before. -/
def outsAt0 (c : Dev nD) : (n : ℕ) → n < cfg0.N → Vec F S1x64x128 .f32 × Vec F S1x1x1 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩)
      ((hcond0 ⟨0, hn⟩).mpr (Nat.zero_mod _)) (iblk m c 0 ⟨0, hn⟩) (iblk m c 1 ⟨0, hn⟩)
  | n + 1, hn =>
    if h0 : (n + 1) % 8 = 0 then
      outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        ((hcond0 ⟨n + 1, hn⟩).mpr h0) (iblk m c 0 ⟨n + 1, hn⟩) (iblk m c 1 ⟨n + 1, hn⟩)
    else
      outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩)
        (fun h => h0 ((hcond0 ⟨n + 1, hn⟩).mp h)) (iblk m c 0 ⟨n + 1, hn⟩) (iblk m c 1 ⟨n + 1, hn⟩) (outsAt0 c n (Nat.lt_of_succ_lt hn))

theorem outsAt0_A (c : Dev nD) (t : Fin cfg0.N) (h0 : t.val % 8 = 0) :
    outsAt0 m c t.val t.isLt = outA c (grid0.coords t) (ms0 t) (hs0 t) (ms1 t) (hs1 t) (ms2 t) (hs2 t) (ms3 t) (hs3 t)
      ((hcond0 t).mpr h0) (iblk m c 0 t) (iblk m c 1 t) := by
  obtain ⟨n, hn⟩ := t
  cases n with
  | zero => exact rfl
  | succ n => exact (dif_pos h0).trans rfl

theorem outsAt0_B (c : Dev nD) (t : Fin cfg0.N) (h0 : ¬t.val % 8 = 0) :
    outsAt0 m c t.val t.isLt = outB c (grid0.coords t) (ms0 t) (hs0 t) (ms1 t) (hs1 t) (ms2 t) (hs2 t) (ms3 t) (hs3 t)
      (fun h => h0 ((hcond0 t).mp h)) (iblk m c 0 t) (iblk m c 1 t)
      (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body at point `t` each input's buffer at its block and the
    accumulators' at `outsAt0`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a point with bh ≠ 0 an accumulator's staging buffer holds what the body left at the point before: the point is
    not the first and the buffer was not written back between (write-backs follow the points with bh = 7 only). -/
theorem before0_2_B (c : Dev nD) (t : Fin cfg0.N) (h0 : ¬t.val % 8 = 0) (d) :
    (dats m 0 c).before 2 t d = (outsAt0 m c (t.val - 1) (Nat.lt_of_le_of_lt (Nat.sub_le _ _) t.isLt)).1 := by
  have hN : t.val < 16 := lt_of_lt_of_eq t.isLt (show cfg0.N = 16 from N_0)
  rw [Dat.before_out_kept _ 2 rfl t (by omega) (Bool.eq_false_iff.mpr fun h => by have := (flush0_2 _).mp h; dsimp only at this; omega)
    (fun _ => rfl) (fun _ _ => rfl)]
  dsimp only [dats]
theorem before0_3_B (c : Dev nD) (t : Fin cfg0.N) (h0 : ¬t.val % 8 = 0) (d) :
    (dats m 0 c).before 3 t d = (outsAt0 m c (t.val - 1) (Nat.lt_of_le_of_lt (Nat.sub_le _ _) t.isLt)).2 := by
  have hN : t.val < 16 := lt_of_lt_of_eq t.isLt (show cfg0.N = 16 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the inputs' memrefs hold their blocks; the closed form says which case the point is in; in the
    accumulating case the accumulators hold what the point before left; so that case's run applies, and what it leaves
    reads, through any view, as the case's contents (the stores cover both blocks). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 16 := lt_of_lt_of_eq t.isLt (show cfg0.N = 16 from N_0)
  by_cases h0 : t.val % 8 = 0
  · rw [outsAt0_A m c t h0]
    unfold outA
    iintro ⟨HΦ, Ho, ⟨%d0, H0⟩, ⟨%d1, H1⟩, ⟨%d2, H2⟩, ⟨%d3, H3⟩⟩
    iapply ((runA c (grid0.coords t) _ _ _ _ _ _ _ _ ((hcond0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; dsimp only; exact View.read_writes_of_cover _ _ _ _ _ (coverA2 (F := F) c _ _ _ _ _ _ _ _ _ _ _ _)
    · unfold owns; iexists _; isplitr
      swap; · iexact H3
      ipureintro; dsimp only; exact View.read_writes_of_cover _ _ _ _ _ (coverA3 (F := F) c _ _ _ _ _ _ _ _ _ _ _ _)
  · rw [outsAt0_B m c t h0]
    simp only [before0_2_B m c t h0, before0_3_B m c t h0]
    unfold outB
    iintro ⟨HΦ, Ho, ⟨%d0, H0⟩, ⟨%d1, H1⟩, ⟨%d2, H2⟩, ⟨%d3, H3⟩⟩
    iapply ((runB c (grid0.coords t) _ _ _ _ _ _ _ _ (fun h => h0 ((hcond0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; dsimp only; exact View.read_writes_of_cover _ _ _ _ _ (coverB2 (F := F) c _ _ _ _ _ _ _ _ _ _ _ _ _ _)
    · unfold owns; iexists _; isplitr
      swap; · iexact H3
      ipureintro; dsimp only; exact View.read_writes_of_cover _ _ _ _ _ (coverB3 (F := F) c _ _ _ _ _ _ _ _ _ _ _ _ _ _)

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, each array of the pipeline at what the proof data gives after
    the last point and every other buffer at what the host operations after the region compute from there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.BodyValKernelIdeal.lean ====
/-
  What the eight trips leave in the two accumulators, as a function of the point's input blocks and of what the
  accumulators held when the trips started.

  Trip k loads row k of the feature block and row k of the label block, and stores into each accumulator, over the whole
  block, the payload of those rows and of the accumulator's contents as the trip finds them. So after n trips the
  accumulators hold the n-fold iterate `accs` of that step; the pieces the run recorded for the trips read back as exactly
  that, whatever memrefs the accumulators are staged in.
-/
import proofs.«418262_j59717225283874_3_alg».proof.Proof.BodyKernelIdeal
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

/-- Row k of the feature block and of the label block: the rectangles trip k loads through. -/
abbrev R0 (k : Fin k0_t1_loop.trips) : Rect S8x128x2048 := Rect.unit (s := S8x128x2048) (k0_off1 k) S1x128x2048.size (k0_off1_inb k)
abbrev R1 (k : Fin k0_t1_loop.trips) : Rect S8x1x2048 := Rect.unit (s := S8x1x2048) (k0_off2 k) S1x1x2048.size (k0_off2_inb k)

/-- The accumulators after n trips over the blocks `x0`, `x1`, from the contents `a`. -/
def accs (x0 : Vec F S8x128x2048 .f32) (x1 : Vec F S8x1x2048 .i32) (a : Vec F S1x64x128 .f32 × Vec F S1x1x1 .f32) :
    ℕ → Vec F S1x64x128 .f32 × Vec F S1x1x1 .f32
  | 0 => a
  | n + 1 =>
    if h : n < k0_t1_loop.trips then
      (k0_pay4 (View.ld x0 (R0 ⟨n, h⟩)) (View.ld x1 (R1 ⟨n, h⟩)) (accs x0 x1 a n).1,
       k0_pay5 (View.ld x0 (R0 ⟨n, h⟩)) (accs x0 x1 a n).2)
    else accs x0 x1 a n

theorem accs_succ (x0 : Vec F S8x128x2048 .f32) (x1 : Vec F S8x1x2048 .i32) (a : Vec F S1x64x128 .f32 × Vec F S1x1x1 .f32)
    (k : Fin k0_t1_loop.trips) :
    accs x0 x1 a (k.val + 1) = (k0_pay4 (View.ld x0 (R0 k)) (View.ld x1 (R1 k)) (accs x0 x1 a k.val).1,
       k0_pay5 (View.ld x0 (R0 k)) (accs x0 x1 a k.val).2) := by
  rw [accs, dif_pos k.isLt]

private theorem hz3 : (![0, 0, 0] : Fin 3 → Nat) = fun _ => 0 := by funext a; fin_cases a <;> rfl

/-- A store through the whole-shape rectangle at zero offsets, LAST, reads back as its payload, whatever was stored before. -/
theorem read_writes_cons_unit_zero {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

section Trip

variable (𝒱 : Variants) (c : Dev nD) (bd : Option 𝒱.V) (i : grid0.Coords)
  (arg2 : Memref sig .tc .vmem S8x128x2048 .f32) (harg2 : arg2.IsWhole) (arg3 : Memref sig .tc .vmem S8x1x2048 .i32) (harg3 : arg3.IsWhole)
  (arg4 : Memref sig .tc .vmem S1x64x128 .f32) (harg4 : arg4.IsWhole) (arg5 : Memref sig .tc .vmem S1x1x1 .f32) (harg5 : arg5.IsWhole)
  (x0 : Vec F S8x128x2048 .f32) (x1 : Vec F S8x1x2048 .i32)

/-- The one piece trip k writes into the first accumulator, read back after it (whatever was written before): the
    payload of the trip's two rows and of the accumulator as the trip found it. -/
theorem trip_read4 (k : Fin k0_t1_loop.trips) (G4 f4 : BufTy.Contents (Elt F) arg4.view.ty) (f5 : BufTy.Contents (Elt F) arg5.view.ty)
    (L : List (View.Piece (Elt F) S1x64x128 .f32)) :
    arg4.view.read (Elt F) (arg4.view.writes (Elt F) G4
        ((trip_k0_t1 (F := F) 𝒱 c bd i arg2 harg2 arg3 harg3 arg4 harg4 arg5 harg5 (harg2.unread x0) (harg3.unread x1) k).1 f4 f5 ++ L))
      = k0_pay4 (View.ld x0 (R0 k)) (View.ld x1 (R1 k)) (arg4.view.read (Elt F) f4) := by
  unfold trip_k0_t1
  dsimp only
  rw [List.singleton_append]
  refine (read_writes_cons_unit_zero (S := S1x64x128) arg4.view G4 hz3 _ _ L).trans ?_
  rw [View.readAt_eq_ld, View.readAt_eq_ld, View.readAt_eq_ld, harg2.read_unread, harg3.read_unread]
  rw [View.ld_unit_zero (S := S1x64x128) hz3]

/-- The same for the second accumulator. -/
theorem trip_read5 (k : Fin k0_t1_loop.trips) (G5 f5 : BufTy.Contents (Elt F) arg5.view.ty) (f4 : BufTy.Contents (Elt F) arg4.view.ty)
    (L : List (View.Piece (Elt F) S1x1x1 .f32)) :
    arg5.view.read (Elt F) (arg5.view.writes (Elt F) G5
        ((trip_k0_t1 (F := F) 𝒱 c bd i arg2 harg2 arg3 harg3 arg4 harg4 arg5 harg5 (harg2.unread x0) (harg3.unread x1) k).2.1 f4 f5 ++ L))
      = k0_pay5 (View.ld x0 (R0 k)) (arg5.view.read (Elt F) f5) := by
  unfold trip_k0_t1
  dsimp only
  rw [List.singleton_append]
  refine (read_writes_cons_unit_zero (S := S1x1x1) arg5.view G5 hz3 _ _ L).trans ?_
  rw [View.readAt_eq_ld, View.readAt_eq_ld, harg2.read_unread]
  rw [View.ld_unit_zero (S := S1x1x1) hz3]

/-- After n trips from the contents `G4`, `G5` the accumulators read as `accs` from what `G4`, `G5` read as. -/
theorem read_pb (G4 : BufTy.Contents (Elt F) arg4.view.ty) (G5 : BufTy.Contents (Elt F) arg5.view.ty) :
    ∀ n : ℕ, n ≤ k0_t1_loop.trips →
      arg4.view.read (Elt F) (arg4.view.writes (Elt F) G4
          (pb_k0_t1 (F := F) 𝒱 c bd i arg2 harg2 arg3 harg3 arg4 harg4 arg5 harg5 (harg2.unread x0) (harg3.unread x1) G4 G5 n).1)
        = (accs x0 x1 (arg4.view.read (Elt F) G4, arg5.view.read (Elt F) G5) n).1
      ∧ arg5.view.read (Elt F) (arg5.view.writes (Elt F) G5
          (pb_k0_t1 (F := F) 𝒱 c bd i arg2 harg2 arg3 harg3 arg4 harg4 arg5 harg5 (harg2.unread x0) (harg3.unread x1) G4 G5 n).2)
        = (accs x0 x1 (arg4.view.read (Elt F) G4, arg5.view.read (Elt F) G5) n).2
  | 0, _ => ⟨rfl, rfl⟩
  | n + 1, hn => by
    obtain ⟨ih4, ih5⟩ := read_pb G4 G5 n (Nat.le_of_succ_le hn)
    have hk : n < k0_t1_loop.trips := hn
    have e := pb_k0_t1_succ (F := F) 𝒱 c bd i arg2 harg2 arg3 harg3 arg4 harg4 arg5 harg5 (harg2.unread x0) (harg3.unread x1) G4 G5 ⟨n, hk⟩
    have a := accs_succ x0 x1 (arg4.view.read (Elt F) G4, arg5.view.read (Elt F) G5) ⟨n, hk⟩
    dsimp only at e a
    rw [e, a]
    dsimp only [tripL_k0_t1]
    exact ⟨(trip_read4 𝒱 c bd i arg2 harg2 arg3 harg3 arg4 harg4 arg5 harg5 x0 x1 ⟨n, hk⟩ G4 _ _ _).trans (by rw [ih4]),
      (trip_read5 𝒱 c bd i arg2 harg2 arg3 harg3 arg4 harg4 arg5 harg5 x0 x1 ⟨n, hk⟩ G5 _ _ _).trans (by rw [ih5])⟩

end Trip

end Cert.KernelIdeal.Body

end
-- ==== Proof.BodyOutsKernelIdeal.lean ====
/-
  What each case of the body leaves in the accumulators is the eight-trip iterate `accs` over the point's blocks: from zeros
  in the resetting case, from the running contents in the accumulating case. Hence the accumulators after each grid point,
  by recursion on the point.
-/
import proofs.«418262_j59717225283874_3_alg».proof.Proof.BodyValKernelIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

private theorem hz3' : (![0, 0, 0] : Fin 3 → Nat) = fun _ => 0 := by funext a; fin_cases a <;> rfl

/-- The zero fill of the resetting case, read back: the zero payloads. -/
theorem zero_read4 (arg4 : Memref sig .tc .vmem S1x64x128 .f32) :
    arg4.view.read (Elt F) (arg4.view.writes (Elt F) arg4.view.junk (runA.sl.H2_1 (F := F))) = k0_pay1 (F := F) := by
  unfold runA.sl.H2_1
  exact read_writes_cons_unit_zero (S := S1x64x128) arg4.view _ hz3' _ _ []
theorem zero_read5 (arg5 : Memref sig .tc .vmem S1x1x1 .f32) :
    arg5.view.read (Elt F) (arg5.view.writes (Elt F) arg5.view.junk (runA.sl.H3_1 (F := F))) = k0_pay2 (F := F) := by
  unfold runA.sl.H3_1
  exact read_writes_cons_unit_zero (S := S1x1x1) arg5.view _ hz3' _ _ []

section Cases

variable (c : Dev nD) (i : grid0.Coords)
  (arg2 : Memref sig .tc .vmem S8x128x2048 .f32) (harg2 : arg2.IsWhole) (arg3 : Memref sig .tc .vmem S8x1x2048 .i32) (harg3 : arg3.IsWhole)
  (arg4 : Memref sig .tc .vmem S1x64x128 .f32) (harg4 : arg4.IsWhole) (arg5 : Memref sig .tc .vmem S1x1x1 .f32) (harg5 : arg5.IsWhole)
  (x0 : Vec F S8x128x2048 .f32) (x1 : Vec F S8x1x2048 .i32)

/-- The accumulating case leaves the eight-trip iterate from the running contents. -/
theorem outB_eq (hc0 : ¬cond0 i) (xo : Vec F S1x64x128 .f32 × Vec F S1x1x1 .f32) :
    outB c i arg2 harg2 arg3 harg3 arg4 harg4 arg5 harg5 hc0 x0 x1 xo = accs x0 x1 xo k0_t1_loop.trips := by
  have h := read_pb (F := F) Variants.none c none i arg2 harg2 arg3 harg3 arg4 harg4 arg5 harg5 x0 x1
    (harg4.unread xo.1) (harg5.unread xo.2) k0_t1_loop.trips le_rfl
  rw [harg4.read_unread, harg5.read_unread, Prod.mk.eta] at h
  unfold outB
  refine Prod.ext ?_ ?_
  · dsimp only
    rw [View.read_writes_of_cover VO2 VO2.junk arg4.view (harg4.unread xo.1) _
      (coverB2 (F := F) c i arg2 harg2 arg3 harg3 arg4 harg4 arg5 harg5 hc0 x0 x1 xo.1 xo.2)]
    unfold runB; dsimp only
    exact h.1
  · dsimp only
    rw [View.read_writes_of_cover VO3 VO3.junk arg5.view (harg5.unread xo.2) _
      (coverB3 (F := F) c i arg2 harg2 arg3 harg3 arg4 harg4 arg5 harg5 hc0 x0 x1 xo.1 xo.2)]
    unfold runB; dsimp only
    exact h.2

/-- The resetting case leaves the eight-trip iterate from the zero fill. -/
theorem outA_eq (hc0 : cond0 i) :
    outA c i arg2 harg2 arg3 harg3 arg4 harg4 arg5 harg5 hc0 x0 x1 = accs x0 x1 (k0_pay1 (F := F), k0_pay2 (F := F)) k0_t1_loop.trips := by
  unfold outA
  refine Prod.ext ?_ ?_
  · dsimp only
    rw [View.read_writes_of_cover VO2 VO2.junk arg4.view arg4.view.junk _
      (coverA2 (F := F) c i arg2 harg2 arg3 harg3 arg4 harg4 arg5 harg5 hc0 x0 x1)]
    unfold runA; dsimp only
    rw [View.writes_append]
    refine (read_pb (F := F) Variants.none c none i arg2 harg2 arg3 harg3 arg4 harg4 arg5 harg5 x0 x1 _ _ k0_t1_loop.trips le_rfl).1.trans ?_
    rw [zero_read4 arg4, zero_read5 arg5]
  · dsimp only
    rw [View.read_writes_of_cover VO3 VO3.junk arg5.view arg5.view.junk _
      (coverA3 (F := F) c i arg2 harg2 arg3 harg3 arg4 harg4 arg5 harg5 hc0 x0 x1)]
    unfold runA; dsimp only
    rw [View.writes_append]
    refine (read_pb (F := F) Variants.none c none i arg2 harg2 arg3 harg3 arg4 harg4 arg5 harg5 x0 x1 _ _ k0_t1_loop.trips le_rfl).2.trans ?_
    rw [zero_read4 arg4, zero_read5 arg5]

end Cases

variable (m : (ℓ : Loc nD τ sig) → Buf (Elt F) ℓ)

/-- The accumulators after point `t`: eight trips over the point's blocks, from zeros where bh = 0, else from what the
    point before left. -/
theorem outsAt0_step (c : Dev nD) (t : Fin cfg0.N) :
    outsAt0 m c t.val t.isLt = accs (iblk m c 0 t) (iblk m c 1 t)
      (if t.val % 8 = 0 then (k0_pay1 (F := F), k0_pay2 (F := F))
        else outsAt0 m c (t.val - 1) (Nat.lt_of_le_of_lt (Nat.sub_le _ _) t.isLt)) k0_t1_loop.trips := by
  by_cases h0 : t.val % 8 = 0
  · rw [if_pos h0, outsAt0_A m c t h0]; exact outA_eq c _ _ _ _ _ _ _ _ _ _ _ _
  · rw [if_neg h0, outsAt0_B m c t h0]; exact outB_eq c _ _ _ _ _ _ _ _ _ _ _ _ _

end Cert.KernelIdeal.Body

end
-- ==== Proof.Spec.lean ====
/-
  Center loss over B = 128 sequences of T = 2048 positions, D = 128 features, C = 64 classes: the quantities both programs
  compute, as functions of the three argument arrays, over literal shapes.

  With `x b d t` the feature, `cls b t` the class of position (b, t) and `ce c d` the centers:
  * the loss is the mean over all positions and features of `(x b d t - ce (cls b t) d)²`;
  * the difference of class `c` is the sum over the positions of class `c` of `ce c d - x b d t`, divided by the number of
    such positions (by one when there is none).
  The reference forms these sums directly (`rLoss`, `rDiff`). The kernel accumulates, for each half `p` of the batch, the
  class sums `segS` (a one-hot matrix times the features) and the sum of squares `ssqS`, and reassembles the results from
  them by expanding the square (`kLoss`, `kDiff`).
-/
import Idealize.ShloMosaic.PureOps.Ideal
import Idealize.ShloMosaic.Lib.ValueIdx

noncomputable section

namespace Cert.CenterLoss

open Idealize.ShloMosaic Idealize.ShloMosaic.ValueIdx

/-- features `[B, D, T]`, labels `[B, T]`, centers `[C, D]`, the kernel's partial class sums `[2, C, D]` and partial sums of
    squares `[2, 1, 1]`. -/
abbrev SX : Shape := ⟨3, ![128, 128, 2048]⟩
abbrev SL : Shape := ⟨2, ![128, 2048]⟩
abbrev SC : Shape := ⟨2, ![64, 128]⟩
abbrev SSeg : Shape := ⟨3, ![2, 64, 128]⟩
abbrev SSq : Shape := ⟨3, ![2, 1, 1]⟩

/-- The class of position `(b, t)` as a row of the centers (the label word reduced mod 64: the word itself when it is in range). -/
def cls (l : SL.Idx → BitVec 32) (b : Fin 128) (t : Fin 2048) : Fin 64 :=
  ⟨(l (ix2 b t)).toNat % 64, Nat.mod_lt _ (by decide)⟩

/-- How many positions have class `c`. -/
def cnt (l : SL.Idx → BitVec 32) (c : Fin 64) : ℕ :=
  (Finset.univ.filter fun p : Fin 128 × Fin 2048 => cls l p.1 p.2 = c).card

/-- The count as an extended real, and the divisor `max(count, 1)`. -/
def cntE (l : SL.Idx → BitVec 32) (c : Fin 64) : EReal := (((cnt l c : ℕ) : ℝ) : EReal)
def denE (l : SL.Idx → BitVec 32) (c : Fin 64) : EReal := (((max 1 (cnt l c) : ℕ) : ℝ) : EReal)

/-- The two literals of the programs: `2.0` and `N · D = 2²⁵`. -/
def two : EReal := Ideal.ofBits .f32 0x40000000#32
def nd : EReal := Ideal.ofBits .f32 0x4C000000#32

/-- Sequence `i` of block `bh` of half `p`: the kernel's grid is (2, 8) over blocks of 8 sequences. -/
def row (p : Fin 2) (bh i : Fin 8) : Fin 128 := ⟨(p.val * 8 + bh.val) * 8 + i.val, by omega⟩

/-- One entry of the kernel's one-hot matrix: 1 where the class word equals the label word. -/
def oh (w : BitVec 32) (c : Fin 64) : EReal := if BitVec.ofNat 32 c.val = w then 1 else 0

/-- What half `p` accumulates: the class sums of the features and the sum of their squares. -/
def segS (x : SX.Idx → EReal) (l : SL.Idx → BitVec 32) (p : Fin 2) (c : Fin 64) (d : Fin 128) : EReal :=
  ∑ bh : Fin 8, ∑ i : Fin 8, ∑ t : Fin 2048, oh (l (ix2 (row p bh i) t)) c * x (ix3 (row p bh i) d t)
def ssqS (x : SX.Idx → EReal) (p : Fin 2) : EReal :=
  ∑ bh : Fin 8, ∑ i : Fin 8, ∑ d : Fin 128, ∑ t : Fin 2048, x (ix3 (row p bh i) d t) * x (ix3 (row p bh i) d t)

/-- The same as arrays of the kernel's two result windows. -/
def segArr (x : SX.Idx → EReal) (l : SL.Idx → BitVec 32) : SSeg.Idx → EReal :=
  fun j => segS x l ⟨(j 0).val, (j 0).isLt⟩ ⟨(j 1).val, (j 1).isLt⟩ ⟨(j 2).val, (j 2).isLt⟩
def ssqArr (x : SX.Idx → EReal) : SSq.Idx → EReal := fun j => ssqS x ⟨(j 0).val, (j 0).isLt⟩

/-- The kernel's reassembly from any partial arrays: the class sums over both halves, -/
def segT (seg : SSeg.Idx → EReal) (c : Fin 64) (d : Fin 128) : EReal := ∑ p : Fin 2, seg (ix3 p c d)
/-- the loss `(Σ x² − 2 Σ ce · S + Σ_c count_c · |ce_c|²) / (N D)`, -/
def kLoss (seg : SSeg.Idx → EReal) (ssq : SSq.Idx → EReal) (l : SL.Idx → BitVec 32) (ce : SC.Idx → EReal) : EReal :=
  Ideal.div (((∑ p : Fin 2, ssq (ix3 p 0 0)) - two * (∑ c : Fin 64, ∑ d : Fin 128, ce (ix2 c d) * segT seg c d))
    + (∑ c : Fin 64, cntE l c * (∑ d : Fin 128, ce (ix2 c d) * ce (ix2 c d)))) nd
/-- and the difference `(count_c · ce − S) / max(count_c, 1)`. -/
def kDiff (seg : SSeg.Idx → EReal) (l : SL.Idx → BitVec 32) (ce : SC.Idx → EReal) (c : Fin 64) (d : Fin 128) : EReal :=
  Ideal.div (cntE l c * ce (ix2 c d) - segT seg c d) (denE l c)

/-- The reference's loss: the mean of the squared distances to the class centers, -/
def rLoss (x : SX.Idx → EReal) (l : SL.Idx → BitVec 32) (ce : SC.Idx → EReal) : EReal :=
  Ideal.div (∑ b : Fin 128, ∑ t : Fin 2048, ∑ d : Fin 128,
    (x (ix3 b d t) - ce (ix2 (cls l b t) d)) * (x (ix3 b d t) - ce (ix2 (cls l b t) d))) nd
/-- and its difference: the class's summed `ce − x` over the class's size. -/
def rDiff (x : SX.Idx → EReal) (l : SL.Idx → BitVec 32) (ce : SC.Idx → EReal) (c : Fin 64) (d : Fin 128) : EReal :=
  Ideal.div (∑ p ∈ Finset.univ.filter (fun p : Fin 128 × Fin 2048 => cls l p.1 p.2 = c),
    (ce (ix2 (cls l p.1 p.2) d) - x (ix3 p.1 d p.2))) (denE l c)

end Cert.CenterLoss

end
-- ==== Proof.KPay.lean ====
/-
  The kernel body's payloads read at an index, at the ideal values (a float is an extended real, a change of float
  format the identity).

  * The two reset payloads are the zero splat: 0 at every index.
  * The class-sum payload adds to the stored block the product of the one-hot matrix of the labels with the
    features, contracted over the positions: at class c and feature d it is
    old c d + Σ_t oh (label t) c · x d t.
  * The sum-of-squares payload adds to the stored scalar the sum over the features of the per-feature sums of squares
    over the positions: old + Σ_d Σ_t x d t · x d t.
-/
import proofs.«418262_j59717225283874_3_alg».proof.Proof.Gen.KernelIdeal.Skeleton
import proofs.«418262_j59717225283874_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Cert.CenterLoss Idealize.ShloMosaic Idealize.ShloMosaic.ValueIdx

/-! ## The reset payloads -/

/-- The class sums are reset to the zero splat. -/
theorem pay1_apply (j : S1x64x128.Idx) : k0_pay1 (F := Ideal) j = 0 := by
  unfold k0_pay1
  show Ideal.ofBits .f32 0x00000000#32 = 0
  exact Ideal.ofBits_zero_f32

/-- The sum of squares is reset to the zero splat. -/
theorem pay2_apply (j : S1x1x1.Idx) : k0_pay2 (F := Ideal) j = 0 := by
  unfold k0_pay2
  show Ideal.ofBits .f32 0x00000000#32 = 0
  exact Ideal.ofBits_zero_f32

/-! ## The features as a matrix -/

/-- The loaded [1, 128, 2048] block viewed [128, 2048]: entry (d, t) is the block's (0, d, t). -/
theorem pay3_apply (v8 : Vec Ideal S1x128x2048 .f32) (d : Fin 128) (t : Fin 2048) :
    k0_pay3 (F := Ideal) v8 (ix2 d t) = v8 (ix3 0 d t) := by
  unfold k0_pay3
  exact shapeCast_1ab_ab_apply v8 _ d t

/-! ## The sum of squares -/

/-- The position sum's source index: feature k, position t. -/
theorem lift_lane (k : Fin 128) (t : Fin 2048) :
    (reduces_S128x2048_S128 : S128x2048.Reduces [1] S128).lift (ix1 k) t = ix2 k t := by
  funext a; apply Fin.ext
  match a with
  | ⟨0, _⟩ => rfl
  | ⟨1, _⟩ => rfl

/-- The feature sum's source index: feature k of the one column. -/
theorem lift_row (j : S1.Idx) (k : Fin 128) :
    (reduces_S128x1_S1 : S128x1.Reduces [0] S1).lift j k = ix2 k (0 : Fin 1) := by
  funext a; apply Fin.ext
  match a with
  | ⟨0, _⟩ => rfl
  | ⟨1, _⟩ =>
    show (j 0).val = 0
    have h1 : (j 0).val < 1 := (j 0).isLt
    omega

/-- A [128] vector viewed as one column [128, 1]: entry (k, 0) is entry k. -/
theorem shapeCast_a_a1_apply {α : Type} (x : S128.Idx → α) (h : S128.ShapeCasts S128x1) (k : Fin 128) (u : Fin 1) :
    shapeCast S128x1 x h (ix2 k u) = x (ix1 k) :=
  shapeCast_apply x h _ _ (by
    have hu : u.val = 0 := by omega
    rw [Shape.rowMajor_val_two, Shape.rowMajor_val_one]
    show k.val = k.val * 1 + u.val
    omega)

/-- The sum-of-squares payload: the stored scalar plus the sum over the features of the sums over the positions of the
    squared features. -/
theorem pay5_apply (v8 : Vec Ideal S1x128x2048 .f32) (v33 : Vec Ideal S1x1x1 .f32) :
    k0_pay5 (F := Ideal) v8 v33 (ix3 0 0 0)
      = v33 (ix3 0 0 0) + ∑ d : Fin 128, ∑ t : Fin 2048, v8 (ix3 0 d t) * v8 (ix3 0 d t) := by
  unfold k0_pay5
  rw [addf_apply, shapeCast_self, shapeCast_ab_1ab_apply, shapeCast_a_1a_apply]
  congr 1
  refine (Ideal.multiReduction_add_single _ _ reduces_S128x1_S1 _ _ (ix1 0)).trans ?_
  show ∑ k : Fin 128, _ = _
  refine Finset.sum_congr rfl fun k _ => ?_
  rw [lift_row]
  refine (shapeCast_a_a1_apply _ _ k 0).trans ?_
  refine (Ideal.multiReduction_add_single _ _ reduces_S128x2048_S128 _ _ (ix1 k)).trans ?_
  show ∑ t : Fin 2048, _ = _
  refine Finset.sum_congr rfl fun t _ => ?_
  rw [lift_lane]
  show k0_pay3 v8 (ix2 k t) * k0_pay3 v8 (ix2 k t) = _
  rw [pay3_apply]

/-! ## The class sums -/

/-- The product's left operand is read at the output's row ... -/
theorem dot_lhs0 (j : S64x128.Idx) (k : dot_S64x2048_S128x2048_S64x128_1_1_0_0_n_n.contr.Idx) :
    (dot_S64x2048_S128x2048_S64x128_1_1_0_0_n_n.lhsIdx j k 0).val = (j 0).val := by
  first
    | rfl
    | (simp [DotDims.lhsIdx, dot_S64x2048_S128x2048_S64x128_1_1_0_0_n_n]; rfl)
    | simp [DotDims.lhsIdx, dot_S64x2048_S128x2048_S64x128_1_1_0_0_n_n]

/-- ... and the contracted position; -/
theorem dot_lhs1 (j : S64x128.Idx) (k : dot_S64x2048_S128x2048_S64x128_1_1_0_0_n_n.contr.Idx) :
    (dot_S64x2048_S128x2048_S64x128_1_1_0_0_n_n.lhsIdx j k 1).val = (k ⟨0, Nat.one_pos⟩).val :=
  DotDims.lhsIdx_val_of_single dot_S64x2048_S128x2048_S64x128_1_1_0_0_n_n rfl j k

/-- the right operand at the output's column ... -/
theorem dot_rhs0 (j : S64x128.Idx) (k : dot_S64x2048_S128x2048_S64x128_1_1_0_0_n_n.contr.Idx) :
    (dot_S64x2048_S128x2048_S64x128_1_1_0_0_n_n.rhsIdx j k 0).val = (j 1).val := by
  first
    | rfl
    | (simp [DotDims.rhsIdx, dot_S64x2048_S128x2048_S64x128_1_1_0_0_n_n]; rfl)
    | simp [DotDims.rhsIdx, dot_S64x2048_S128x2048_S64x128_1_1_0_0_n_n]

/-- ... and the contracted position. -/
theorem dot_rhs1 (j : S64x128.Idx) (k : dot_S64x2048_S128x2048_S64x128_1_1_0_0_n_n.contr.Idx) :
    (dot_S64x2048_S128x2048_S64x128_1_1_0_0_n_n.rhsIdx j k 1).val = (k ⟨0, Nat.one_pos⟩).val :=
  DotDims.rhsIdx_val_of_single dot_S64x2048_S128x2048_S64x128_1_1_0_0_n_n rfl j k

/-- So at output (c, d) and contracted position t the operands are read at (c, t) and (d, t). -/
theorem dot_lhs (c : Fin 64) (d : Fin 128) (t : Fin 2048) :
    dot_S64x2048_S128x2048_S64x128_1_1_0_0_n_n.lhsIdx (ix2 c d)
      ((contrEquiv1 dot_S64x2048_S128x2048_S64x128_1_1_0_0_n_n 2048 rfl rfl).symm t) = ix2 c t := by
  funext a; apply Fin.ext
  match a with
  | ⟨0, _⟩ => exact dot_lhs0 _ _
  | ⟨1, _⟩ => exact (dot_lhs1 _ _).trans (contrEquiv1_symm_val _ 2048 rfl rfl t)

/-- The same for the right operand. -/
theorem dot_rhs (c : Fin 64) (d : Fin 128) (t : Fin 2048) :
    dot_S64x2048_S128x2048_S64x128_1_1_0_0_n_n.rhsIdx (ix2 c d)
      ((contrEquiv1 dot_S64x2048_S128x2048_S64x128_1_1_0_0_n_n 2048 rfl rfl).symm t) = ix2 d t := by
  funext a; apply Fin.ext
  match a with
  | ⟨0, _⟩ => exact dot_rhs0 _ _
  | ⟨1, _⟩ => exact (dot_rhs1 _ _).trans (contrEquiv1_symm_val _ 2048 rfl rfl t)

/-- One entry of the one-hot matrix: the comparison bit, widened and converted, is 1 where the class word is the label word
    and 0 elsewhere. -/
theorem onehot_entry (w : BitVec 32) (c : Fin 64) :
    (FloatOps.sitofp (F := Ideal) .f32 ((IntOp.cmpi .eq (BitVec.ofNat 32 c.val) w).setWidth 32) : EReal) = oh w c := by
  show (((((IntOp.cmpi .eq (BitVec.ofNat 32 c.val) w).setWidth 32).toInt : ℝ)) : EReal) = oh w c
  unfold oh IntOp.cmpi
  by_cases h : BitVec.ofNat 32 c.val = w
  · simp [h]
  · have hb : (BitVec.ofNat 32 c.val == w) = false := beq_eq_false_iff_ne.mpr h
    simp [h, hb]

/-- An integer comparison at an index compares the elements. -/
theorem cmpi_apply {s : Shape} {w : Nat} (p : CmpIPredicate) (a b : IVec s w) (i : s.Idx) :
    cmpi p a b i = IntOp.cmpi p (a i) (b i) := rfl

/-- The class-sum payload at class c and feature d: the stored entry plus the sum over the positions of the one-hot entry
    times the feature. -/
theorem pay4_apply (v8 : Vec Ideal S1x128x2048 .f32) (v11 : Vec Ideal S1x1x2048 .i32) (v23 : Vec Ideal S1x64x128 .f32)
    (c : Fin 64) (d : Fin 128) :
    k0_pay4 (F := Ideal) v8 v11 v23 (ix3 0 c d)
      = v23 (ix3 0 c d) + ∑ t : Fin 2048, oh (v11 (ix3 0 0 t)) c * v8 (ix3 0 d t) := by
  unfold k0_pay4
  rw [addf_apply, shapeCast_self, shapeCast_ab_1ab_apply]
  congr 1
  refine (Ideal.matmul_constant_zero_apply dot_S64x2048_S128x2048_S64x128_1_1_0_0_n_n none _ _ (ix2 c d)).trans ?_
  rw [← Equiv.sum_comp (contrEquiv1 dot_S64x2048_S128x2048_S64x128_1_1_0_0_n_n 2048 rfl rfl).symm]
  refine Finset.sum_congr rfl fun t _ => ?_
  rw [dot_lhs, dot_rhs, truncf_apply, truncf_apply, pay3_apply, sitofp_apply, extui_apply, cmpi_apply,
    iota_single_apply, broadcastTo_1b_ab_apply, shapeCast_self, shapeCast_a_1a_apply, shapeCast_1a_a_apply,
    shapeCast_1ab_ab_apply]
  exact congrArg (· * _) (onehot_entry _ c)

end Cert.KernelIdeal.Pay

end
-- ==== Proof.KOuts.lean ====
/-
  What the accumulators hold at the flushing points, at the ideal instance.

  One trip adds to the class sum (c, d) the sum over t of [label(k, t) = c] · x(k, d, t) for the trip's row k, and to the
  sum of squares the squares of row k. So eight trips add the block's eight rows, and the points 8p, …, 8p + 7 of half p,
  each starting from what the one before left (the first from zero), add the half's 64 rows: after the point 8p + 7 the
  accumulators hold the half's class sums and sum of squares.
-/
import proofs.«418262_j59717225283874_3_alg».proof.Proof.BodyOutsKernelIdeal
import proofs.«418262_j59717225283874_3_alg».proof.Proof.Spec
import proofs.«418262_j59717225283874_3_alg».proof.Proof.KPay
import Idealize.ShloMosaic.Lib.Pipeline.Value
import Idealize.ShloMosaic.Lib.StableHlo.Run

set_option maxRecDepth 16384

noncomputable section

namespace Cert.KernelIdeal.KValue

open Cert.KernelIdeal Cert.KernelIdeal.Gen Cert.KernelIdeal.Body Cert.KernelIdeal.Pay Cert.CenterLoss
open Idealize.ShloMosaic Idealize.ShloMosaic.TcCoe Idealize.ShloMosaic.ValueIdx
open Idealize.SL Idealize.SL.Sem

theorem htrips : k0_t1_loop.trips = 8 := by decide +kernel

theorem ld_R0_apply (x0 : Vec Ideal S8x128x2048 .f32) (k : Fin k0_t1_loop.trips) (d : Fin 128) (t : Fin 2048) :
    View.ld x0 (R0 k) (ix3 0 d t) = x0 (ix3 ⟨k.val, htrips ▸ k.isLt⟩ d t) := by
  show x0 ((R0 k).idx (ix3 0 d t)) = _
  refine congrArg x0 (funext fun a => Fin.ext ?_)
  have e := k0_off1_eq k
  match a with
  | ⟨0, _⟩ => show k0_off1 k 0 + 1 * 0 = k.val; rw [e]; rfl
  | ⟨1, _⟩ => show k0_off1 k 1 + 1 * d.val = d.val; rw [e]; show 0 + 1 * d.val = d.val; omega
  | ⟨2, _⟩ => show k0_off1 k 2 + 1 * t.val = t.val; rw [e]; show 0 + 1 * t.val = t.val; omega

theorem ld_R1_apply (x1 : Vec Ideal S8x1x2048 .i32) (k : Fin k0_t1_loop.trips) (t : Fin 2048) :
    View.ld x1 (R1 k) (ix3 0 0 t) = x1 (ix3 ⟨k.val, htrips ▸ k.isLt⟩ 0 t) := by
  show x1 ((R1 k).idx (ix3 0 0 t)) = _
  refine congrArg x1 (funext fun a => Fin.ext ?_)
  have e := k0_off2_eq k
  match a with
  | ⟨0, _⟩ => show k0_off2 k 0 + 1 * 0 = k.val; rw [e]; rfl
  | ⟨1, _⟩ => show k0_off2 k 1 + 1 * 0 = 0; rw [e]; rfl
  | ⟨2, _⟩ => show k0_off2 k 2 + 1 * t.val = t.val; rw [e]; show 0 + 1 * t.val = t.val; omega

/-- What trip k adds to the class sum (c, d), and to the sum of squares, over the blocks x0, x1. -/
def term2 (x0 : Vec Ideal S8x128x2048 .f32) (x1 : Vec Ideal S8x1x2048 .i32) (cc : Fin 64) (d : Fin 128) (k : ℕ) : EReal :=
  if h : k < 8 then ∑ t : Fin 2048, oh (x1 (ix3 ⟨k, h⟩ 0 t)) cc * x0 (ix3 ⟨k, h⟩ d t) else 0
def term3 (x0 : Vec Ideal S8x128x2048 .f32) (k : ℕ) : EReal :=
  if h : k < 8 then ∑ d : Fin 128, ∑ t : Fin 2048, x0 (ix3 ⟨k, h⟩ d t) * x0 (ix3 ⟨k, h⟩ d t) else 0

theorem accs_apply (x0 : Vec Ideal S8x128x2048 .f32) (x1 : Vec Ideal S8x1x2048 .i32)
    (a : Vec Ideal S1x64x128 .f32 × Vec Ideal S1x1x1 .f32) :
    ∀ n : ℕ, n ≤ k0_t1_loop.trips →
      (∀ (cc : Fin 64) (d : Fin 128), (accs x0 x1 a n).1 (ix3 0 cc d) = a.1 (ix3 0 cc d) + ∑ k ∈ Finset.range n, term2 x0 x1 cc d k)
      ∧ (accs x0 x1 a n).2 (ix3 0 0 0) = a.2 (ix3 0 0 0) + ∑ k ∈ Finset.range n, term3 x0 k
  | 0, _ => ⟨fun cc d => by rw [Finset.range_zero, Finset.sum_empty, add_zero]; rfl,
             by rw [Finset.range_zero, Finset.sum_empty, add_zero]; rfl⟩
  | n + 1, hn => by
    obtain ⟨ih2, ih3⟩ := accs_apply x0 x1 a n (Nat.le_of_succ_le hn)
    have hk : n < k0_t1_loop.trips := hn
    have hk8 : n < 8 := htrips ▸ hk
    have e := accs_succ x0 x1 a ⟨n, hk⟩
    dsimp only at e
    rw [e]
    refine ⟨fun cc d => ?_, ?_⟩
    · dsimp only
      rw [pay4_apply, ih2 cc d, Finset.sum_range_succ, add_assoc]
      congr 2
      unfold term2; rw [dif_pos hk8]
      refine Finset.sum_congr rfl fun t _ => ?_
      rw [ld_R0_apply, ld_R1_apply]
    · dsimp only
      rw [pay5_apply, ih3, Finset.sum_range_succ, add_assoc]
      congr 2
      unfold term3; rw [dif_pos hk8]
      refine Finset.sum_congr rfl fun d _ => Finset.sum_congr rfl fun t _ => ?_
      rw [ld_R0_apply]

variable (m : (ℓ : Loc nD τ sig) → Buf (Elt Ideal) ℓ)

/-- The last point of half `p`. -/
def tlast (p : Fin 2) : Fin cfg0.N := ⟨8 * p.val + 7, by rw [show cfg0.N = 16 from N_0]; omega⟩

/-! ## The input blocks at a point, read off the argument arrays -/

/-- The two input windows' block index at point t is (t, 0, 0): decided over the grid. -/
theorem in_index : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Row i of the feature block at point t is sequence 8t + i of the features. -/
theorem iblk0_apply (c : Dev nD) (t : Fin cfg0.N) (i : Fin 8) (d : Fin 128) (tt : Fin 2048) (b : Fin 128) (hb : b.val = 8 * t.val + i.val) :
    iblk m c 0 t (ix3 i d tt) = (m ((c : Thread nD τ).loc main_arg0)) (ix3 b d tt) := by
  unfold iblk
  show V m c main_arg0 (((cfg0.win 0).blk t).view.emb (ix3 i d tt)) = _
  rw [V_main_arg0]
  obtain ⟨e0, e1, e2, -, -, -⟩ := in_index t
  refine congrArg _ (funext fun a => Fin.ext ?_)
  match a with
  | ⟨0, _⟩ => show win0_0.index t (0 : Fin 3) * 8 + 1 * i.val = b.val; omega
  | ⟨1, _⟩ => show win0_0.index t (1 : Fin 3) * 128 + 1 * d.val = d.val; omega
  | ⟨2, _⟩ => show win0_0.index t (2 : Fin 3) * 2048 + 1 * tt.val = tt.val; omega

/-- The labels as the region finds them: the argument reshaped to [128, 1, 2048]. -/
theorem V_main_v0 (c : Dev nD) : V m c main_v0
    = fun i => shapeCast S128x1x2048 (m ((c : Thread nD τ).loc main_arg1)) Facts₀.shapeCasts_S128x2048_S128x1x2048 i := by
  show StableHlo.after (List.flatten [hostOps0]) (fun b => m (c, b)) (Proc.devRef .tc main_v0) = _
  simp only [hostOps0, List.flatten_cons, List.flatten_nil, List.append_nil]
  after_results
  rfl

/-- The reshaped labels at (b, 0, t) are the labels at (b, t). -/
theorem label3_apply (l : S128x2048.Idx → BitVec 32) (h : S128x2048.ShapeCasts S128x1x2048) (b : Fin 128) (tt : Fin 2048) :
    shapeCast S128x1x2048 l h (ix3 b (0 : Fin 1) tt) = l (ix2 b tt) := by
  refine shapeCast_apply _ h (ix3 b (0 : Fin 1) tt) (ix2 b tt) ?_
  rw [Shape.rowMajor_val_three, Shape.rowMajor_val_two]
  first
    | (show b.val * 2048 + tt.val = (b.val * 1 + 0) * 2048 + tt.val; omega)
    | (show (b.val * 1 + 0) * 2048 + tt.val = b.val * 2048 + tt.val; omega)

/-- Row i of the label block at point t is sequence 8t + i of the labels. -/
theorem iblk1_apply (c : Dev nD) (t : Fin cfg0.N) (i : Fin 8) (tt : Fin 2048) (b : Fin 128) (hb : b.val = 8 * t.val + i.val) :
    iblk m c 1 t (ix3 i 0 tt) = (m ((c : Thread nD τ).loc main_arg1)) (ix2 b tt) := by
  unfold iblk
  show V m c main_v0 (((cfg0.win 1).blk t).view.emb (ix3 i 0 tt)) = _
  obtain ⟨-, -, -, e0, e1, e2⟩ := in_index t
  have he : ((cfg0.win 1).blk t).view.emb (ix3 i 0 tt) = ix3 b (0 : Fin 1) tt := by
    funext a; apply Fin.ext
    match a with
    | ⟨0, _⟩ => show win0_1.index t (0 : Fin 3) * 8 + 1 * i.val = b.val; omega
    | ⟨1, _⟩ => show win0_1.index t (1 : Fin 3) * 1 + 1 * 0 = 0; omega
    | ⟨2, _⟩ => show win0_1.index t (2 : Fin 3) * 2048 + 1 * tt.val = tt.val; omega
  rw [he, V_main_v0]
  exact label3_apply _ _ b tt

/-! ## The accumulators after each point -/

/-- What point j adds to the class sum (c, d) and to the sum of squares: its eight trips' terms. -/
def pterm2 (c : Dev nD) (cc : Fin 64) (d : Fin 128) (j : ℕ) : EReal :=
  if h : j < cfg0.N then ∑ k ∈ Finset.range 8, term2 (iblk m c 0 ⟨j, h⟩) (iblk m c 1 ⟨j, h⟩) cc d k else 0
def pterm3 (c : Dev nD) (j : ℕ) : EReal :=
  if h : j < cfg0.N then ∑ k ∈ Finset.range 8, term3 (iblk m c 0 ⟨j, h⟩) k else 0

/-- After point n the accumulators hold the terms of the points of n's half up to n. -/
theorem outs_apply (c : Dev nD) : ∀ (n : ℕ) (hn : n < cfg0.N),
    (∀ (cc : Fin 64) (d : Fin 128), (outsAt0 m c n hn).1 (ix3 0 cc d) = ∑ j ∈ Finset.range (n % 8 + 1), pterm2 m c cc d (8 * (n / 8) + j))
    ∧ (outsAt0 m c n hn).2 (ix3 0 0 0) = ∑ j ∈ Finset.range (n % 8 + 1), pterm3 m c (8 * (n / 8) + j)
  | n, hn => by
    have hstep := outsAt0_step m c ⟨n, hn⟩
    obtain ⟨a2, a3⟩ := accs_apply (iblk m c 0 ⟨n, hn⟩) (iblk m c 1 ⟨n, hn⟩)
      (if n % 8 = 0 then (k0_pay1 (F := Ideal), k0_pay2 (F := Ideal))
        else outsAt0 m c (n - 1) (Nat.lt_of_le_of_lt (Nat.sub_le _ _) hn)) k0_t1_loop.trips le_rfl
    dsimp only at hstep
    rw [hstep]
    rw [htrips] at a2 a3
    have hlast2 : ∀ cc d, pterm2 m c cc d n = ∑ k ∈ Finset.range 8, term2 (iblk m c 0 ⟨n, hn⟩) (iblk m c 1 ⟨n, hn⟩) cc d k :=
      fun cc d => by unfold pterm2; rw [dif_pos hn]
    have hlast3 : pterm3 m c n = ∑ k ∈ Finset.range 8, term3 (iblk m c 0 ⟨n, hn⟩) k := by unfold pterm3; rw [dif_pos hn]
    by_cases h0 : n % 8 = 0
    · have hn8 : 8 * (n / 8) + 0 = n := by omega
      refine ⟨fun cc d => ?_, ?_⟩
      · rw [htrips, a2 cc d, if_pos h0, h0, Finset.sum_range_one, hn8, hlast2]
        show k0_pay1 (F := Ideal) (ix3 0 cc d) + _ = _
        rw [pay1_apply, zero_add]
      · rw [htrips, a3, if_pos h0, h0, Finset.sum_range_one, hn8, hlast3]
        show k0_pay2 (F := Ideal) (ix3 0 0 0) + _ = _
        rw [pay2_apply, zero_add]
    · have hpos : n - 1 < n := by omega
      obtain ⟨i2, i3⟩ := outs_apply c (n - 1) (Nat.lt_of_le_of_lt (Nat.sub_le _ _) hn)
      have e1 : (n - 1) % 8 + 1 = n % 8 := by omega
      have e2 : (n - 1) / 8 = n / 8 := by omega
      have e3 : 8 * (n / 8) + n % 8 = n := by omega
      refine ⟨fun cc d => ?_, ?_⟩
      · rw [htrips, a2 cc d, if_neg h0, i2 cc d, e1, e2, Finset.sum_range_succ (fun j => pterm2 m c cc d (8 * (n / 8) + j)) (n % 8), e3, hlast2]
      · rw [htrips, a3, if_neg h0, i3, e1, e2, Finset.sum_range_succ (fun j => pterm3 m c (8 * (n / 8) + j)) (n % 8), e3, hlast3]
  termination_by n => n

/-! ## At the last point of a half -/

/-- After the last point of half `p` the first accumulator holds the half's class sums, -/
theorem outs_last2 (c : Dev nD) (p : Fin 2) (cc : Fin 64) (d : Fin 128) :
    (outsAt0 m c (tlast p).val (tlast p).isLt).1 (ix3 0 cc d)
      = segS (m ((c : Thread nD τ).loc main_arg0)) (m ((c : Thread nD τ).loc main_arg1)) p cc d := by
  have h := (outs_apply m c (tlast p).val (tlast p).isLt).1 cc d
  have e1 : (tlast p).val % 8 + 1 = 8 := by show (8 * p.val + 7) % 8 + 1 = 8; omega
  have e2 : 8 * ((tlast p).val / 8) = 8 * p.val := by show 8 * ((8 * p.val + 7) / 8) = 8 * p.val; omega
  rw [h, e1, e2, Finset.sum_range]
  unfold segS
  refine Finset.sum_congr rfl fun bh _ => ?_
  have hj : 8 * p.val + bh.val < cfg0.N := by rw [show cfg0.N = 16 from N_0]; omega
  unfold pterm2
  rw [dif_pos hj, Finset.sum_range]
  refine Finset.sum_congr rfl fun i _ => ?_
  unfold term2
  rw [dif_pos i.isLt]
  refine Finset.sum_congr rfl fun tt _ => ?_
  have hb : (row p bh i).val = 8 * (8 * p.val + bh.val) + i.val := by show (p.val * 8 + bh.val) * 8 + i.val = _; ring
  rw [iblk1_apply m c ⟨_, hj⟩ ⟨i.val, i.isLt⟩ tt (row p bh i) hb, iblk0_apply m c ⟨_, hj⟩ ⟨i.val, i.isLt⟩ d tt (row p bh i) hb]

/-- and the second the half's sum of squares. -/
theorem outs_last3 (c : Dev nD) (p : Fin 2) :
    (outsAt0 m c (tlast p).val (tlast p).isLt).2 (ix3 0 0 0)
      = ssqS (m ((c : Thread nD τ).loc main_arg0)) p := by
  have h := (outs_apply m c (tlast p).val (tlast p).isLt).2
  have e1 : (tlast p).val % 8 + 1 = 8 := by show (8 * p.val + 7) % 8 + 1 = 8; omega
  have e2 : 8 * ((tlast p).val / 8) = 8 * p.val := by show 8 * ((8 * p.val + 7) / 8) = 8 * p.val; omega
  rw [h, e1, e2, Finset.sum_range]
  unfold ssqS
  refine Finset.sum_congr rfl fun bh _ => ?_
  have hj : 8 * p.val + bh.val < cfg0.N := by rw [show cfg0.N = 16 from N_0]; omega
  unfold pterm3
  rw [dif_pos hj, Finset.sum_range]
  refine Finset.sum_congr rfl fun i _ => ?_
  unfold term3
  rw [dif_pos i.isLt]
  refine Finset.sum_congr rfl fun d _ => Finset.sum_congr rfl fun tt _ => ?_
  have hb : (row p bh i).val = 8 * (8 * p.val + bh.val) + i.val := by show (p.val * 8 + bh.val) * 8 + i.val = _; ring
  rw [iblk0_apply m c ⟨_, hj⟩ ⟨i.val, i.isLt⟩ d tt (row p bh i) hb]

end Cert.KernelIdeal.KValue

end
-- ==== Proof.KArr.lean ====
/-
  The two result arrays after the run. Each half `p` of the batch owns one block of each result array, block `(p, 0, 0)`,
  and that block is written back exactly once: after the half's last point `8 p + 7`, when the accumulators hold the half's
  class sums and sum of squares. The two blocks of an array tile it, so the array ends holding those sums, index by index.
-/
import proofs.«418262_j59717225283874_3_alg».proof.Proof.KOuts
import Idealize.ShloMosaic.Lib.Pipeline.Value

set_option maxRecDepth 16384

noncomputable section

namespace Cert.KernelIdeal.KValue

open Cert.KernelIdeal Cert.KernelIdeal.Gen Cert.KernelIdeal.Body Cert.CenterLoss
open Idealize.ShloMosaic Idealize.ShloMosaic.TcCoe Idealize.ShloMosaic.ValueIdx
open Idealize.SL Idealize.SL.Sem

variable (m : (ℓ : Loc nD τ sig) → Buf (Elt Ideal) ℓ)

/-! ## The class sums -/

/-- The block of the class sums at point `t` is block `(t / 8, 0, 0)`: the point's half. -/
theorem seg_block_index : ∀ t : Fin cfg0.N, win0_2.index t (0 : Fin 3) = t.val / 8
    ∧ win0_2.index t (1 : Fin 3) = 0 ∧ win0_2.index t (2 : Fin 3) = 0 :=
  (by decide +kernel : ∀ t : Fin grid0.N, win0_2.index t (0 : Fin 3) = t.val / 8
    ∧ win0_2.index t (1 : Fin 3) = 0 ∧ win0_2.index t (2 : Fin 3) = 0)

/-- A point that writes back is the last point of its half. -/
theorem eq_tlast_of_mod (t : Fin cfg0.N) (h7 : t.val % 8 = 7) :
    ∃ p : Fin 2, p.val = t.val / 8 ∧ t.val = (tlast p).val := by
  have hN : t.val < 16 := lt_of_lt_of_eq t.isLt N_0
  refine ⟨⟨t.val / 8, by omega⟩, rfl, ?_⟩
  show t.val = 8 * (t.val / 8) + 7
  omega

/-- What a writing point writes back is its half's block of the class sums. -/
theorem seg_flushed (c : Dev nD) (t : Fin cfg0.N) (hf : (cfg0.win 2).flush t = true) :
    (dats m 0 c).flushed 2 t = ((cfg0.win 2).blk t).view.read (Elt Ideal)
      (segArr (m ((c : Thread nD τ).loc main_arg0)) (m ((c : Thread nD τ).loc main_arg1))) := by
  show (cfg0.win 2).cut (grid0.coords t) ((dats m 0 c).after 2 t) = _
  rw [after0_2]
  obtain ⟨p, hp, htp⟩ := eq_tlast_of_mod t ((flush0_2 t).mp hf)
  obtain ⟨e0, e1, e2⟩ := seg_block_index t
  refine funext fun (j : S1x64x128.Idx) => ?_
  show (outsAt0 m c t.val t.isLt).1 j = segArr (m ((c : Thread nD τ).loc main_arg0)) (m ((c : Thread nD τ).loc main_arg1)) (((cfg0.win 2).blk t).view.emb j)
  have key : ∀ (n : ℕ) (hn : n < cfg0.N), n = (tlast p).val → ∀ (cc : Fin 64) (d : Fin 128),
      (outsAt0 m c n hn).1 (ix3 0 cc d)
        = segS (m ((c : Thread nD τ).loc main_arg0)) (m ((c : Thread nD τ).loc main_arg1)) p cc d := by
    rintro n hn rfl cc d
    exact outs_last2 m c p cc d
  have hj : j = ix3 (0 : Fin 1) (j 1) (j 2) := by
    funext a
    match a with
    | ⟨0, _⟩ => exact Fin.ext (by have h : (j 0).val < 1 := (j 0).isLt; show (j 0).val = 0; omega)
    | ⟨1, _⟩ => rfl
    | ⟨2, _⟩ => rfl
  have q0 : p = ⟨((((cfg0.win 2).blk t).view.emb j) 0).val, ((((cfg0.win 2).blk t).view.emb j) 0).isLt⟩ := by
    apply Fin.ext
    show p.val = win0_2.index t (0 : Fin 3) * 1 + 1 * (j 0).val
    have h0 : (j 0).val < 1 := (j 0).isLt
    omega
  have q1 : (j 1 : Fin 64) = ⟨((((cfg0.win 2).blk t).view.emb j) 1).val, ((((cfg0.win 2).blk t).view.emb j) 1).isLt⟩ := by
    apply Fin.ext
    show (j 1).val = win0_2.index t (1 : Fin 3) * 64 + 1 * (j 1).val
    omega
  have q2 : (j 2 : Fin 128) = ⟨((((cfg0.win 2).blk t).view.emb j) 2).val, ((((cfg0.win 2).blk t).view.emb j) 2).isLt⟩ := by
    apply Fin.ext
    show (j 2).val = win0_2.index t (2 : Fin 3) * 128 + 1 * (j 2).val
    omega
  refine (congrArg _ hj).trans ((key t.val t.isLt htp (j 1) (j 2)).trans ?_)
  unfold segArr
  rw [← q0]
  exact congrArg₂ (segS _ _ p) q1 q2

/-- An index of the class sums is in point `t`'s block iff each coordinate is in the block's range on its axis. -/
theorem seg_mem_block (t : Fin cfg0.N) (i : S2x64x128.Idx) :
    i ∈ ((cfg0.win 2).blk t).view.set ↔ ∀ a : Fin 3, win0_2.index t a * S1x64x128.size a ≤ (i a).val
      ∧ (i a).val < win0_2.index t a * S1x64x128.size a + S1x64x128.size a := by
  show i ∈ ((View.whole main_v1_0).slice (win0_2.rect t)).set ↔ _
  rw [View.set_slice_whole, Rect.mem_set_unit]
  exact Iff.rfl

/-- Every index `(p, cc, d)` of the class sums is in the block written back after the last point of half `p`. -/
theorem seg_cover (i : S2x64x128.Idx) :
    ∃ t : Fin cfg0.N, (cfg0.win 2).flush t = true ∧ i ∈ ((cfg0.win 2).blk t).view.set := by
  have hi0 : (i 0).val < 2 := (i 0).isLt
  have hi1 : (i 1).val < 64 := (i 1).isLt
  have hi2 : (i 2).val < 128 := (i 2).isLt
  have ht : (tlast ⟨(i 0).val, hi0⟩).val = 8 * (i 0).val + 7 := rfl
  obtain ⟨e0, e1, e2⟩ := seg_block_index (tlast ⟨(i 0).val, hi0⟩)
  refine ⟨tlast ⟨(i 0).val, hi0⟩, (flush0_2 _).mpr (by omega), ?_⟩
  rw [seg_mem_block]
  intro a
  match a with
  | ⟨0, _⟩ =>
    show win0_2.index (tlast ⟨(i 0).val, hi0⟩) (0 : Fin 3) * 1 ≤ (i 0).val
      ∧ (i 0).val < win0_2.index (tlast ⟨(i 0).val, hi0⟩) (0 : Fin 3) * 1 + 1
    omega
  | ⟨1, _⟩ =>
    show win0_2.index (tlast ⟨(i 0).val, hi0⟩) (1 : Fin 3) * 64 ≤ (i 1).val
      ∧ (i 1).val < win0_2.index (tlast ⟨(i 0).val, hi0⟩) (1 : Fin 3) * 64 + 64
    omega
  | ⟨2, _⟩ =>
    show win0_2.index (tlast ⟨(i 0).val, hi0⟩) (2 : Fin 3) * 128 ≤ (i 2).val
      ∧ (i 2).val < win0_2.index (tlast ⟨(i 0).val, hi0⟩) (2 : Fin 3) * 128 + 128
    omega

/-- THE CLASS SUMS after the run: entry `(p, cc, d)` is half `p`'s sum of the features `d` over the positions of class `cc`. -/
theorem final2 (c : Dev nD) :
    (dats m 0 c).arrAt 2 cfg0.N
      = segArr (m ((c : Thread nD τ).loc main_arg0)) (m ((c : Thread nD τ).loc main_arg1)) :=
  (dats m 0 c).arrAt_eq_of_cover 2 _ (fun t hf => seg_flushed m c t hf) seg_cover

/-! ## The sums of squares -/

/-- The block of the sums of squares at point `t` is block `(t / 8, 0, 0)`: the point's half. -/
theorem ssq_block_index : ∀ t : Fin cfg0.N, win0_3.index t (0 : Fin 3) = t.val / 8
    ∧ win0_3.index t (1 : Fin 3) = 0 ∧ win0_3.index t (2 : Fin 3) = 0 :=
  (by decide +kernel : ∀ t : Fin grid0.N, win0_3.index t (0 : Fin 3) = t.val / 8
    ∧ win0_3.index t (1 : Fin 3) = 0 ∧ win0_3.index t (2 : Fin 3) = 0)

/-- What a writing point writes back is its half's block of the sums of squares. -/
theorem ssq_flushed (c : Dev nD) (t : Fin cfg0.N) (hf : (cfg0.win 3).flush t = true) :
    (dats m 0 c).flushed 3 t = ((cfg0.win 3).blk t).view.read (Elt Ideal)
      (ssqArr (m ((c : Thread nD τ).loc main_arg0))) := by
  show (cfg0.win 3).cut (grid0.coords t) ((dats m 0 c).after 3 t) = _
  rw [after0_3]
  obtain ⟨p, hp, htp⟩ := eq_tlast_of_mod t ((flush0_3 t).mp hf)
  obtain ⟨e0, e1, e2⟩ := ssq_block_index t
  refine funext fun (j : S1x1x1.Idx) => ?_
  show (outsAt0 m c t.val t.isLt).2 j = ssqArr (m ((c : Thread nD τ).loc main_arg0)) (((cfg0.win 3).blk t).view.emb j)
  have key : ∀ (n : ℕ) (hn : n < cfg0.N), n = (tlast p).val →
      (outsAt0 m c n hn).2 (ix3 0 0 0) = ssqS (m ((c : Thread nD τ).loc main_arg0)) p := by
    rintro n hn rfl
    exact outs_last3 m c p
  have hj : j = ix3 (0 : Fin 1) (0 : Fin 1) (0 : Fin 1) := by
    funext a
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => exact Fin.ext (by have h : (j 2).val < 1 := (j 2).isLt; show (j 2).val = 0; omega)
  have q0 : p = ⟨((((cfg0.win 3).blk t).view.emb j) 0).val, ((((cfg0.win 3).blk t).view.emb j) 0).isLt⟩ := by
    apply Fin.ext
    show p.val = win0_3.index t (0 : Fin 3) * 1 + 1 * (j 0).val
    have h0 : (j 0).val < 1 := (j 0).isLt
    omega
  refine (congrArg _ hj).trans ((key t.val t.isLt htp).trans ?_)
  unfold ssqArr
  rw [← q0]

/-- An index of the sums of squares is in point `t`'s block iff each coordinate is in the block's range on its axis. -/
theorem ssq_mem_block (t : Fin cfg0.N) (i : S2x1x1.Idx) :
    i ∈ ((cfg0.win 3).blk t).view.set ↔ ∀ a : Fin 3, win0_3.index t a * S1x1x1.size a ≤ (i a).val
      ∧ (i a).val < win0_3.index t a * S1x1x1.size a + S1x1x1.size a := by
  show i ∈ ((View.whole main_v1_1).slice (win0_3.rect t)).set ↔ _
  rw [View.set_slice_whole, Rect.mem_set_unit]
  exact Iff.rfl

/-- Every index `(p, 0, 0)` of the sums of squares is in the block written back after the last point of half `p`. -/
theorem ssq_cover (i : S2x1x1.Idx) :
    ∃ t : Fin cfg0.N, (cfg0.win 3).flush t = true ∧ i ∈ ((cfg0.win 3).blk t).view.set := by
  have hi0 : (i 0).val < 2 := (i 0).isLt
  have hi1 : (i 1).val < 1 := (i 1).isLt
  have hi2 : (i 2).val < 1 := (i 2).isLt
  have ht : (tlast ⟨(i 0).val, hi0⟩).val = 8 * (i 0).val + 7 := rfl
  obtain ⟨e0, e1, e2⟩ := ssq_block_index (tlast ⟨(i 0).val, hi0⟩)
  refine ⟨tlast ⟨(i 0).val, hi0⟩, (flush0_3 _).mpr (by omega), ?_⟩
  rw [ssq_mem_block]
  intro a
  match a with
  | ⟨0, _⟩ =>
    show win0_3.index (tlast ⟨(i 0).val, hi0⟩) (0 : Fin 3) * 1 ≤ (i 0).val
      ∧ (i 0).val < win0_3.index (tlast ⟨(i 0).val, hi0⟩) (0 : Fin 3) * 1 + 1
    omega
  | ⟨1, _⟩ =>
    show win0_3.index (tlast ⟨(i 0).val, hi0⟩) (1 : Fin 3) * 1 ≤ (i 1).val
      ∧ (i 1).val < win0_3.index (tlast ⟨(i 0).val, hi0⟩) (1 : Fin 3) * 1 + 1
    omega
  | ⟨2, _⟩ =>
    show win0_3.index (tlast ⟨(i 0).val, hi0⟩) (2 : Fin 3) * 1 ≤ (i 2).val
      ∧ (i 2).val < win0_3.index (tlast ⟨(i 0).val, hi0⟩) (2 : Fin 3) * 1 + 1
    omega

/-- THE SUMS OF SQUARES after the run: entry `(p, 0, 0)` is half `p`'s sum of the squared features. -/
theorem final3 (c : Dev nD) :
    (dats m 0 c).arrAt 3 cfg0.N = ssqArr (m ((c : Thread nD τ).loc main_arg0)) :=
  (dats m 0 c).arrAt_eq_of_cover 3 _ (fun t hf => ssq_flushed m c t hf) ssq_cover

end Cert.KernelIdeal.KValue

end
-- ==== Proof.LibRowScatter.lean ====
/-
  StableHLO's gather and scatter read at an index, for the three index patterns that a row lookup `table[rows]`, a
  segment sum and a histogram lower to: rows of a rank-2 operand selected by one column of start indices.
-/
import Idealize.ShloMosaic.PureOps.ShapeOps
import Idealize.ShloMosaic.Lib.ValueIdx
import Mathlib.Data.Fintype.Card
import Mathlib.Data.List.Count

namespace Cert.LibRowScatter

open Idealize.ShloMosaic Idealize.ShloMosaic.ValueIdx

/-! ## Row gather -/

/-- The dimension numbers of a row lookup: operand `[R, C]`, start indices `[N, 1]`, result `[N, C]`; the result's
    axis 1 is the offset axis, the operand's axis 0 is collapsed and is the one the start index names, slices are
    `[1, C]`. -/
abbrev rowGatherDims (R C N : Nat)
    (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-- The row gather read at `(n, k)`: when the start index `idx[n, 0]`, read signed, is the row `r` of the operand, the
    result element is the operand's element `(r, k)`. -/
theorem rowGather_apply {R C N w : Nat}
    (wf : GatherDims.WF ⟨2, ![R, C]⟩ ⟨2, ![N, 1]⟩ ⟨2, ![N, C]⟩ [1] [0] [] [0] [] 1 ![1, C]) {α : Type}
    (x : (⟨2, ![R, C]⟩ : Shape).Idx → α) (idx : IVec ⟨2, ![N, 1]⟩ w) (n : Fin N) (k : Fin C) (r : Fin R)
    (hr : (idx (ix2 n 0)).toInt = (r.val : Int)) :
    Host.gather (rowGatherDims R C N wf) x idx (ix2 n k) = x (ix2 r k) := by
  unfold Host.gather
  congr 1
  -- the collapsed axis: the start index, inside the operand so not moved by the clamp, and no offset
  have h0 : (rowGatherDims R C N wf).start (ix2 n k) idx (0 : Fin 2) + (rowGatherDims R C N wf).batchCoord (ix2 n k) (0 : Fin 2)
      + (rowGatherDims R C N wf).offCoord (ix2 n k) (0 : Fin 2) = r.val := by
    rw [GatherDims.batchCoord_eq_zero _ _ _ List.not_mem_nil, Nat.add_zero, GatherDims.offCoord_eq_zero _ _ _
      (fun h => ((GatherDims.mem_sKept _ _).mp h).1 (List.mem_singleton.mpr rfl)), Nat.add_zero]
    unfold GatherDims.start
    rw [dif_pos (show (0 : Fin 2) ∈ (rowGatherDims R C N wf).startIndexMap from List.mem_singleton.mpr rfl)]
    have hsi : (rowGatherDims R C N wf).siIdx (ix2 n k) ⟨List.idxOf (0 : Fin 2) (rowGatherDims R C N wf).startIndexMap,
        List.idxOf_lt_length_iff.2 (List.mem_singleton.mpr rfl)⟩ = ix2 n 0 := by
      funext b; refine Fin.ext ?_
      match b with
      | ⟨0, _⟩ => rfl
      | ⟨1, _⟩ => rfl
    rw [hsi, hr]
    show min (r.val : Int).toNat (R - 1) = r.val
    have := r.isLt
    rw [Int.toNat_natCast]; omega
  -- the offset axis: start 0, the offset is the result's column
  have h1 : (rowGatherDims R C N wf).start (ix2 n k) idx (1 : Fin 2) + (rowGatherDims R C N wf).batchCoord (ix2 n k) (1 : Fin 2)
      + (rowGatherDims R C N wf).offCoord (ix2 n k) (1 : Fin 2) = k.val := by
    rw [GatherDims.batchCoord_eq_zero _ _ _ List.not_mem_nil, Nat.add_zero]
    unfold GatherDims.start
    rw [dif_neg (show ¬ (1 : Fin 2) ∈ ([0] : List (Fin 2)) by decide), Nat.zero_add]
    unfold GatherDims.offCoord
    rw [dif_pos ((GatherDims.mem_sKept _ _).mpr
      ⟨(show (1 : Fin 2) ∉ ([0] : List (Fin 2)) by decide), List.not_mem_nil⟩)]
    rfl
  funext a
  refine Fin.ext ?_
  match a with
  | ⟨0, _⟩ => exact h0
  | ⟨1, _⟩ => exact h1

/-! ## Where an update lands, in general -/

/-- An update index lands at `i` exactly when, on every axis of the operand, the start read off the scatter indices
    plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split_ifs with h
  · constructor
    · intro e a
      have e' := congrFun (Option.some.inj e) a
      have e'' := congrArg Fin.val e'
      simp only at e''
      have := h a
      omega
    · intro e
      congr 1
      funext a
      refine Fin.ext ?_
      have := e a
      show (d.start j idx a + (d.window j a : Int)).toNat = (i a).val
      omega
  · constructor
    · intro e; cases e
    · intro e
      refine absurd (fun a => ?_) h
      have := e a
      have := (i a).isLt
      constructor <;> omega

/-! ## Row scatter -/

/-- The dimension numbers of a segment sum of rows: operand `[R, C]`, scatter indices `[N, 1]`, updates `[N, C]`; the
    updates' axis 1 is the window axis, the operand's axis 0 is inserted and is the one the scatter index names. -/
abbrev rowScatterDims (R C N : Nat)
    (wf : ScatterDims.WF ⟨2, ![R, C]⟩ ⟨2, ![N, 1]⟩ ⟨2, ![N, C]⟩ [1] [0] [0] 1) :
    ScatterDims ⟨2, ![R, C]⟩ ⟨2, ![N, 1]⟩ ⟨2, ![N, C]⟩ :=
  { updateWindowDims := [1], insertedWindowDims := [0], scatterDimsToOperandDims := [0], indexVectorDim := 1, wf := wf }

/-- Where update `(n, k)` of a row scatter lands: at `(r, k')` exactly when the scatter index `idx[n, 0]`, read signed,
    is the row `r` and the column is kept. -/
theorem rowScatter_resultIdx {R C N w : Nat}
    (wf : ScatterDims.WF ⟨2, ![R, C]⟩ ⟨2, ![N, 1]⟩ ⟨2, ![N, C]⟩ [1] [0] [0] 1)
    (idx : IVec ⟨2, ![N, 1]⟩ w) (n : Fin N) (k : Fin C) (r : Fin R) (k' : Fin C) :
    (rowScatterDims R C N wf).resultIdx? (ix2 n k) idx = some (ix2 r k')
      ↔ ((idx (ix2 n 0)).toInt = (r.val : Int) ∧ k = k') := by
  rw [resultIdx?_eq_some_iff]
  -- on the inserted axis the start is the scatter index and there is no window coordinate
  have hs0 : (rowScatterDims R C N wf).start (ix2 n k) idx (0 : Fin 2) = (idx (ix2 n 0)).toInt := by
    unfold ScatterDims.start
    rw [dif_pos (show (0 : Fin 2) ∈ (rowScatterDims R C N wf).scatterDimsToOperandDims from List.mem_singleton.mpr rfl)]
    have hsi : (rowScatterDims R C N wf).siIdx (ix2 n k)
        ⟨List.idxOf (0 : Fin 2) (rowScatterDims R C N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 2) ∉ (rowScatterDims R C N wf).sKept := by simp [ScatterDims.sKept, Shape.kept]
  have hw0 : (rowScatterDims R C N wf).window (ix2 n k) (0 : Fin 2) = 0 := by
    unfold ScatterDims.window
    rw [dif_neg hk0]
  -- on the window axis the start is 0 and the window coordinate is the update's column
  have hs1 : (rowScatterDims R C N wf).start (ix2 n k) idx (1 : Fin 2) = 0 := by
    unfold ScatterDims.start
    rw [dif_neg (show ¬ (1 : Fin 2) ∈ ([0] : List (Fin 2)) by decide)]
  have hk1 : (1 : Fin 2) ∈ (rowScatterDims R C N wf).sKept := by simp [ScatterDims.sKept, Shape.kept]
  have hw1 : (rowScatterDims R C N wf).window (ix2 n k) (1 : Fin 2) = k.val := by
    unfold ScatterDims.window
    rw [dif_pos hk1]
    rfl
  constructor
  · intro h
    have e0 := h (0 : Fin 2)
    have e1 := h (1 : Fin 2)
    rw [hs0, hw0] at e0
    rw [hs1, hw1] at e1
    change _ + ((0 : Nat) : Int) = (r.val : Int) at e0
    change (0 : Int) + (k.val : Int) = (k'.val : Int) at e1
    exact ⟨by omega, Fin.ext (by omega)⟩
  · rintro ⟨h1, rfl⟩
    have e0 : (rowScatterDims R C N wf).start (ix2 n k) idx (0 : Fin 2)
        + ((rowScatterDims R C N wf).window (ix2 n k) (0 : Fin 2) : Int) = (r.val : Int) := by
      rw [hs0, hw0, h1]; simp
    have e1 : (rowScatterDims R C N wf).start (ix2 n k) idx (1 : Fin 2)
        + ((rowScatterDims R C N wf).window (ix2 n k) (1 : Fin 2) : Int) = (k.val : Int) := by
      rw [hs1, hw1]; simp
    intro a
    match a with
    | ⟨0, _⟩ => exact e0
    | ⟨1, _⟩ => exact e1

/-! ## Cell scatter -/

/-- The dimension numbers of a histogram: operand `[R]`, scatter indices `[N, 1]`, updates `[N]`; no window axis, the
    operand's only axis is inserted and is the one the scatter index names. -/
abbrev cellScatterDims (R N : Nat)
    (wf : ScatterDims.WF ⟨1, ![R]⟩ ⟨2, ![N, 1]⟩ ⟨1, ![N]⟩ [] [0] [0] 1) :
    ScatterDims ⟨1, ![R]⟩ ⟨2, ![N, 1]⟩ ⟨1, ![N]⟩ :=
  { updateWindowDims := [], insertedWindowDims := [0], scatterDimsToOperandDims := [0], indexVectorDim := 1, wf := wf }

/-- Where update `n` of a cell scatter lands: at the cell `r` exactly when the scatter index `idx[n, 0]`, read signed,
    is `r`. -/
theorem cellScatter_resultIdx {R N w : Nat}
    (wf : ScatterDims.WF ⟨1, ![R]⟩ ⟨2, ![N, 1]⟩ ⟨1, ![N]⟩ [] [0] [0] 1)
    (idx : IVec ⟨2, ![N, 1]⟩ w) (n : Fin N) (r : Fin R) :
    (cellScatterDims R N wf).resultIdx? (ix1 n) idx = some (ix1 r) ↔ (idx (ix2 n 0)).toInt = (r.val : Int) := by
  rw [resultIdx?_eq_some_iff]
  -- the only axis is inserted: the start is the scatter index and there is no window coordinate
  have hs0 : (cellScatterDims R N wf).start (ix1 n) idx (0 : Fin 1) = (idx (ix2 n 0)).toInt := by
    unfold ScatterDims.start
    rw [dif_pos (show (0 : Fin 1) ∈ (cellScatterDims R N wf).scatterDimsToOperandDims from List.mem_singleton.mpr rfl)]
    have hsi : (cellScatterDims R N wf).siIdx (ix1 n)
        ⟨List.idxOf (0 : Fin 1) (cellScatterDims R N wf).scatterDimsToOperandDims,
          List.idxOf_lt_length_iff.2 (List.mem_singleton.mpr rfl)⟩ = ix2 n 0 := by
      funext b; refine Fin.ext ?_
      match b with
      | ⟨0, _⟩ => rfl
      | ⟨1, _⟩ => rfl
    rw [hsi]
  have hk0 : (0 : Fin 1) ∉ (cellScatterDims R N wf).sKept := by simp [ScatterDims.sKept, Shape.kept]
  have hw0 : (cellScatterDims R N wf).window (ix1 n) (0 : Fin 1) = 0 := by
    unfold ScatterDims.window
    rw [dif_neg hk0]
  constructor
  · intro h
    have e0 := h (0 : Fin 1)
    rw [hs0, hw0] at e0
    change _ + ((0 : Nat) : Int) = (r.val : Int) at e0
    omega
  · intro h1
    have e0 : (cellScatterDims R N wf).start (ix1 n) idx (0 : Fin 1)
        + ((cellScatterDims R N wf).window (ix1 n) (0 : Fin 1) : Int) = (r.val : Int) := by
      rw [hs0, hw0, h1]; simp
    intro a
    match a with
    | ⟨0, _⟩ => exact e0

/-! ## A scatter-add of ones counts -/

/-- A left fold whose every step adds, at the element `i`, one when the step's item satisfies `p` and nothing
    otherwise, adds at `i` the number of items of the list that satisfy `p`. -/
theorem foldl_count {β ι : Type} (i : β) (G : (β → BitVec 32) → ι → (β → BitVec 32)) (p : ι → Prop)
    [DecidablePred p] (hG : ∀ r n, G r n i = r i + BitVec.ofNat 32 (if p n then 1 else 0)) :
    ∀ (L : List ι) (r : β → BitVec 32),
      (L.foldl G r) i = r i + BitVec.ofNat 32 (L.countP (fun n => decide (p n))) := by
  intro L
  induction L with
  | nil => intro r; simp
  | cons a L ih =>
    intro r
    rw [List.foldl_cons, ih, hG, List.countP_cons]
    by_cases h : p a
    · simp only [h, if_true, decide_true, BitVec.ofNat_add]
      ac_rfl
    · simp [h]

/-- Counting the positions of the row-major enumeration whose index satisfies a property counts the indices that
    satisfy it. -/
theorem countP_finRange_rowMajor (u : Shape) (p : u.Idx → Prop) [DecidablePred p] :
    (List.finRange u.numel).countP (fun n => decide (p (u.rowMajor.symm n)))
      = (Finset.univ.filter fun j : u.Idx => p j).card := by
  have h1 : (List.finRange u.numel).countP (fun n => decide (p (u.rowMajor.symm n)))
      = (Finset.univ.filter fun n : Fin u.numel => p (u.rowMajor.symm n)).card := by
    rw [List.countP_eq_length_filter]
    rfl
  rw [h1]
  exact Finset.card_equiv u.rowMajor.symm (by simp)

/-- An integer scatter-add of ones into zeros, with any dimension numbers, holds at each element the number of update
    indices that land there (as a 32-bit word). -/
theorem scatter_addi_ones {s si u : Shape} (d : ScatterDims s si u) {w : Nat} (idx : IVec si w) (i : s.Idx) :
    Host.scatter d IntOp.addi (fun _ => (0#32 : BitVec 32)) idx (fun _ => (1#32 : BitVec 32)) i
      = BitVec.ofNat 32 ((Finset.univ.filter fun j : u.Idx => d.resultIdx? j idx = some i).card) := by
  unfold Host.scatter
  rw [foldl_count i _ (fun n => d.resultIdx? (u.rowMajor.symm n) idx = some i) ?_ (List.finRange u.numel)
    (fun _ => (0#32 : BitVec 32))]
  · rw [countP_finRange_rowMajor u (fun j => d.resultIdx? j idx = some i)]
    simp
  · intro r n
    cases hres : d.resultIdx? (u.rowMajor.symm n) idx with
    | none => simp
    | some i0 =>
      by_cases hi : i = i0
      · subst hi
        simp [IntOp.addi]
      · have : ¬ i0 = i := fun e => hi e.symm
        simp [hi, this]

end Cert.LibRowScatter
-- ==== Proof.KTail.lean ====
/-
  The host operations after the kernel's region, read as mathematics: from the two arrays the region leaves — the partial
  class sums [2, 64, 128] and the partial sums of squares [2, 1, 1] —, the labels and the centers, the 49 operations
  compute the loss and the difference that Spec.lean names kLoss and kDiff.

  * Each host reduction is a finite sum over the reduced coordinates (reduce_halves, reduce_ssq, reduce_all, reduce_rows,
    reduce_vec).
  * The histogram of the labels: with every label word below 64, clipping at zero and wrapping negatives by 64 change
    nothing (clip_word); the flat position b * 2048 + t of the twice reshaped labels holds the label of (b, t)
    (flat_label); a scatter-add of ones into zeros counts, at class r, the flat positions whose label is r, and the flat
    positions are in bijection with the pairs (b, t) (counts_eq).
  * The divisor max(1, count) is the extended real of the natural maximum (max_one_cnt).
  Then the two results follow by reading the elementwise operations at an index (diff_of, loss_of), and the tail's
  valuation at the four buffers it reads is the region's arrays, the reshaped labels and the centers (tail_diff, tail_loss).
-/
import proofs.«418262_j59717225283874_3_alg».proof.Proof.Gen.KernelIdeal.Frame
import proofs.«418262_j59717225283874_3_alg».proof.Proof.Spec
import proofs.«418262_j59717225283874_3_alg».proof.Proof.LibRowScatter
import Idealize.ShloMosaic.PureOps.Ideal.Laws
import Idealize.ShloMosaic.Lib.ValueIdx
import Idealize.ShloMosaic.Lib.Pipeline.Value

set_option maxRecDepth 16384

noncomputable section

namespace Cert.KernelIdeal.Tail

open Cert.KernelIdeal Cert.KernelIdeal.Gen Cert.CenterLoss
open Idealize.ShloMosaic Idealize.ShloMosaic.TcCoe Idealize.ShloMosaic.ValueIdx
open Idealize.SL.Sem Idealize.ShloMosaic.Pipeline

/-! ## The host reductions read at an index -/

section Reductions

/-- The sum over the two halves of the partial class sums. -/
theorem reduce_halves (seg : S2x64x128.Idx → EReal) (h : S2x64x128.ReducesTo [0] S64x128) (hu : 0 < S_.numel) :
    (Host.reduceAdd (F := Ideal) (φ := .f32) seg (constant S_ .f32 0x00000000#32) h hu)
      = fun j => segT seg ⟨(j 0).val, (j 0).isLt⟩ ⟨(j 1).val, (j 1).isLt⟩ := by
  funext j
  have hr : S2x64x128.Reduces [0] S64x128 := by decide
  show Ideal.hostReduceAdd h seg (Ideal.ofBits .f32 0x00000000#32) j = _
  rw [Ideal.hostReduceAdd_single h hr, Ideal.ofBits_zero_f32, zero_add]
  unfold segT
  refine Finset.sum_congr rfl fun p _ => congrArg seg ?_
  funext a
  match a with
  | ⟨0, _⟩ => rfl
  | ⟨1, _⟩ => rfl
  | ⟨2, _⟩ => rfl

/-- The sum over the two halves of the partial sums of squares. -/
theorem reduce_ssq (ssq : S2x1x1.Idx → EReal) (h : S2x1x1.ReducesTo [0, 1, 2] S_) (hu : 0 < S_.numel) :
    (Host.reduceAdd (F := Ideal) (φ := .f32) ssq (constant S_ .f32 0x00000000#32) h hu)
      = fun _ => ∑ p : Fin 2, ssq (ix3 p 0 0) := by
  funext j
  show Ideal.hostReduceAdd h ssq (Ideal.ofBits .f32 0x00000000#32) j = _
  rw [Ideal.hostReduceAdd_total h (fun b => b.elim0), Ideal.ofBits_zero_f32, zero_add]
  let e : Fin 2 ≃ S2x1x1.Idx :=
    { toFun := fun p => ix3 p 0 0
      invFun := fun i => i 0
      left_inv := fun p => rfl
      right_inv := fun i => by
        funext a
        match a with
        | ⟨0, _⟩ => rfl
        | ⟨1, h⟩ => exact Fin.ext (by have h1 : (i ⟨1, h⟩).val < 1 := (i ⟨1, h⟩).isLt; show 0 = (i ⟨1, h⟩).val; omega)
        | ⟨2, h⟩ => exact Fin.ext (by have h1 : (i ⟨2, h⟩).val < 1 := (i ⟨2, h⟩).isLt; show 0 = (i ⟨2, h⟩).val; omega) }
  exact (Equiv.sum_comp e ssq).symm

/-- A total sum of a [64, 128] array is the double sum over its coordinates. -/
theorem reduce_all (x : S64x128.Idx → EReal) (h : S64x128.ReducesTo [0, 1] S_) (hu : 0 < S_.numel) :
    (Host.reduceAdd (F := Ideal) (φ := .f32) x (constant S_ .f32 0x00000000#32) h hu)
      = fun _ => ∑ c : Fin 64, ∑ d : Fin 128, x (ix2 c d) := by
  funext j
  show Ideal.hostReduceAdd h x (Ideal.ofBits .f32 0x00000000#32) j = _
  rw [Ideal.hostReduceAdd_total h (fun b => b.elim0), Ideal.ofBits_zero_f32, zero_add]
  exact sum_idx2 x

/-- A sum along the rows of a [64, 128] array. -/
theorem reduce_rows (x : S64x128.Idx → EReal) (h : S64x128.ReducesTo [1] S64) (hu : 0 < S_.numel) :
    (Host.reduceAdd (F := Ideal) (φ := .f32) x (constant S_ .f32 0x00000000#32) h hu)
      = fun i => ∑ d : Fin 128, x (ix2 (i 0) d) := by
  funext j
  have hr : S64x128.Reduces [1] S64 := by decide
  show Ideal.hostReduceAdd h x (Ideal.ofBits .f32 0x00000000#32) j = _
  rw [Ideal.hostReduceAdd_single h hr, Ideal.ofBits_zero_f32, zero_add]
  refine Finset.sum_congr rfl fun d _ => congrArg x ?_
  funext a
  match a with
  | ⟨0, _⟩ => rfl
  | ⟨1, _⟩ => rfl

/-- A total sum of a [64] array. -/
theorem reduce_vec (x : S64.Idx → EReal) (h : S64.ReducesTo [0] S_) (hu : 0 < S_.numel) :
    (Host.reduceAdd (F := Ideal) (φ := .f32) x (constant S_ .f32 0x00000000#32) h hu)
      = fun _ => ∑ c : Fin 64, x (ix1 c) := by
  funext j
  show Ideal.hostReduceAdd h x (Ideal.ofBits .f32 0x00000000#32) j = _
  rw [Ideal.hostReduceAdd_total h (fun b => b.elim0), Ideal.ofBits_zero_f32, zero_add]
  let e : Fin 64 ≃ S64.Idx :=
    { toFun := fun p => ix1 p
      invFun := fun i => i 0
      left_inv := fun p => rfl
      right_inv := fun i => (eq_ix1 i).symm }
  exact (Equiv.sum_comp e x).symm

end Reductions

/-! ## The histogram of the labels -/

section Counts

/-- A word below 64 is its own signed value. -/
theorem toInt_of_lt_64 (w : BitVec 32) (hw : w.toNat < 64) : w.toInt = (w.toNat : Int) := by
  rw [BitVec.toInt_eq_toNat_cond]
  split
  · rfl
  · omega

/-- Clipping below at zero and wrapping a negative index by 64 leave a word in range alone. -/
theorem clip_word (w : BitVec 32) (hw : w.toNat < 64) :
    Scalar.select (IntOp.cmpi .slt (IntOp.maxsi 0#32 w) 0#32) (IntOp.addi (IntOp.maxsi 0#32 w) 64#32) (IntOp.maxsi 0#32 w) = w := by
  have h0 : w.slt 0#32 = false := by
    have := toInt_of_lt_64 w hw
    simp only [BitVec.slt, decide_eq_false_iff_not, not_lt, this]
    simp
  have hm : IntOp.maxsi 0#32 w = w := by
    unfold IntOp.maxsi
    rw [h0]
    rfl
  rw [hm]
  have hc : IntOp.cmpi .slt w 0#32 = 0#1 := by
    unfold IntOp.cmpi
    show BitVec.ofBool (w.slt 0#32) = 0#1
    rw [h0]
    rfl
  rw [hc]
  exact select_zero _ _

/-- The labels as the flat array of 262144 words: position b * 2048 + t holds the label of (b, t). -/
theorem flat_label (l : S128x2048.Idx → BitVec 32) (h1 : S128x2048.ShapeCasts S128x1x2048)
    (h2 : S128x1x2048.ShapeCasts S262144) (b : Fin 128) (t : Fin 2048) (n : Fin 262144) (hn : n.val = b.val * 2048 + t.val) :
    shapeCast S262144 (fun i' => shapeCast S128x1x2048 l h1 i') h2 (ix1 n) = l (ix2 b t) := by
  refine (shapeCast_apply _ h2 (ix1 n) (ix3 b (0 : Fin 1) t) ?_).trans ?_
  · rw [Shape.rowMajor_val_three, Shape.rowMajor_val_one]
    show (b.val * 1 + 0) * 2048 + t.val = n.val
    omega
  · refine shapeCast_apply l h1 (ix3 b (0 : Fin 1) t) (ix2 b t) ?_
    rw [Shape.rowMajor_val_three, Shape.rowMajor_val_two]
    show b.val * 2048 + t.val = (b.val * 1 + 0) * 2048 + t.val
    omega

end Counts

section CountsMain

/-- The scatter indices: the clipped, wrapped flat labels as a column. At row b * 2048 + t it is the label of (b, t). -/
theorem index_column (l : S128x2048.Idx → BitVec 32) (hl : ∀ i, (l i).toNat < 64)
    (h1 : S128x2048.ShapeCasts S128x1x2048) (h2 : S128x1x2048.ShapeCasts S262144)
    (hb0 : S_.BroadcastsInDim S262144 (![] : Fin 0 → Fin S262144.rank))
    (hbi : S262144.BroadcastsInDim S262144x1 (![0] : Fin 1 → Fin S262144x1.rank))
    (b : Fin 128) (t : Fin 2048) (n : Fin 262144) (hn : n.val = b.val * 2048 + t.val) :
    (broadcastInDim S262144x1 ![0] hbi
      (select
        (cmpi CmpIPredicate.slt
          (maxsi (broadcastInDim S262144 ![] hb0 (constantI S_ 32 0#32))
            (fun i => shapeCast S262144 (fun i' => shapeCast S128x1x2048 l h1 i') h2 i))
          (broadcastInDim S262144 ![] hb0 (constantI S_ 32 0#32)))
        (addi
          (maxsi (broadcastInDim S262144 ![] hb0 (constantI S_ 32 0#32))
            (fun i => shapeCast S262144 (fun i' => shapeCast S128x1x2048 l h1 i') h2 i))
          (broadcastInDim S262144 ![] hb0 (constantI S_ 32 64#32)))
        (maxsi (broadcastInDim S262144 ![] hb0 (constantI S_ 32 0#32))
          (fun i => shapeCast S262144 (fun i' => shapeCast S128x1x2048 l h1 i') h2 i))) : IVec S262144x1 32)
      (ix2 n (0 : Fin 1)) = l (ix2 b t) := by
  refine (broadcastInDim_apply _ hbi _ (ix2 n (0 : Fin 1)) (ix1 n) (fun a => match a with | ⟨0, _⟩ => rfl)).trans ?_
  have hf := flat_label l h1 h2 b t n hn
  show Scalar.select (IntOp.cmpi .slt (IntOp.maxsi 0#32 (shapeCast S262144 (fun i' => shapeCast S128x1x2048 l h1 i') h2 (ix1 n))) 0#32)
      (IntOp.addi (IntOp.maxsi 0#32 (shapeCast S262144 (fun i' => shapeCast S128x1x2048 l h1 i') h2 (ix1 n))) 64#32)
      (IntOp.maxsi 0#32 (shapeCast S262144 (fun i' => shapeCast S128x1x2048 l h1 i') h2 (ix1 n))) = _
  rw [hf]
  exact clip_word _ (hl _)

/-- A count of positions is at most 262144. -/
theorem cnt_le (l : S128x2048.Idx → BitVec 32) (r : Fin 64) : cnt l r ≤ 262144 := by
  unfold cnt
  refine (Finset.card_le_univ _).trans ?_
  rw [Fintype.card_prod, Fintype.card_fin, Fintype.card_fin]

/-- The signed value of a small count word. -/
theorem toInt_ofNat_small (n : ℕ) (hn : n ≤ 262144) : (BitVec.ofNat 32 n).toInt = (n : Int) := by
  rw [BitVec.toInt_eq_toNat_cond, BitVec.toNat_ofNat]
  have : n % 2 ^ 32 = n := Nat.mod_eq_of_lt (by omega)
  rw [this]
  split
  · rfl
  · omega

/-- THE COUNTS: the scatter-add of ones at the labels, converted, is the number of positions of each class. -/
theorem counts_eq (l : S128x2048.Idx → BitVec 32) (hl : ∀ i, (l i).toNat < 64)
    (h1 : S128x2048.ShapeCasts S128x1x2048) (h2 : S128x1x2048.ShapeCasts S262144)
    (hb0 : S_.BroadcastsInDim S262144 (![] : Fin 0 → Fin S262144.rank))
    (hb64 : S_.BroadcastsInDim S64 (![] : Fin 0 → Fin S64.rank))
    (hbi : S262144.BroadcastsInDim S262144x1 (![0] : Fin 1 → Fin S262144x1.rank)) :
    sitofp (F := Ideal) .f32
      (Host.scatter scatter_S64_S262144x1_S262144_n_0_0_1 IntOp.addi
        (broadcastInDim S64 ![] hb64 (constantI S_ 32 0#32))
        (broadcastInDim S262144x1 ![0] hbi
          (select
            (cmpi CmpIPredicate.slt
              (maxsi (broadcastInDim S262144 ![] hb0 (constantI S_ 32 0#32))
                (fun i => shapeCast S262144 (fun i' => shapeCast S128x1x2048 l h1 i') h2 i))
              (broadcastInDim S262144 ![] hb0 (constantI S_ 32 0#32)))
            (addi
              (maxsi (broadcastInDim S262144 ![] hb0 (constantI S_ 32 0#32))
                (fun i => shapeCast S262144 (fun i' => shapeCast S128x1x2048 l h1 i') h2 i))
              (broadcastInDim S262144 ![] hb0 (constantI S_ 32 64#32)))
            (maxsi (broadcastInDim S262144 ![] hb0 (constantI S_ 32 0#32))
              (fun i => shapeCast S262144 (fun i' => shapeCast S128x1x2048 l h1 i') h2 i))))
        (broadcastInDim S262144 ![] hb0 (constantI S_ 32 1#32)))
    = fun i => cntE l ⟨(i 0).val, (i 0).isLt⟩ := by
  funext i
  obtain ⟨r, rfl⟩ : ∃ r : Fin 64, i = ix1 r := ⟨i 0, eq_ix1 i⟩
  generalize hidx : (broadcastInDim S262144x1 ![0] hbi
          (select
            (cmpi CmpIPredicate.slt
              (maxsi (broadcastInDim S262144 ![] hb0 (constantI S_ 32 0#32))
                (fun i => shapeCast S262144 (fun i' => shapeCast S128x1x2048 l h1 i') h2 i))
              (broadcastInDim S262144 ![] hb0 (constantI S_ 32 0#32)))
            (addi
              (maxsi (broadcastInDim S262144 ![] hb0 (constantI S_ 32 0#32))
                (fun i => shapeCast S262144 (fun i' => shapeCast S128x1x2048 l h1 i') h2 i))
              (broadcastInDim S262144 ![] hb0 (constantI S_ 32 64#32)))
            (maxsi (broadcastInDim S262144 ![] hb0 (constantI S_ 32 0#32))
              (fun i => shapeCast S262144 (fun i' => shapeCast S128x1x2048 l h1 i') h2 i))) : IVec S262144x1 32) = idx
  have hcol : ∀ (b : Fin 128) (t : Fin 2048) (n : Fin 262144), n.val = b.val * 2048 + t.val → idx (ix2 n (0 : Fin 1)) = l (ix2 b t) := by
    intro b t n hn
    rw [← hidx]
    exact index_column l hl h1 h2 hb0 hbi b t n hn
  show (((Host.scatter scatter_S64_S262144x1_S262144_n_0_0_1 IntOp.addi (fun _ => (0#32 : BitVec 32)) idx (fun _ => (1#32 : BitVec 32)) (ix1 r)).toInt : ℝ) : EReal) = _
  rw [Cert.LibRowScatter.scatter_addi_ones]
  have hcard : (Finset.univ.filter fun j : S262144.Idx => scatter_S64_S262144x1_S262144_n_0_0_1.resultIdx? j idx = some (ix1 r)).card = cnt l r := by
    unfold cnt
    symm
    refine Finset.card_bij (fun p _ => ix1 (⟨p.1.val * 2048 + p.2.val, by have := p.1.isLt; have := p.2.isLt; omega⟩ : Fin 262144)) ?_ ?_ ?_
    · intro p hp
      rw [Finset.mem_filter] at hp ⊢
      refine ⟨Finset.mem_univ _, ?_⟩
      refine (Cert.LibRowScatter.cellScatter_resultIdx (R := 64) (N := 262144) Facts₀.scatter_S64_S262144x1_S262144_n_0_0_1_wf idx _ r).mpr ?_
      rw [hcol p.1 p.2 _ rfl, toInt_of_lt_64 _ (hl _)]
      have := congrArg Fin.val hp.2
      simp only [cls] at this
      rw [Nat.mod_eq_of_lt (hl _)] at this
      exact_mod_cast this
    · intro p _ q _ hpq
      have h0 := congrArg (fun j : S262144.Idx => (j 0).val) hpq
      simp only at h0
      have := p.1.isLt; have := p.2.isLt; have := q.1.isLt; have := q.2.isLt
      refine Prod.ext (Fin.ext ?_) (Fin.ext ?_) <;> omega
    · intro j hj
      rw [Finset.mem_filter] at hj
      have hj0 : (j 0).val < 262144 := (j 0).isLt
      refine ⟨(⟨(j 0).val / 2048, by omega⟩, ⟨(j 0).val % 2048, Nat.mod_lt _ (by decide)⟩), ?_, ?_⟩
      · rw [Finset.mem_filter]
        refine ⟨Finset.mem_univ _, ?_⟩
        have hj' := hj.2
        rw [eq_ix1 j] at hj'
        have := (Cert.LibRowScatter.cellScatter_resultIdx (R := 64) (N := 262144) Facts₀.scatter_S64_S262144x1_S262144_n_0_0_1_wf idx (j 0) r).mp hj'
        rw [hcol ⟨(j 0).val / 2048, by omega⟩ ⟨(j 0).val % 2048, Nat.mod_lt _ (by decide)⟩ (j 0) (by show (j 0).val = (j 0).val / 2048 * 2048 + (j 0).val % 2048; omega),
          toInt_of_lt_64 _ (hl _)] at this
        refine Fin.ext ?_
        show (l (ix2 _ _)).toNat % 64 = r.val
        rw [Nat.mod_eq_of_lt (hl _)]
        exact_mod_cast this
      · refine (congrArg ix1 (Fin.ext ?_)).trans (eq_ix1 j).symm
        show (j 0).val / 2048 * 2048 + (j 0).val % 2048 = (j 0).val
        omega
  rw [hcard, toInt_ofNat_small _ (cnt_le l r)]
  unfold cntE
  rw [Int.cast_natCast]

end CountsMain

/-! ## The tail's two results -/

section Tail

/-- A row vector broadcast along the columns of a [64, 128] array reads its row's entry. -/
theorem bcast_rows {α : Type} (x : S64.Idx → α) (h1 : S64.BroadcastsInDim S64x1 (![0] : Fin 1 → Fin S64x1.rank))
    (h2 : S64x1.BroadcastsInDim S64x128 (![0, 1] : Fin 2 → Fin S64x128.rank)) (a : Fin 64) (b : Fin 128) :
    broadcastInDim S64x128 ![0, 1] h2 (broadcastInDim S64x1 ![0] h1 x) (ix2 a b) = x (ix1 a) := by
  refine (broadcastInDim_apply _ h2 _ (ix2 a b) (ix2 a (0 : Fin 1)) (fun k => match k with | ⟨0, _⟩ => rfl | ⟨1, _⟩ => rfl)).trans ?_
  exact broadcastInDim_apply _ h1 x (ix2 a (0 : Fin 1)) (ix1 a) (fun k => match k with | ⟨0, _⟩ => rfl)

/-- The divisor: the larger of one and the count. -/
theorem max_one_cnt (l : S128x2048.Idx → BitVec 32) (c : Fin 64) :
    max (FloatOps.sitofp (F := Ideal) .f32 (1#32 : BitVec 32)) (cntE l c) = denE l c := by
  show max ((((1#32 : BitVec 32).toInt : ℝ) : EReal)) (cntE l c) = denE l c
  have h1 : (1#32 : BitVec 32).toInt = 1 := by decide
  rw [h1]
  unfold cntE denE
  rw [Nat.cast_max, EReal.coe_strictMono.monotone.map_max, Nat.cast_one, Int.cast_one]

/-- The constant one, converted and broadcast to the 64 classes. -/
theorem one_bcast (hb64 : S_.BroadcastsInDim S64 (![] : Fin 0 → Fin S64.rank)) (i : S64.Idx) :
    broadcastInDim S64 ![] hb64 (sitofp (F := Ideal) .f32 (constantI S_ 32 1#32)) i = FloatOps.sitofp (F := Ideal) .f32 (1#32 : BitVec 32) := rfl

/-- The difference from the counts and the summed class sums. -/
theorem diff_of {cntv : S64.Idx → EReal} {v2 : S64x128.Idx → EReal} (seg : S2x64x128.Idx → EReal)
    (l : S128x2048.Idx → BitVec 32) (ce : S64x128.Idx → EReal)
    (hb1 : S64.BroadcastsInDim S64x1 (![0] : Fin 1 → Fin S64x1.rank))
    (hb2 : S64x1.BroadcastsInDim S64x128 (![0, 1] : Fin 2 → Fin S64x128.rank))
    (hb64 : S_.BroadcastsInDim S64 (![] : Fin 0 → Fin S64.rank))
    (hc : cntv = fun i => cntE l ⟨(i 0).val, (i 0).isLt⟩)
    (h2 : v2 = fun j => segT seg ⟨(j 0).val, (j 0).isLt⟩ ⟨(j 1).val, (j 1).isLt⟩) :
    Host.divf (F := Ideal) (φ := .f32)
      (subf (mulf (broadcastInDim S64x128 ![0, 1] hb2 (broadcastInDim S64x1 ![0] hb1 cntv)) ce) v2)
      (broadcastInDim S64x128 ![0, 1] hb2 (broadcastInDim S64x1 ![0] hb1
        (maximumf (broadcastInDim S64 ![] hb64 (sitofp .f32 (constantI S_ 32 1#32))) cntv)))
      = fun j => kDiff seg l ce ⟨(j 0).val, (j 0).isLt⟩ ⟨(j 1).val, (j 1).isLt⟩ := by
  subst hc h2
  funext j
  obtain ⟨a, b, rfl⟩ : ∃ a b, j = ix2 a b := ⟨j 0, j 1, eq_ix2 j⟩
  rw [show ∀ (x y : FVec Ideal S64x128 .f32) (i : S64x128.Idx), Host.divf x y i = Ideal.div (x i) (y i) from fun _ _ _ => rfl,
    subf_apply, mulf_apply, bcast_rows, bcast_rows, maximumf_apply, one_bcast]
  show Ideal.div (cntE l a * ce (ix2 a b) - segT seg a b) (max (FloatOps.sitofp (F := Ideal) .f32 (1#32 : BitVec 32)) (cntE l a)) = kDiff seg l ce a b
  rw [max_one_cnt]
  rfl

/-- The loss from the counts, the summed class sums and the summed squares. -/
theorem loss_of {cntv : S64.Idx → EReal} {v2 : S64x128.Idx → EReal} {v3 : S_.Idx → EReal} (seg : S2x64x128.Idx → EReal)
    (ssq : S2x1x1.Idx → EReal) (l : S128x2048.Idx → BitVec 32) (ce : S64x128.Idx → EReal)
    (h25 : S64x128.ReducesTo [0, 1] S_) (h27 : S64x128.ReducesTo [1] S64) (h29 : S64.ReducesTo [0] S_) (hu : 0 < S_.numel)
    (hc : cntv = fun i => cntE l ⟨(i 0).val, (i 0).isLt⟩)
    (h2 : v2 = fun j => segT seg ⟨(j 0).val, (j 0).isLt⟩ ⟨(j 1).val, (j 1).isLt⟩)
    (h3 : v3 = fun _ => ∑ p : Fin 2, ssq (ix3 p 0 0)) :
    Host.divf (F := Ideal) (φ := .f32)
      (addf
        (subf v3
          (mulf (constant S_ .f32 0x40000000#32)
            (Host.reduceAdd (mulf ce v2) (constant S_ .f32 0x00000000#32) h25 hu)))
        (Host.reduceAdd (mulf cntv (Host.reduceAdd (mulf ce ce) (constant S_ .f32 0x00000000#32) h27 hu))
          (constant S_ .f32 0x00000000#32) h29 hu))
      (constant S_ .f32 0x4C000000#32)
      = fun _ => kLoss seg ssq l ce := by
  subst hc h2 h3
  rw [reduce_all, reduce_rows, reduce_vec]
  funext j
  rfl

variable (m : (ℓ : Loc nD τ sig) → Buf (Elt Ideal) ℓ)

/-- The labels as the region's second array: the reshape before the region. -/
theorem V0_main_v0 (c : Dev nD) : V0 m c (Proc.devRef .tc main_v0)
    = fun i => shapeCast S128x1x2048 (m ((c : Thread nD τ).loc main_arg1)) Facts₀.shapeCasts_S128x2048_S128x1x2048 i := by
  show StableHlo.after (List.flatten [hostOps0]) (fun b => m (c, b)) (Proc.devRef .tc main_v0) = _
  simp only [hostOps0, List.flatten_cons, List.flatten_nil, List.append_nil]
  after_results
  rfl

/-- THE DIFFERENCE after the tail: Spec's kDiff of the class sums as the region leaves them. -/
theorem tail_diff (dats : (p : Fin 1) → (c : Dev nD) → Dat τ (Elt Ideal) Unit ℕ (UR sig nD τ) ℕ (cfgs p) c)
    (hA : ∀ c w, (dats 0 c).A w = V m c (Pipeline.arrRef spec0 w)) (c : Dev nD)
    (hl : ∀ i, ((m ((c : Thread nD τ).loc main_arg1)) i).toNat < 64) :
    Pipeline.afterTail₀ cfgs dats 0 (V0 m) [hostOps1, hostOps1_1, hostOps1_2, hostOps1_3, hostOps1_4] c main_v23
      = fun j => kDiff ((dats 0 c).arrAt 2 cfg0.N) (m ((c : Thread nD τ).loc main_arg1)) (m ((c : Thread nD τ).loc main_arg2))
          ⟨(j 0).val, (j 0).isLt⟩ ⟨(j 1).val, (j 1).isLt⟩ := by
  unfold Pipeline.afterTail₀
  simp only [hostOps1, hostOps1_1, hostOps1_2, hostOps1_3, hostOps1_4, List.flatten_cons, List.flatten_nil, List.append_nil, List.cons_append, List.nil_append]
  after_results_simp
  simp only [StableHlo.TRef.toBuf, StableHlo.TRef.ofBuf, cast_eq, id_eq]
  have hA2 : withArrays (cfgs 0).spec c (V0 m c) (fun w => (dats 0 c).arrAt w (cfgs 0).N) (Proc.devRef .tc main_v1_0) = (dats 0 c).arrAt 2 cfg0.N :=
    Pipeline.withArrays_arr spec0 launch0.win.arr_inj c _ _ 2
  have hV0 : withArrays (cfgs 0).spec c (V0 m c) (fun w => (dats 0 c).arrAt w (cfgs 0).N) (Proc.devRef .tc main_v0)
      = fun i => shapeCast S128x1x2048 (m ((c : Thread nD τ).loc main_arg1)) Facts₀.shapeCasts_S128x2048_S128x1x2048 i :=
    (Pipeline.withArrays_arr spec0 launch0.win.arr_inj c _ _ 1).trans
      ((((dats 0 c).arrAt_in 1 rfl _).trans (hA c 1)).trans (V0_main_v0 m c))
  have hC : withArrays (cfgs 0).spec c (V0 m c) (fun w => (dats 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [hA2, hV0, hC]
  exact diff_of _ _ _ _ _ _ (counts_eq _ hl _ _ _ _ _) (reduce_halves _ _ _)

/-- THE LOSS after the tail: Spec's kLoss of the two arrays as the region leaves them. -/
theorem tail_loss (dats : (p : Fin 1) → (c : Dev nD) → Dat τ (Elt Ideal) Unit ℕ (UR sig nD τ) ℕ (cfgs p) c)
    (hA : ∀ c w, (dats 0 c).A w = V m c (Pipeline.arrRef spec0 w)) (c : Dev nD)
    (hl : ∀ i, ((m ((c : Thread nD τ).loc main_arg1)) i).toNat < 64) :
    Pipeline.afterTail₀ cfgs dats 0 (V0 m) [hostOps1, hostOps1_1, hostOps1_2, hostOps1_3, hostOps1_4] c main_v33
      = fun _ => kLoss ((dats 0 c).arrAt 2 cfg0.N) ((dats 0 c).arrAt 3 cfg0.N) (m ((c : Thread nD τ).loc main_arg1)) (m ((c : Thread nD τ).loc main_arg2)) := by
  unfold Pipeline.afterTail₀
  simp only [hostOps1, hostOps1_1, hostOps1_2, hostOps1_3, hostOps1_4, List.flatten_cons, List.flatten_nil, List.append_nil, List.cons_append, List.nil_append]
  after_results_simp
  simp only [StableHlo.TRef.toBuf, StableHlo.TRef.ofBuf, cast_eq, id_eq]
  have hA2 : withArrays (cfgs 0).spec c (V0 m c) (fun w => (dats 0 c).arrAt w (cfgs 0).N) (Proc.devRef .tc main_v1_0) = (dats 0 c).arrAt 2 cfg0.N :=
    Pipeline.withArrays_arr spec0 launch0.win.arr_inj c _ _ 2
  have hA3 : withArrays (cfgs 0).spec c (V0 m c) (fun w => (dats 0 c).arrAt w (cfgs 0).N) (Proc.devRef .tc main_v1_1) = (dats 0 c).arrAt 3 cfg0.N :=
    Pipeline.withArrays_arr spec0 launch0.win.arr_inj c _ _ 3
  have hV0 : withArrays (cfgs 0).spec c (V0 m c) (fun w => (dats 0 c).arrAt w (cfgs 0).N) (Proc.devRef .tc main_v0)
      = fun i => shapeCast S128x1x2048 (m ((c : Thread nD τ).loc main_arg1)) Facts₀.shapeCasts_S128x2048_S128x1x2048 i :=
    (Pipeline.withArrays_arr spec0 launch0.win.arr_inj c _ _ 1).trans
      ((((dats 0 c).arrAt_in 1 rfl _).trans (hA c 1)).trans (V0_main_v0 m c))
  have hC : withArrays (cfgs 0).spec c (V0 m c) (fun w => (dats 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  rw [hA2, hA3, hV0, hC]
  exact loss_of _ _ _ _ _ _ _ _ (counts_eq _ hl _ _ _ _ _) (reduce_halves _ _ _) (reduce_ssq _ _ _)

end Tail

end Cert.KernelIdeal.Tail

end
-- ==== Proof.RefValue.lean ====
/-
  The reference's intermediate arrays read at an index: the flattened features, the flattened labels, the label after the
  reference's wrap of negative indices, and the rows of the centers it looks up. A position (b, t) is the flat row
  n = b · 2048 + t; under the hypothesis that every label word is a class (below 64) the wrap changes nothing and the
  looked-up row is the row of the position's class.
-/
import proofs.«418262_j59717225283874_3_alg».proof.Proof.RefRun
import proofs.«418262_j59717225283874_3_alg».proof.Proof.Spec
import proofs.«418262_j59717225283874_3_alg».proof.Proof.LibRowScatter
import Idealize.ShloMosaic.PureOps.Ideal.Laws
import Idealize.ShloMosaic.Lib.ValueIdx
import Idealize.ShloMosaic.Lib.Pipeline.Value
import Idealize.ShloMosaic.Lib.StableHlo.Run

set_option maxRecDepth 16384

noncomputable section

namespace Cert.ReferenceIdeal.RefValue

open Cert.ReferenceIdeal Cert.ReferenceIdeal.Gen Cert.ReferenceIdeal.ValueP Cert.CenterLoss Cert.LibRowScatter
open Idealize.ShloMosaic Idealize.ShloMosaic.TcCoe Idealize.ShloMosaic.ValueIdx Idealize.SL.Sem Idealize.ShloMosaic.StableHlo

/-! ## Positions and flat rows -/

/-- The position `(b, t)` as the flat row `b · 2048 + t`. -/
def flat : Fin 128 × Fin 2048 ≃ Fin 262144 where
  toFun p := ⟨p.1.val * 2048 + p.2.val, by have := p.1.isLt; have := p.2.isLt; omega⟩
  invFun n := (⟨n.val / 2048, by have := n.isLt; omega⟩, ⟨n.val % 2048, Nat.mod_lt _ (by decide)⟩)
  left_inv p := by
    rcases p with ⟨b, t⟩
    have hb := b.isLt
    have ht := t.isLt
    refine Prod.ext (Fin.ext ?_) (Fin.ext ?_)
    · show (b.val * 2048 + t.val) / 2048 = b.val
      omega
    · show (b.val * 2048 + t.val) % 2048 = t.val
      omega
  right_inv n := by
    refine Fin.ext ?_
    show n.val / 2048 * 2048 + n.val % 2048 = n.val
    omega

theorem flat_val (b : Fin 128) (t : Fin 2048) : (flat (b, t)).val = b.val * 2048 + t.val := rfl

/-! ## A label word that is a class -/

/-- A word below 64 read signed is itself. -/
theorem word_toInt {w : BitVec 32} (h : w.toNat < 64) : w.toInt = (w.toNat : Int) := by
  unfold BitVec.toInt
  rw [if_pos (by omega)]

/-- Such a word is not negative, -/
theorem word_slt {w : BitVec 32} (h : w.toNat < 64) : w.slt 0#32 = false := by
  unfold BitVec.slt
  rw [word_toInt h]
  simp

/-- so the wrap `w < 0 ? w + 64 : w` keeps it, -/
theorem word_wrap {w : BitVec 32} (h : w.toNat < 64) :
    Scalar.select (IntOp.cmpi .slt w 0#32) (IntOp.addi w 64#32) w = w := by
  unfold IntOp.cmpi
  simp only [word_slt h]
  exact select_zero _ _

/-- and so does the clamp `max(0, w)`. -/
theorem word_clamp {w : BitVec 32} (h : w.toNat < 64) : IntOp.maxsi 0#32 w = w := by
  unfold IntOp.maxsi
  rw [word_slt h]
  rfl

/-! ## The flattened arrays -/

/-- The features as rows: `feat[n, d] = x[b, d, t]` at `n = b · 2048 + t`. -/
def featN (x : S128x128x2048.Idx → EReal) : S262144x128.Idx → EReal := fun i =>
  shapeCast S262144x128 (transpose S128x2048x128 [0, 2, 1] x transposes_S128x128x2048_S128x2048x128_0_2_1)
    shapeCasts_S128x2048x128_S262144x128 i

/-- The labels flattened. -/
def labN (l : S128x2048.Idx → BitVec 32) : S262144.Idx → BitVec 32 := fun i =>
  shapeCast S262144 l shapeCasts_S128x2048_S262144 i

/-- The wrap of negative indices applied to a vector of label words. -/
def wrapN (v : S262144.Idx → BitVec 32) : S262144.Idx → BitVec 32 :=
  select (cmpi .slt v (broadcastInDim S262144 ![] bcast_S_S262144 (constantI S_ 32 0#32)))
    (addi v (broadcastInDim S262144 ![] bcast_S_S262144 (constantI S_ 32 64#32))) v

/-- The words as a column of start indices. -/
def colN (v : S262144.Idx → BitVec 32) : S262144x1.Idx → BitVec 32 :=
  broadcastInDim S262144x1 ![0] bcast_S262144_S262144x1_0 v

/-- The looked-up rows of the centers. -/
def cbN (l : S128x2048.Idx → BitVec 32) (ce : S64x128.Idx → EReal) : S262144x128.Idx → EReal :=
  Host.gather gather_S64x128_S262144x1_S262144x128_1_0_n_n_0_1_1128 ce (colN (wrapN (labN l)))

theorem featN_apply (x : S128x128x2048.Idx → EReal) (b : Fin 128) (t : Fin 2048) (d : Fin 128) :
    featN x (ix2 (flat (b, t)) d) = x (ix3 b d t) := by
  unfold featN
  rw [shapeCast_apply _ _ _ (ix3 b t d : S128x2048x128.Idx) (by
    rw [Shape.rowMajor_val_three, Shape.rowMajor_val_two]; rfl)]
  exact transpose_apply _ _ _ _ (ix3 b d t : S128x128x2048.Idx) (by intro a; fin_cases a <;> rfl)

theorem labN_apply (l : S128x2048.Idx → BitVec 32) (b : Fin 128) (t : Fin 2048) :
    labN l (ix1 (flat (b, t))) = l (ix2 b t) := by
  unfold labN
  exact shapeCast_apply _ _ _ (ix2 b t : S128x2048.Idx) (by
    rw [Shape.rowMajor_val_two, Shape.rowMajor_val_one]; rfl)

theorem wrapN_apply (v : S262144.Idx → BitVec 32) (i : S262144.Idx) (h : (v i).toNat < 64) : wrapN v i = v i := by
  unfold wrapN
  rw [select_apply]
  exact word_wrap h

theorem colN_apply (v : S262144.Idx → BitVec 32) (n : Fin 262144) (k : Fin 1) : colN v (ix2 n k) = v (ix1 n) := by
  unfold colN
  exact broadcastInDim_apply _ _ _ _ (ix1 n) (by intro a; fin_cases a; rfl)

/-- The class of a position whose label word is a class is that word. -/
theorem cls_val (l : S128x2048.Idx → BitVec 32) (hl : ∀ i, (l i).toNat < 64) (b : Fin 128) (t : Fin 2048) :
    ((cls l b t).val : Int) = (l (ix2 b t)).toInt := by
  rw [word_toInt (hl _)]
  show (((l (ix2 b t)).toNat % 64 : Nat) : Int) = _
  rw [Nat.mod_eq_of_lt (hl _)]

theorem cls_eq_iff (l : S128x2048.Idx → BitVec 32) (hl : ∀ i, (l i).toNat < 64) (b : Fin 128) (t : Fin 2048) (r : Fin 64) :
    (l (ix2 b t)).toInt = (r.val : Int) ↔ cls l b t = r := by
  rw [← cls_val l hl]
  constructor
  · intro h; exact Fin.ext (by exact_mod_cast h)
  · intro h; rw [h]

/-- The looked-up row of position `(b, t)` is the row of its class. -/
theorem cbN_apply (l : S128x2048.Idx → BitVec 32) (ce : S64x128.Idx → EReal) (hl : ∀ i, (l i).toNat < 64)
    (b : Fin 128) (t : Fin 2048) (d : Fin 128) :
    cbN l ce (ix2 (flat (b, t)) d) = ce (ix2 (cls l b t) d) := by
  unfold cbN
  refine rowGather_apply gather_S64x128_S262144x1_S262144x128_1_0_n_n_0_1_1128_wf ce _ (flat (b, t)) d (cls l b t) ?_
  rw [colN_apply, wrapN_apply _ _ (by rw [labN_apply]; exact hl _), labN_apply]
  exact (cls_val l hl b t).symm

/-! ## The host's operations read at an index, at the ideal values -/

theorem hostDivf_at {s : Shape} (a b : FVec Ideal s .f32) (i : s.Idx) : Host.divf a b i = Ideal.div (a i) (b i) := rfl

theorem maxsi_at {s : Shape} {w : Nat} (a b : IVec s w) (i : s.Idx) : maxsi a b i = IntOp.maxsi (a i) (b i) := rfl

theorem sitofp_word (b : BitVec 32) : (FloatOps.sitofp (F := Ideal) .f32 b : EReal) = ((b.toInt : ℝ) : EReal) := rfl

/-- A float segment sum at an element: the operand there plus the updates that land there. -/
theorem scatterAdd_at {s si u : Shape} {w : Nat} (d : ScatterDims s si u) (x : FVec Ideal s .f32) (idx : IVec si w)
    (upd : FVec Ideal u .f32) (i : s.Idx) :
    Host.scatterAdd d x idx upd i = x i + ∑ j ∈ Finset.univ.filter (fun j => d.resultIdx? j idx = some i), upd j := rfl

/-- A float sum over every axis from a zero initial value: the total. -/
theorem reduceAdd_all {s t u : Shape} {axes : List (Fin s.rank)} (x : FVec Ideal s .f32) (init : u.Idx → Ideal .f32)
    (h : s.ReducesTo axes t) (hu : 0 < u.numel) (ht : ∀ b, t.size b = 1) (j : t.Idx) :
    Host.reduceAdd x init h hu j = init (Shape.Idx.first hu) + ∑ i, x i := by
  unfold Host.reduceAdd
  rw [Ideal.hostReduceAdd_def]
  exact Ideal.hostReduceAdd_total h ht x _ j

/-! ## The loss -/

/-- The total of the squared differences over the flat rows is the total over positions and features. -/
theorem sq_total (x : S128x128x2048.Idx → EReal) (l : S128x2048.Idx → BitVec 32) (ce : S64x128.Idx → EReal)
    (hl : ∀ i, (l i).toNat < 64) :
    ∑ i, (mulf (subf (featN x) (cbN l ce)) (subf (featN x) (cbN l ce)) : FVec Ideal S262144x128 .f32) i
      = ∑ b : Fin 128, ∑ t : Fin 2048, ∑ d : Fin 128,
          (x (ix3 b d t) - ce (ix2 (cls l b t) d)) * (x (ix3 b d t) - ce (ix2 (cls l b t) d)) := by
  rw [sum_idx2, ← Equiv.sum_comp flat, Fintype.sum_prod_type]
  refine Finset.sum_congr rfl fun b _ => Finset.sum_congr rfl fun t _ => Finset.sum_congr rfl fun d _ => ?_
  rw [mulf_apply, subf_apply, featN_apply, cbN_apply l ce hl]

/-- The reference's loss on the flattened arrays: the total of the squared differences over `2²⁵`. -/
theorem loss_flat (x : S128x128x2048.Idx → EReal) (l : S128x2048.Idx → BitVec 32) (ce : S64x128.Idx → EReal)
    (hl : ∀ i, (l i).toNat < 64) :
    Host.divf (Host.reduceAdd (mulf (subf (featN x) (cbN l ce)) (subf (featN x) (cbN l ce)))
        (constant (F := Ideal) S_ .f32 0x00000000#32) reducesTo_S262144x128_S_d0_1 h_S_)
      (constant (F := Ideal) S_ .f32 0x4C000000#32) = fun _ => rLoss x l ce := by
  funext j
  rw [hostDivf_at, reduceAdd_all _ _ _ _ (fun b => b.elim0), constant_apply, constant_apply, Ideal.ofBits_zero_f32, zero_add,
    sq_total x l ce hl]
  unfold rLoss nd
  with_reducible rfl

/-! ## The class sizes -/

/-- The clamp `max(0, ·)` the reference's histogram applies to the labels first. -/
def clampN (v : S262144.Idx → BitVec 32) : S262144.Idx → BitVec 32 :=
  maxsi (broadcastInDim S262144 ![] bcast_S_S262144 (id (constantI S_ 32 0#32))) v

/-- The histogram of the labels: a scatter-add of ones. -/
def countsN (l : S128x2048.Idx → BitVec 32) : S64.Idx → BitVec 32 :=
  Host.scatter scatter_S64_S262144x1_S262144_n_0_0_1 IntOp.addi (broadcastInDim S64 ![] bcast_S_S64 (constantI S_ 32 0#32))
    (colN (wrapN (clampN (labN l)))) (broadcastInDim S262144 ![] bcast_S_S262144 (constantI S_ 32 1#32))

/-- The divisor `max(1, count)` as a float, along the rows of the centers. -/
def denN (l : S128x2048.Idx → BitVec 32) : S64x128.Idx → EReal :=
  broadcastInDim S64x128 ![0, 1] bcast_S64x1_S64x128_0_1 (broadcastInDim S64x1 ![0] bcast_S64_S64x1_0
    (sitofp (F := Ideal) .f32 (maxsi (broadcastInDim S64 ![] bcast_S_S64 (id (constantI S_ 32 1#32))) (countsN l))))

/-- The segment sum of `centers[label] − feature` by label. -/
def segN (x : S128x128x2048.Idx → EReal) (l : S128x2048.Idx → BitVec 32) (ce : S64x128.Idx → EReal) : S64x128.Idx → EReal :=
  Host.scatterAdd scatter_S64x128_S262144x1_S262144x128_1_0_0_1
    (broadcastInDim S64x128 ![] bcast_S_S64x128 (constant (F := Ideal) S_ .f32 0x00000000#32))
    (colN (labN l)) (subf (cbN l ce) (featN x))

theorem clampN_apply (v : S262144.Idx → BitVec 32) (i : S262144.Idx) (h : (v i).toNat < 64) : clampN v i = v i :=
  word_clamp h

/-- A flat row as an index of the flattened labels. -/
def idx1 : Fin 262144 ≃ S262144.Idx where
  toFun n := ix1 n
  invFun j := j 0
  left_inv _ := rfl
  right_inv j := (eq_ix1 j).symm

/-- The histogram's cell `c` holds the number of positions of class `c`. -/
theorem countsN_apply (l : S128x2048.Idx → BitVec 32) (hl : ∀ i, (l i).toNat < 64) (c : Fin 64) :
    countsN l (ix1 c) = BitVec.ofNat 32 (cnt l c) := by
  have key : ∀ (b : Fin 128) (t : Fin 2048),
      scatter_S64_S262144x1_S262144_n_0_0_1.resultIdx? (ix1 (flat (b, t))) (colN (wrapN (clampN (labN l)))) = some (ix1 c)
        ↔ cls l b t = c := by
    intro b t
    have hw : (labN l (ix1 (flat (b, t)))).toNat < 64 := by rw [labN_apply]; exact hl _
    have hc : clampN (labN l) (ix1 (flat (b, t))) = l (ix2 b t) := by rw [clampN_apply _ _ hw, labN_apply]
    have hwr : colN (wrapN (clampN (labN l))) (ix2 (flat (b, t)) 0) = l (ix2 b t) := by
      rw [colN_apply, wrapN_apply _ _ (by rw [hc]; exact hl _), hc]
    refine (cellScatter_resultIdx scatter_S64_S262144x1_S262144_n_0_0_1_wf _ (flat (b, t)) c).trans ?_
    rw [hwr]
    exact cls_eq_iff l hl b t c
  have h0 : broadcastInDim S64 ![] bcast_S_S64 (constantI S_ 32 0#32) = fun _ => (0#32 : BitVec 32) := rfl
  have h1 : broadcastInDim S262144 ![] bcast_S_S262144 (constantI S_ 32 1#32) = fun _ => (1#32 : BitVec 32) := rfl
  unfold countsN
  rw [h0, h1, scatter_addi_ones]
  refine congrArg (BitVec.ofNat 32) ?_
  unfold cnt
  refine (Finset.card_equiv (flat.trans idx1) ?_).symm
  rintro ⟨b, t⟩
  simp only [Finset.mem_filter, Finset.mem_univ, true_and]
  exact (key b t).symm

theorem cnt_le (l : S128x2048.Idx → BitVec 32) (c : Fin 64) : cnt l c ≤ 262144 := by
  unfold cnt
  refine (Finset.card_filter_le _ _).trans ?_
  rw [Finset.card_univ, Fintype.card_prod, Fintype.card_fin, Fintype.card_fin]

/-- `max(1, k)` on words, read signed, for a count `k`. -/
theorem word_max1 (k : ℕ) (hk : k ≤ 262144) :
    (IntOp.maxsi 1#32 (BitVec.ofNat 32 k)).toInt = ((max 1 k : ℕ) : Int) := by
  have hn : (BitVec.ofNat 32 k).toNat = k := by rw [BitVec.toNat_ofNat]; omega
  have e : (BitVec.ofNat 32 k).toInt = (k : Int) := by unfold BitVec.toInt; rw [hn, if_pos (by omega)]
  have e1 : (1#32 : BitVec 32).toInt = 1 := by decide
  unfold IntOp.maxsi BitVec.slt
  rw [e, e1]
  rcases Nat.lt_or_ge k 1 with h | h
  · rw [if_pos (by simp; omega), e1, max_eq_left (by omega)]; rfl
  · rw [if_neg (by simp; omega), e, max_eq_right h]

/-- The divisor at `(c, d)` is the class's `max(count, 1)`. -/
theorem denN_apply (l : S128x2048.Idx → BitVec 32) (hl : ∀ i, (l i).toNat < 64) (c : Fin 64) (d : Fin 128) :
    denN l (ix2 c d) = denE l c := by
  unfold denN
  rw [broadcastInDim_apply _ _ _ _ (ix2 c 0 : S64x1.Idx) (by intro a; fin_cases a <;> rfl),
    broadcastInDim_apply _ _ _ _ (ix1 c : S64.Idx) (by intro a; fin_cases a; rfl), sitofp_apply]
  have hone : broadcastInDim S64 ![] bcast_S_S64 (id (constantI S_ 32 1#32)) (ix1 c) = (1#32 : BitVec 32) := rfl
  rw [sitofp_word, maxsi_at, hone, countsN_apply l hl c, word_max1 _ (cnt_le l c)]
  unfold denE
  norm_cast

/-! ## The segment sum -/

/-- The segment sum at `(c, d)`: over the positions of class `c`, `centers[class, d] − x[b, d, t]`. -/
theorem segN_apply (x : S128x128x2048.Idx → EReal) (l : S128x2048.Idx → BitVec 32) (ce : S64x128.Idx → EReal)
    (hl : ∀ i, (l i).toNat < 64) (c : Fin 64) (d : Fin 128) :
    segN x l ce (ix2 c d)
      = ∑ p ∈ Finset.univ.filter (fun p : Fin 128 × Fin 2048 => cls l p.1 p.2 = c),
          (ce (ix2 (cls l p.1 p.2) d) - x (ix3 p.1 d p.2)) := by
  have h0 : broadcastInDim S64x128 ![] bcast_S_S64x128 (constant (F := Ideal) S_ .f32 0x00000000#32) (ix2 c d) = 0 :=
    Ideal.ofBits_zero_f32
  unfold segN
  rw [scatterAdd_at, h0, zero_add, Finset.sum_filter, Finset.sum_filter, sum_idx2, ← Equiv.sum_comp flat, Fintype.sum_prod_type,
    Fintype.sum_prod_type]
  refine Finset.sum_congr rfl fun b _ => Finset.sum_congr rfl fun t _ => ?_
  have hidx : colN (labN l) (ix2 (flat (b, t)) 0) = l (ix2 b t) := by rw [colN_apply, labN_apply]
  have key : ∀ k : Fin 128,
      scatter_S64x128_S262144x1_S262144x128_1_0_0_1.resultIdx? (ix2 (flat (b, t)) k) (colN (labN l)) = some (ix2 c d)
        ↔ (cls l b t = c ∧ k = d) := by
    intro k
    refine (rowScatter_resultIdx scatter_S64x128_S262144x1_S262144x128_1_0_0_1_wf _ (flat (b, t)) k c d).trans ?_
    rw [hidx, cls_eq_iff l hl]
  simp only [key]
  by_cases hc : cls l b t = c
  · simp only [hc, true_and, if_true, Finset.sum_ite_eq', Finset.mem_univ]
    rw [subf_apply, cbN_apply l ce hl, featN_apply, hc]
  · simp only [hc, false_and, if_false, Finset.sum_const_zero]

/-- The reference's difference on the flattened arrays. -/
theorem diff_flat (x : S128x128x2048.Idx → EReal) (l : S128x2048.Idx → BitVec 32) (ce : S64x128.Idx → EReal)
    (hl : ∀ i, (l i).toNat < 64) :
    (Host.divf (segN x l ce) (denN l) : FVec Ideal S64x128 .f32)
      = fun j => rDiff x l ce ⟨(j 0).val, (j 0).isLt⟩ ⟨(j 1).val, (j 1).isLt⟩ := by
  funext j
  have h := segN_apply x l ce hl ⟨(j 0).val, (j 0).isLt⟩ ⟨(j 1).val, (j 1).isLt⟩
  have h' := denN_apply l hl ⟨(j 0).val, (j 0).isLt⟩ ⟨(j 1).val, (j 1).isLt⟩
  have hj : ix2 (⟨(j 0).val, (j 0).isLt⟩ : Fin 64) (⟨(j 1).val, (j 1).isLt⟩ : Fin 128) = j := (eq_ix2 j).symm
  rw [hj] at h h'
  rw [hostDivf_at, h, h']
  unfold rDiff
  with_reducible rfl

/-! ## The two results of the run -/

variable (m : (ℓ : Loc nD τ sig) → Buf (Elt Ideal) ℓ) (c : Dev nD)

set_option maxHeartbeats 2000000 in
/-- The reference's first result is the loss of its three arguments, when every label word is a class. -/
theorem ref_loss (hl : ∀ i, ((m ((c.tc : Thread nD τ).loc main_arg1)) i).toNat < 64) :
    after (ops (F := Ideal)) (launchContents m c) (Proc.devRef .tc main_v13)
      = fun _ => rLoss (m ((c.tc : Thread nD τ).loc main_arg0)) (m ((c.tc : Thread nD τ).loc main_arg1))
          (m ((c.tc : Thread nD τ).loc main_arg2)) := by
  after_results_simp
  exact loss_flat (m ((c.tc : Thread nD τ).loc main_arg0)) (m ((c.tc : Thread nD τ).loc main_arg1))
    (m ((c.tc : Thread nD τ).loc main_arg2)) hl

/-- A transport along an equation between one type and itself is the identity. -/
theorem cast_self {α : Sort _} (h : α = α) (a : α) : cast h a = a := eq_of_heq (cast_heq h a)

set_option maxHeartbeats 2000000 in
/-- The reference's second result is the difference of its three arguments, when every label word is a class. -/
theorem ref_diff (hl : ∀ i, ((m ((c.tc : Thread nD τ).loc main_arg1)) i).toNat < 64) :
    after (ops (F := Ideal)) (launchContents m c) (Proc.devRef .tc main_v32)
      = fun j => rDiff (m ((c.tc : Thread nD τ).loc main_arg0)) (m ((c.tc : Thread nD τ).loc main_arg1))
          (m ((c.tc : Thread nD τ).loc main_arg2)) ⟨(j 0).val, (j 0).isLt⟩ ⟨(j 1).val, (j 1).isLt⟩ := by
  after_results_simp
  simp only [TRef.ofBuf, TRef.toBuf]
  simp only [cast_self]
  exact diff_flat (m ((c.tc : Thread nD τ).loc main_arg0)) (m ((c.tc : Thread nD τ).loc main_arg1))
    (m ((c.tc : Thread nD τ).loc main_arg2)) hl

end Cert.ReferenceIdeal.RefValue

end
-- ==== Proof.Algebra.lean ====
/-
  The center loss reassembled from partial sums equals the center loss formed directly.

  For real features and centers and labels that are classes in [0, 64):
  * `kLoss_eq_rLoss`: the loss the kernel reassembles from its per-half class sums and sums of squares,
    `(Σ x² − 2 Σ_{c,d} ce c d · S c d + Σ_c count_c · Σ_d (ce c d)²) / (N D)` with `S c d = Σ_{(b,t) of class c} x b d t`,
    is the mean of `(x b d t − ce (cls b t) d)²`: expand the square and group the positions by their class;
  * `kDiff_eq_rDiff`: `(count_c · ce c d − S c d) / max(count_c, 1)` is the sum over the positions of class `c` of
    `ce c d − x b d t` over the same divisor.
  Both reduce to identities between finite sums of real numbers: the extended-real sums of real entries are the
  coercions of the real sums, and the kernel's grid `(p, bh, i)` enumerates the 128 sequences exactly once.
-/
import proofs.«418262_j59717225283874_3_alg».proof.Proof.Spec
import Mathlib.Data.EReal.Operations
import Mathlib.Data.Fintype.BigOperators
import Mathlib.Algebra.BigOperators.Ring.Finset
import Mathlib.Algebra.BigOperators.Group.Finset.Piecewise
import Mathlib.Tactic.Ring
import Mathlib.Tactic.NormNum

noncomputable section

namespace Cert.CenterLoss

open Idealize.ShloMosaic Idealize.ShloMosaic.ValueIdx

/-- The coercion of a finite real sum is the extended-real sum of the coercions. -/
theorem coe_sum {ι : Type*} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-- The literal 2.0 is the real number 2. -/
theorem two_eq : two = ((2 : ℝ) : EReal) := by
  unfold two
  simp [Ideal.ofBits, Ideal.ieee, -EReal.coe_mul]; norm_num

/-- For a label in range, the one-hot entry is the indicator of "the class of the position is `c`". -/
theorem oh_eq (l : SL.Idx → BitVec 32) (hl : ∀ i, (l i).toNat < 64) (b : Fin 128) (t : Fin 2048) (c : Fin 64) :
    oh (l (ix2 b t)) c = ((if cls l b t = c then (1 : ℝ) else 0 : ℝ) : EReal) := by
  have h := hl (ix2 b t)
  have hcv := c.isLt
  unfold oh cls
  by_cases hc : (l (ix2 b t)).toNat = c.val
  · have h1 : BitVec.ofNat 32 c.val = l (ix2 b t) := by
      apply BitVec.eq_of_toNat_eq
      rw [BitVec.toNat_ofNat]; omega
    have h2 : (⟨(l (ix2 b t)).toNat % 64, Nat.mod_lt _ (by decide)⟩ : Fin 64) = c := by
      apply Fin.ext; show (l (ix2 b t)).toNat % 64 = c.val; omega
    rw [if_pos h1, if_pos h2, EReal.coe_one]
  · have h1 : ¬ BitVec.ofNat 32 c.val = l (ix2 b t) := by
      intro he
      apply hc
      rw [← he, BitVec.toNat_ofNat]; omega
    have h2 : ¬ (⟨(l (ix2 b t)).toNat % 64, Nat.mod_lt _ (by decide)⟩ : Fin 64) = c := by
      intro he
      apply hc
      have := congrArg Fin.val he
      simp only at this
      omega
    rw [if_neg h1, if_neg h2, EReal.coe_zero]

/-- The kernel's grid enumerates the sequences: `(p, bh, i) ↦ (p·8 + bh)·8 + i` is a bijection onto `Fin 128`. -/
def rowEquiv : Fin 2 × Fin 8 × Fin 8 ≃ Fin 128 where
  toFun q := row q.1 q.2.1 q.2.2
  invFun b := (⟨b.val / 64, by omega⟩, ⟨b.val / 8 % 8, by omega⟩, ⟨b.val % 8, by omega⟩)
  left_inv := by
    rintro ⟨p, bh, i⟩
    simp only [row, Prod.mk.injEq]
    refine ⟨Fin.ext ?_, Fin.ext ?_, Fin.ext ?_⟩ <;> simp only <;> omega
  right_inv := by
    intro b
    apply Fin.ext
    simp only [row]
    omega

/-- A sum over the grid is the sum over the sequences. -/
theorem sum_row (f : Fin 128 → ℝ) :
    ∑ p : Fin 2, ∑ bh : Fin 8, ∑ i : Fin 8, f (row p bh i) = ∑ b : Fin 128, f b := by
  rw [← rowEquiv.sum_comp f, Fintype.sum_prod_type]
  refine Finset.sum_congr rfl fun p _ => ?_
  rw [Fintype.sum_prod_type]
  rfl

/-- Reordering a fourfold sum. -/
theorem sum4_reorder {C D B T : Type*} [Fintype C] [Fintype D] [Fintype B] [Fintype T] (F : C → D → B → T → ℝ) :
    ∑ c, ∑ d, ∑ b, ∑ t, F c d b t = ∑ b, ∑ t, ∑ d, ∑ c, F c d b t := by
  calc ∑ c, ∑ d, ∑ b, ∑ t, F c d b t
      = ∑ d, ∑ c, ∑ b, ∑ t, F c d b t := Finset.sum_comm
    _ = ∑ d, ∑ b, ∑ c, ∑ t, F c d b t := Finset.sum_congr rfl fun _ _ => Finset.sum_comm
    _ = ∑ b, ∑ d, ∑ c, ∑ t, F c d b t := Finset.sum_comm
    _ = ∑ b, ∑ d, ∑ t, ∑ c, F c d b t :=
        Finset.sum_congr rfl fun _ _ => Finset.sum_congr rfl fun _ _ => Finset.sum_comm
    _ = ∑ b, ∑ t, ∑ d, ∑ c, F c d b t := Finset.sum_congr rfl fun _ _ => Finset.sum_comm

/-- Grouping the positions by class: `Σ_c count_c · G c = Σ_{b,t} G (cls b t)`. -/
theorem sum_count_mul (K : Fin 128 → Fin 2048 → Fin 64) (n : Fin 64 → ℕ)
    (hn : ∀ c, n c = (Finset.univ.filter fun q : Fin 128 × Fin 2048 => K q.1 q.2 = c).card) (G : Fin 64 → ℝ) :
    ∑ c : Fin 64, (n c : ℝ) * G c = ∑ b : Fin 128, ∑ t : Fin 2048, G (K b t) := by
  rw [← Fintype.sum_prod_type (f := fun q : Fin 128 × Fin 2048 => G (K q.1 q.2)),
    ← Finset.sum_fiberwise' Finset.univ (fun q : Fin 128 × Fin 2048 => K q.1 q.2) G]
  refine Finset.sum_congr rfl fun c _ => ?_
  rw [Finset.sum_const, nsmul_eq_mul, hn c]

/-- The cross term: `Σ_{c,d} ce c d · S c d = Σ_{b,t,d} ce (cls b t) d · x b d t`. -/
theorem sum_cross (X : Fin 128 → Fin 128 → Fin 2048 → ℝ) (Ce : Fin 64 → Fin 128 → ℝ)
    (K : Fin 128 → Fin 2048 → Fin 64) :
    ∑ c : Fin 64, ∑ d : Fin 128, Ce c d * ∑ b : Fin 128, ∑ t : Fin 2048,
        (if K b t = c then (1 : ℝ) else 0) * X b d t
      = ∑ b : Fin 128, ∑ t : Fin 2048, ∑ d : Fin 128, Ce (K b t) d * X b d t := by
  simp only [Finset.mul_sum]
  rw [sum4_reorder (fun c d b t => Ce c d * ((if K b t = c then (1 : ℝ) else 0) * X b d t))]
  refine Finset.sum_congr rfl fun b _ => Finset.sum_congr rfl fun t _ => Finset.sum_congr rfl fun d _ => ?_
  rw [Finset.sum_eq_single (K b t)]
  · rw [if_pos rfl, one_mul]
  · intro c _ hc
    rw [if_neg (Ne.symm hc), zero_mul, mul_zero]
  · intro h; exact absurd (Finset.mem_univ _) h

/-- The real identity behind the loss. -/
theorem loss_real (X : Fin 128 → Fin 128 → Fin 2048 → ℝ) (Ce : Fin 64 → Fin 128 → ℝ)
    (K : Fin 128 → Fin 2048 → Fin 64) (n : Fin 64 → ℕ)
    (hn : ∀ c, n c = (Finset.univ.filter fun q : Fin 128 × Fin 2048 => K q.1 q.2 = c).card) :
    ((∑ p : Fin 2, ∑ bh : Fin 8, ∑ i : Fin 8, ∑ d : Fin 128, ∑ t : Fin 2048,
          X (row p bh i) d t * X (row p bh i) d t)
        - 2 * (∑ c : Fin 64, ∑ d : Fin 128, Ce c d * ∑ p : Fin 2, ∑ bh : Fin 8, ∑ i : Fin 8, ∑ t : Fin 2048,
            (if K (row p bh i) t = c then (1 : ℝ) else 0) * X (row p bh i) d t))
      + (∑ c : Fin 64, (n c : ℝ) * ∑ d : Fin 128, Ce c d * Ce c d)
    = ∑ b : Fin 128, ∑ t : Fin 2048, ∑ d : Fin 128,
        (X b d t - Ce (K b t) d) * (X b d t - Ce (K b t) d) := by
  have h1 : (∑ p : Fin 2, ∑ bh : Fin 8, ∑ i : Fin 8, ∑ d : Fin 128, ∑ t : Fin 2048,
          X (row p bh i) d t * X (row p bh i) d t)
      = ∑ b : Fin 128, ∑ t : Fin 2048, ∑ d : Fin 128, X b d t * X b d t := by
    rw [show (∑ p : Fin 2, ∑ bh : Fin 8, ∑ i : Fin 8, ∑ d : Fin 128, ∑ t : Fin 2048,
          X (row p bh i) d t * X (row p bh i) d t) = ∑ b : Fin 128, ∑ d : Fin 128, ∑ t : Fin 2048, X b d t * X b d t
        from sum_row (fun b => ∑ d : Fin 128, ∑ t : Fin 2048, X b d t * X b d t)]
    exact Finset.sum_congr rfl fun _ _ => Finset.sum_comm
  have h2 : ∀ (c : Fin 64) (d : Fin 128),
      (∑ p : Fin 2, ∑ bh : Fin 8, ∑ i : Fin 8, ∑ t : Fin 2048,
          (if K (row p bh i) t = c then (1 : ℝ) else 0) * X (row p bh i) d t)
      = ∑ b : Fin 128, ∑ t : Fin 2048, (if K b t = c then (1 : ℝ) else 0) * X b d t := fun c d =>
    sum_row (fun b => ∑ t : Fin 2048, (if K b t = c then (1 : ℝ) else 0) * X b d t)
  simp only [h2]
  rw [h1, sum_cross, sum_count_mul K n hn (fun c => ∑ d : Fin 128, Ce c d * Ce c d)]
  simp only [Finset.mul_sum, ← Finset.sum_sub_distrib, ← Finset.sum_add_distrib]
  refine Finset.sum_congr rfl fun b _ => Finset.sum_congr rfl fun t _ => Finset.sum_congr rfl fun d _ => ?_
  ring

/-- The real identity behind the difference. -/
theorem diff_real (X : Fin 128 → Fin 128 → Fin 2048 → ℝ) (Ce : Fin 64 → Fin 128 → ℝ)
    (K : Fin 128 → Fin 2048 → Fin 64) (n : Fin 64 → ℕ)
    (hn : ∀ c, n c = (Finset.univ.filter fun q : Fin 128 × Fin 2048 => K q.1 q.2 = c).card)
    (c : Fin 64) (d : Fin 128) :
    (n c : ℝ) * Ce c d - (∑ p : Fin 2, ∑ bh : Fin 8, ∑ i : Fin 8, ∑ t : Fin 2048,
          (if K (row p bh i) t = c then (1 : ℝ) else 0) * X (row p bh i) d t)
    = ∑ q ∈ Finset.univ.filter (fun q : Fin 128 × Fin 2048 => K q.1 q.2 = c),
        (Ce (K q.1 q.2) d - X q.1 d q.2) := by
  rw [show (∑ p : Fin 2, ∑ bh : Fin 8, ∑ i : Fin 8, ∑ t : Fin 2048,
          (if K (row p bh i) t = c then (1 : ℝ) else 0) * X (row p bh i) d t)
      = ∑ b : Fin 128, ∑ t : Fin 2048, (if K b t = c then (1 : ℝ) else 0) * X b d t
      from sum_row (fun b => ∑ t : Fin 2048, (if K b t = c then (1 : ℝ) else 0) * X b d t)]
  have hR : ∑ q ∈ Finset.univ.filter (fun q : Fin 128 × Fin 2048 => K q.1 q.2 = c),
        (Ce (K q.1 q.2) d - X q.1 d q.2)
      = ∑ q ∈ Finset.univ.filter (fun q : Fin 128 × Fin 2048 => K q.1 q.2 = c), (Ce c d - X q.1 d q.2) :=
    Finset.sum_congr rfl fun q hq => by rw [(Finset.mem_filter.1 hq).2]
  rw [hR, Finset.sum_sub_distrib, Finset.sum_const, nsmul_eq_mul, ← hn c, Finset.sum_filter,
    Fintype.sum_prod_type]
  congr 1
  refine Finset.sum_congr rfl fun b _ => Finset.sum_congr rfl fun t _ => ?_
  by_cases h : K b t = c
  · rw [if_pos h, if_pos h, one_mul]
  · rw [if_neg h, if_neg h, zero_mul]

/-- An entry of the kernel's class-sum window is the half's class sum. -/
theorem segArr_ix3 (x : SX.Idx → EReal) (l : SL.Idx → BitVec 32) (p : Fin 2) (c : Fin 64) (d : Fin 128) :
    segArr x l (ix3 p c d) = segS x l p c d := rfl

/-- An entry of the kernel's sum-of-squares window is the half's sum of squares. -/
theorem ssqArr_ix3 (x : SX.Idx → EReal) (p : Fin 2) : ssqArr x (ix3 p 0 0) = ssqS x p := rfl

theorem kLoss_eq_rLoss (x : SX.Idx → EReal) (l : SL.Idx → BitVec 32) (ce : SC.Idx → EReal)
    (hx : ∀ i, ∃ r : ℝ, x i = (r : EReal)) (hce : ∀ i, ∃ r : ℝ, ce i = (r : EReal)) (hl : ∀ i, (l i).toNat < 64) :
    kLoss (segArr x l) (ssqArr x) l ce = rLoss x l ce := by
  choose xr hxr using hx
  choose cr hcr using hce
  obtain rfl : x = fun i => ((xr i : ℝ) : EReal) := funext hxr
  obtain rfl : ce = fun i => ((cr i : ℝ) : EReal) := funext hcr
  have key := congrArg (fun r : ℝ => (r : EReal))
    (loss_real (fun b d t => xr (ix3 b d t)) (fun c d => cr (ix2 c d)) (cls l) (cnt l) (fun c => rfl))
  simp only [EReal.coe_add, EReal.coe_sub, EReal.coe_mul, coe_sum] at key
  unfold kLoss rLoss
  refine congrArg (fun a => Ideal.div a nd) ?_
  simp only [segT, segArr_ix3, ssqArr_ix3, segS, ssqS, cntE, two_eq, oh_eq l hl]
  exact key

theorem kDiff_eq_rDiff (x : SX.Idx → EReal) (l : SL.Idx → BitVec 32) (ce : SC.Idx → EReal)
    (hx : ∀ i, ∃ r : ℝ, x i = (r : EReal)) (hce : ∀ i, ∃ r : ℝ, ce i = (r : EReal)) (hl : ∀ i, (l i).toNat < 64)
    (c : Fin 64) (d : Fin 128) :
    kDiff (segArr x l) l ce c d = rDiff x l ce c d := by
  choose xr hxr using hx
  choose cr hcr using hce
  obtain rfl : x = fun i => ((xr i : ℝ) : EReal) := funext hxr
  obtain rfl : ce = fun i => ((cr i : ℝ) : EReal) := funext hcr
  have key := congrArg (fun r : ℝ => (r : EReal))
    (diff_real (fun b d t => xr (ix3 b d t)) (fun c d => cr (ix2 c d)) (cls l) (cnt l) (fun c => rfl) c d)
  simp only [EReal.coe_sub, EReal.coe_mul, coe_sum] at key
  unfold kDiff rDiff
  refine congrArg (fun a => Ideal.div a (denE l c)) ?_
  simp only [segT, segArr_ix3, segS, cntE, oh_eq l hl]
  exact key

end Cert.CenterLoss

end
-- ==== Proof.PreDecode.lean ====
/-
  What the printed input predicate says, read back. The predicate is the conjunction of three
  "for all" statements, each a reduction by `and` of a one-bit array from the constant 1:
  every |x| < +∞, every |ce| < +∞, and every label word l satisfies 0 ≤ l and l < 64 as a signed
  integer. When the predicate's value is 1, each reduction is 1, hence each element of each
  compared array is 1. Over the extended reals, max a (-a) < ⊤ excludes a = ⊤ and a = ⊥, so a is a
  real number; and a 32-bit word whose signed reading lies in [0, 64) has the same unsigned reading,
  which is therefore below 64.
-/
import proofs.«418262_j59717225283874_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

namespace Cert.CenterLoss

open Idealize.ShloMosaic

/-- The binary32 pattern with exponent field all ones and zero fraction denotes +∞. -/
private theorem posInf_eq_top : Ideal.ofBits .f32 0x7F800000#32 = (⊤ : EReal) := by
  simp [Ideal.ofBits, Ideal.ieee]

/-- An extended real whose absolute value max a (-a) lies strictly below +∞ is a real number:
    at ⊤ the maximum is ⊤, at ⊥ it is -⊥ = ⊤. -/
private theorem real_of_abs_lt_top (a : EReal) (h : max a (-a) < ⊤) : ∃ r : ℝ, a = (r : EReal) := by
  induction a using EReal.rec with
  | bot => simp at h
  | coe r => exact ⟨r, rfl⟩
  | top => simp at h

/-- The input predicate holding (its one bit is 1) gives: every entry of x and of ce is a real number,
    and every label is below 64. -/
theorem of_pre (x : FVec Ideal Cert.Pre_finite_inputs.S128x128x2048 .f32) (l : IVec Cert.Pre_finite_inputs.S128x2048 32)
    (ce : FVec Ideal Cert.Pre_finite_inputs.S64x128 .f32)
    (h : Cert.Pre_finite_inputs.fn (F := Ideal) x l ce = fun _ => 1#1) :
    (∀ i, ∃ r : ℝ, x i = (r : EReal)) ∧ (∀ i, ∃ r : ℝ, ce i = (r : EReal)) ∧ (∀ i, (l i).toNat < 64) := by
  -- the rank-0 shape has exactly one index
  haveI : Subsingleton Cert.Pre_finite_inputs.S_.Idx := ⟨fun a b => funext fun d => d.elim0⟩
  have e := congrFun h ValueIdx.ix0
  dsimp only [Cert.Pre_finite_inputs.fn] at e
  -- (A ∧ B) ∧ C, each conjunct a reduction by `and`
  rw [andi, IntOp.andi_eq_one] at e
  obtain ⟨e12, e3⟩ := e
  rw [andi, IntOp.andi_eq_one] at e12
  obtain ⟨e1, e2⟩ := e12
  -- a reduction by `and` over all axes that is 1 met a 1 at every index
  have a1 := fun i => Host.reduce_andi_all _ _ _ _ _ e1 i
  have a2 := fun i => Host.reduce_andi_all _ _ _ _ _ e2 i
  have a3 := fun i => Host.reduce_andi_all _ _ _ _ _ e3 i
  refine ⟨fun i => ?_, fun i => ?_, fun i => ?_⟩
  · -- |x i| < +∞
    have c := a1 i
    change Ideal.cmp .olt (max (x i) (-(x i))) (Ideal.ofBits .f32 0x7F800000#32) = 1#1 at c
    rw [posInf_eq_top] at c
    simp only [Ideal.cmp, StableHlo.Predicate.ofBool_eq_one_iff, decide_eq_true_eq] at c
    exact real_of_abs_lt_top _ c
  · -- |ce i| < +∞
    have c := a2 i
    change Ideal.cmp .olt (max (ce i) (-(ce i))) (Ideal.ofBits .f32 0x7F800000#32) = 1#1 at c
    rw [posInf_eq_top] at c
    simp only [Ideal.cmp, StableHlo.Predicate.ofBool_eq_one_iff, decide_eq_true_eq] at c
    exact real_of_abs_lt_top _ c
  · -- 0 ≤ l i < 64 as signed integers; a word with nonnegative signed reading reads the same unsigned
    have c := a3 i
    change IntOp.andi (IntOp.cmpi .sge (l i) 0#32) (IntOp.cmpi .slt (l i) 64#32) = 1#1 at c
    rw [IntOp.andi_eq_one, IntOp.cmpi_sge, IntOp.cmpi_slt] at c
    obtain ⟨c0, c64⟩ := c
    rw [show (0#32 : BitVec 32).toInt = 0 from by decide] at c0
    rw [show (64#32 : BitVec 32).toInt = 64 from by decide] at c64
    have hb := (l i).isLt
    rw [BitVec.toInt] at c0 c64
    split at c0 <;> omega

end Cert.CenterLoss
-- ==== Proof.lean ====
/-
  Center loss, kernel against reference, over the extended reals.

  Both programs compute, from features x[b, d, t], labels and centers ce[c, d], the mean squared distance of every position's
  feature vector to the center of its class, and per class the summed difference ce − x divided by the class's size. The
  reference forms these sums directly. The kernel streams the features once: on a (2, 8) grid it accumulates, per half of
  the batch, the class sums of the features (a one-hot matrix of the labels times the features) and the sum of the
  features' squares, and the host then reassembles the two results by expanding the square,
      Σ (x − ce)² = Σ x² − 2 Σ ce · S + Σ_c count_c · |ce_c|²,      Σ_{class c} (ce − x) = count_c · ce − S.
  These identities hold when every input is a real number and every label is a class in [0, 64): the precondition. Outside
  that range the reference itself indexes the centers out of range.

  The frames: each kernel program's body meets the pipeline's obligation at every grid point (a case split on whether the
  accumulators are reset at the point, the eight trips through the loop's invariant); the reference is host operations only.
  The values: the accumulators after each point by recursion on the point, the output arrays from the two flushing points,
  the host operations after the region read at an index, the reference read at an index, and the algebra above.
-/
import proofs.«418262_j59717225283874_3_alg».proof.Defs
import proofs.«418262_j59717225283874_3_alg».proof.Proof.Gen.Kernel
import proofs.«418262_j59717225283874_3_alg».proof.Proof.Gen.KernelIdeal
import proofs.«418262_j59717225283874_3_alg».proof.Proof.Gen.ReferenceIdeal
import proofs.«418262_j59717225283874_3_alg».proof.Proof.Gen.Pre_finite_inputs
import proofs.«418262_j59717225283874_3_alg».proof.Proof.BodyKernel
import proofs.«418262_j59717225283874_3_alg».proof.Proof.BodyKernelIdeal
import proofs.«418262_j59717225283874_3_alg».proof.Proof.KArr
import proofs.«418262_j59717225283874_3_alg».proof.Proof.KTail
import proofs.«418262_j59717225283874_3_alg».proof.Proof.RefValue
import proofs.«418262_j59717225283874_3_alg».proof.Proof.Algebra
import proofs.«418262_j59717225283874_3_alg».proof.Proof.PreDecode
import Idealize.ShloMosaic.Adequacy
import Idealize.ShloMosaic.Init

noncomputable section

namespace Cert.Proof

open Idealize.ShloMosaic Idealize.ShloMosaic.TcCoe Idealize.SL.Sem Cert.CenterLoss

/-- The word-level kernel program runs and keeps its arguments: its body meets the obligation at every point. -/
theorem frame_k : Cert.frame_Kernel := fun m ρ _ => Cert.Kernel.Body.frame m ρ
/-- So does the idealized one. -/
theorem frame_ki : Cert.frame_KernelIdeal := fun m ρ _ => Cert.KernelIdeal.Body.frame m ρ
/-- The reference is host operations only. -/
theorem frame_ri : Cert.frame_ReferenceIdeal := fun m ρ _ =>
  (θ_run Cert.ReferenceIdeal.defs _ _).mono (fun _ h c => (h c).2.2) (Cert.ReferenceIdeal.ValueP.run (F := Ideal) m ρ)

/-- From arguments that agree, real and with labels in range, both programs end with the reference's loss and difference. -/
theorem algebraic : Cert.algebraic_KernelIdeal_ReferenceIdeal := by
  intro m ρ m' ρ' hpre hagree
  have hp := fun c => Cert.CenterLoss.of_pre _ _ _ (hpre c)
  refine ⟨fun c => fun _ => rLoss (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      fun c => fun j => rDiff (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) ⟨(j 0).val, (j 0).isLt⟩ ⟨(j 1).val, (j 1).isLt⟩,
      ?_, ?_⟩
  · -- the kernel: the region's arrays, then the host operations after it, then the algebra
    refine (θ_run Cert.KernelIdeal.defs _ _).mono (fun r h c => ?_) (Cert.KernelIdeal.Body.run_main (F := Ideal) m ρ)
    obtain ⟨hx, hce, hl⟩ := hp c
    have h33 := ((h c).2 Cert.KernelIdeal.main_v33 (Pipeline.mem_restRefs_of Cert.KernelIdeal.main_v33 (by decide) (by decide))).trans
      (Cert.KernelIdeal.Tail.tail_loss m (Cert.KernelIdeal.Body.dats m) (Cert.KernelIdeal.Body.A_eq m) c hl)
    have h23 := ((h c).2 Cert.KernelIdeal.main_v23 (Pipeline.mem_restRefs_of Cert.KernelIdeal.main_v23 (by decide) (by decide))).trans
      (Cert.KernelIdeal.Tail.tail_diff m (Cert.KernelIdeal.Body.dats m) (Cert.KernelIdeal.Body.A_eq m) c hl)
    rw [Cert.KernelIdeal.KValue.final2 m c, Cert.KernelIdeal.KValue.final3 m c] at h33
    rw [Cert.KernelIdeal.KValue.final2 m c] at h23
    exact ⟨h33.trans (funext fun _ => kLoss_eq_rLoss _ _ _ hx hce hl),
      h23.trans (funext fun j => kDiff_eq_rDiff _ _ _ hx hce hl _ _),
      ((h c).1 0).trans (((Cert.KernelIdeal.Body.dats m 0 c).arrAt_in 0 rfl _).trans ((Cert.KernelIdeal.Body.A_eq m c 0).trans (Cert.KernelIdeal.Gen.V_main_arg0 m c))),
      ((h c).2 Cert.KernelIdeal.main_arg1 (Pipeline.mem_restRefs_of Cert.KernelIdeal.main_arg1 (by decide) (by decide))).trans (Cert.KernelIdeal.Gen.W_main_arg1 m (Cert.KernelIdeal.Body.dats m) c),
      ((h c).2 Cert.KernelIdeal.main_arg2 (Pipeline.mem_restRefs_of Cert.KernelIdeal.main_arg2 (by decide) (by decide))).trans (Cert.KernelIdeal.Gen.W_main_arg2 m (Cert.KernelIdeal.Body.dats m) c)⟩
  · -- the reference, read at an index, from the same arguments
    refine (θ_run Cert.ReferenceIdeal.defs _ _).mono (fun r h c => ?_) (Cert.ReferenceIdeal.ValueP.run (F := Ideal) m' ρ')
    obtain ⟨hx, hce, hl⟩ := hp c
    obtain ⟨e0, e1, e2⟩ := hagree c
    have hl' : ∀ i, ((m' ((c.tc : Thread Cert.ReferenceIdeal.nD Cert.ReferenceIdeal.τ).loc Cert.ReferenceIdeal.main_arg1)) i).toNat < 64 := by
      rw [e1]; exact hl
    refine ⟨(h c).1.trans ((Cert.ReferenceIdeal.RefValue.ref_loss m' c hl').trans ?_),
      (h c).2.1.trans ((Cert.ReferenceIdeal.RefValue.ref_diff m' c hl').trans ?_), (h c).2.2.1, (h c).2.2.2.1, (h c).2.2.2.2⟩
    · rw [e0, e1, e2]; rfl
    · rw [e0, e1, e2]; rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
